-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x16 : Shape := ⟨2, ![256, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part8 {F : FTy → Type} [FloatOps F] (main_v133 : IVec S_ 1) (main_v136 : IVec S16 1) : IVec S_ 1 :=
  let main_c_53 : IVec S_ 1 := constantI S_ 1 1#1
  let main_v137 : IVec S_ 1 := (fun x v => Host.reduce IntOp.andi x v reducesTo_S16_S_d0 h_S_) main_v136 main_c_53
  let main_v138 : IVec S_ 1 := andi main_v133 main_v137
  main_v138

def fn_part7 {F : FTy → Type} [FloatOps F] (main_arg29 : FVec F S256 .f32) (main_arg30 : FVec F S256x16 .f32) (main_arg31 : FVec F S16 .f32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg29
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S256x16 .f32 := Host.absf main_arg30
  let main_cst_50 : FVec F S_ .f32 := constant S_ .f32 0x7F800000#32
  let main_v130 : FVec F S256x16 .f32 := broadcastInDim S256x16 ![] bcast_S_S256x16 main_cst_50
  let main_v131 : IVec S256x16 1 := cmpf .olt main_v129 main_v130
  let main_c_51 : IVec S_ 1 := constantI S_ 1 1#1
  let main_v132 : IVec S_ 1 := (fun x v => Host.reduce IntOp.andi x v reducesTo_S256x16_S_d0_1 h_S_) main_v131 main_c_51
  let main_v133 : IVec S_ 1 := andi main_v128 main_v132
  let main_v134 : FVec F S16 .f32 := Host.absf main_arg31
  let main_cst_52 : FVec F S_ .f32 := constant S_ .f32 0x7F800000#32
  let main_v135 : FVec F S16 .f32 := broadcastInDim S16 ![] bcast_S_S16 main_cst_52
  let main_v136 : IVec S16 1 := cmpf .olt main_v134 main_v135
  fn_part8 (F := F) main_v133 main_v136

def fn_part6 {F : FTy → Type} [FloatOps F] (main_arg25 : FVec F S1 .f32) (main_arg26 : FVec F S256x256 .f32) (main_arg27 : FVec F S256 .f32) (main_arg28 : FVec F S256x256 .f32) (main_arg29 : FVec F S256 .f32) (main_arg30 : FVec F S256x16 .f32) (main_arg31 : FVec F S16 .f32) (main_v98 : IVec S_ 1) (main_v101 : IVec S256x1 1) (main_c_39 : IVec S_ 1) : IVec S_ 1 :=
  let main_v102 : IVec S_ 1 := (fun x v => Host.reduce IntOp.andi x v reducesTo_S256x1_S_d0_1 h_S_) main_v101 main_c_39
  let main_v103 : IVec S_ 1 := andi main_v98 main_v102
  let main_v104 : FVec F S1 .f32 := Host.absf main_arg25
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_v109 : FVec F S256x256 .f32 := Host.absf main_arg26
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256 .f32 := Host.absf main_arg27
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256x256 .f32 := Host.absf main_arg28
  fn_part7 (F := F) main_arg29 main_arg30 main_arg31 main_v118 main_v119

def fn_part5 {F : FTy → Type} [FloatOps F] (main_arg22 : FVec F S256x1 .f32) (main_arg23 : FVec F S1 .f32) (main_arg24 : FVec F S256x1 .f32) (main_arg25 : FVec F S1 .f32) (main_arg26 : FVec F S256x256 .f32) (main_arg27 : FVec F S256 .f32) (main_arg28 : FVec F S256x256 .f32) (main_arg29 : FVec F S256 .f32) (main_arg30 : FVec F S256x16 .f32) (main_arg31 : FVec F S16 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S256x1 .f32 := Host.absf main_arg22
  let main_cst_34 : FVec F S_ .f32 := constant S_ .f32 0x7F800000#32
  let main_v90 : FVec F S256x1 .f32 := broadcastInDim S256x1 ![] bcast_S_S256x1 main_cst_34
  let main_v91 : IVec S256x1 1 := cmpf .olt main_v89 main_v90
  let main_c_35 : IVec S_ 1 := constantI S_ 1 1#1
  let main_v92 : IVec S_ 1 := (fun x v => Host.reduce IntOp.andi x v reducesTo_S256x1_S_d0_1 h_S_) main_v91 main_c_35
  let main_v93 : IVec S_ 1 := andi main_v88 main_v92
  let main_v94 : FVec F S1 .f32 := Host.absf main_arg23
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S256x1 .f32 := Host.absf main_arg24
  let main_cst_38 : FVec F S_ .f32 := constant S_ .f32 0x7F800000#32
  let main_v100 : FVec F S256x1 .f32 := broadcastInDim S256x1 ![] bcast_S_S256x1 main_cst_38
  let main_v101 : IVec S256x1 1 := cmpf .olt main_v99 main_v100
  let main_c_39 : IVec S_ 1 := constantI S_ 1 1#1
  fn_part6 (F := F) main_arg25 main_arg26 main_arg27 main_arg28 main_arg29 main_arg30 main_arg31 main_v98 main_v101 main_c_39

def fn_part4 {F : FTy → Type} [FloatOps F] (main_arg18 : FVec F S256x1 .f32) (main_arg19 : FVec F S1 .f32) (main_arg20 : FVec F S256x1 .f32) (main_arg21 : FVec F S1 .f32) (main_arg22 : FVec F S256x1 .f32) (main_arg23 : FVec F S1 .f32) (main_arg24 : FVec F S256x1 .f32) (main_arg25 : FVec F S1 .f32) (main_arg26 : FVec F S256x256 .f32) (main_arg27 : FVec F S256 .f32) (main_arg28 : FVec F S256x256 .f32) (main_arg29 : FVec F S256 .f32) (main_arg30 : FVec F S256x16 .f32) (main_arg31 : FVec F S16 .f32) (main_v63 : IVec S_ 1) (main_v67 : IVec S_ 1) : IVec S_ 1 :=
  let main_v68 : IVec S_ 1 := andi main_v63 main_v67
  let main_v69 : FVec F S256x1 .f32 := Host.absf main_arg18
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg19
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S256x1 .f32 := Host.absf main_arg20
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg21
  let main_cst_32 : FVec F S_ .f32 := constant S_ .f32 0x7F800000#32
  fn_part5 (F := F) main_arg22 main_arg23 main_arg24 main_arg25 main_arg26 main_arg27 main_arg28 main_arg29 main_arg30 main_arg31 main_v83 main_v84 main_cst_32

def fn_part3 {F : FTy → Type} [FloatOps F] (main_arg15 : FVec F S256 .f32) (main_arg16 : FVec F S256x256 .f32) (main_arg17 : FVec F S256 .f32) (main_arg18 : FVec F S256x1 .f32) (main_arg19 : FVec F S1 .f32) (main_arg20 : FVec F S256x1 .f32) (main_arg21 : FVec F S1 .f32) (main_arg22 : FVec F S256x1 .f32) (main_arg23 : FVec F S1 .f32) (main_arg24 : FVec F S256x1 .f32) (main_arg25 : FVec F S1 .f32) (main_arg26 : FVec F S256x256 .f32) (main_arg27 : FVec F S256 .f32) (main_arg28 : FVec F S256x256 .f32) (main_arg29 : FVec F S256 .f32) (main_arg30 : FVec F S256x16 .f32) (main_arg31 : FVec F S16 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg15
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg16
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg17
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg18 main_arg19 main_arg20 main_arg21 main_arg22 main_arg23 main_arg24 main_arg25 main_arg26 main_arg27 main_arg28 main_arg29 main_arg30 main_arg31 main_v63 main_v67

def fn_part2 {F : FTy → Type} [FloatOps F] (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x1 .f32) (main_arg19 : FVec F S1 .f32) (main_arg20 : FVec F S256x1 .f32) (main_arg21 : FVec F S1 .f32) (main_arg22 : FVec F S256x1 .f32) (main_arg23 : FVec F S1 .f32) (main_arg24 : FVec F S256x1 .f32) (main_arg25 : FVec F S1 .f32) (main_arg26 : FVec F S256x256 .f32) (main_arg27 : FVec F S256 .f32) (main_arg28 : FVec F S256x256 .f32) (main_arg29 : FVec F S256 .f32) (main_arg30 : FVec F S256x16 .f32) (main_arg31 : FVec F S16 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg14
  let main_cst_18 : FVec F S_ .f32 := constant S_ .f32 0x7F800000#32
  let main_v50 : FVec F S256x256 .f32 := broadcastInDim S256x256 ![] bcast_S_S256x256 main_cst_18
  fn_part3 (F := F) main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x1 .f32) (main_arg19 : FVec F S1 .f32) (main_arg20 : FVec F S256x1 .f32) (main_arg21 : FVec F S1 .f32) (main_arg22 : FVec F S256x1 .f32) (main_arg23 : FVec F S1 .f32) (main_arg24 : FVec F S256x1 .f32) (main_arg25 : FVec F S1 .f32) (main_arg26 : FVec F S256x256 .f32) (main_arg27 : FVec F S256 .f32) (main_arg28 : FVec F S256x256 .f32) (main_arg29 : FVec F S256 .f32) (main_arg30 : FVec F S256x16 .f32) (main_arg31 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S100000x256 .f32) (main_arg1 : FVec F S100000x256 .f32) (main_arg2 : IVec S800000 32) (main_arg3 : IVec S800000 32) (main_arg4 : IVec S800000 32) (main_arg5 : IVec S800000 32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x1 .f32) (main_arg19 : FVec F S1 .f32) (main_arg20 : FVec F S256x1 .f32) (main_arg21 : FVec F S1 .f32) (main_arg22 : FVec F S256x1 .f32) (main_arg23 : FVec F S1 .f32) (main_arg24 : FVec F S256x1 .f32) (main_arg25 : FVec F S1 .f32) (main_arg26 : FVec F S256x256 .f32) (main_arg27 : FVec F S256 .f32) (main_arg28 : FVec F S256x256 .f32) (main_arg29 : FVec F S256 .f32) (main_arg30 : FVec F S256x16 .f32) (main_arg31 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x16 : Shape := ⟨2, ![256, 16]⟩
abbrev S16 : Shape := ⟨1, ![16]⟩
abbrev S1x256 : Shape := ⟨2, ![1, 256]⟩
abbrev S1x1 : Shape := ⟨2, ![1, 1]⟩
abbrev S100000x1 : Shape := ⟨2, ![100000, 1]⟩
abbrev S2000x256 : Shape := ⟨2, ![2000, 256]⟩
abbrev S2000x1 : Shape := ⟨2, ![2000, 1]⟩
abbrev S_ : Shape := ⟨0, ![]⟩
abbrev S800000x1 : Shape := ⟨2, ![800000, 1]⟩
abbrev S800000x256 : Shape := ⟨2, ![800000, 256]⟩
abbrev S100000 : Shape := ⟨1, ![100000]⟩
abbrev S1x16 : Shape := ⟨2, ![1, 16]⟩
abbrev S100000x16 : Shape := ⟨2, ![100000, 16]⟩
abbrev S2000x16 : Shape := ⟨2, ![2000, 16]⟩

abbrev nBuf : Space → Nat
  | .hbm => 66
  | .vmem => 42
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x1, .f32⟩
  | .hbm, ⟨19, _⟩ => ⟨S1, .f32⟩
  | .hbm, ⟨20, _⟩ => ⟨S256x1, .f32⟩
  | .hbm, ⟨21, _⟩ => ⟨S1, .f32⟩
  | .hbm, ⟨22, _⟩ => ⟨S256x1, .f32⟩
  | .hbm, ⟨23, _⟩ => ⟨S1, .f32⟩
  | .hbm, ⟨24, _⟩ => ⟨S256x1, .f32⟩
  | .hbm, ⟨25, _⟩ => ⟨S1, .f32⟩
  | .hbm, ⟨26, _⟩ => ⟨S256x256, .f32⟩
  | .hbm, ⟨27, _⟩ => ⟨S256, .f32⟩
  | .hbm, ⟨28, _⟩ => ⟨S256x256, .f32⟩
  | .hbm, ⟨29, _⟩ => ⟨S256, .f32⟩
  | .hbm, ⟨30, _⟩ => ⟨S256x16, .f32⟩
  | .hbm, ⟨31, _⟩ => ⟨S16, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x1, .f32⟩
  | .hbm, ⟨36, _⟩ => ⟨S1x1, .f32⟩
  | .hbm, ⟨37, _⟩ => ⟨S100000x256, .f32⟩
  | .hbm, ⟨38, _⟩ => ⟨S100000x1, .f32⟩
  | .hbm, ⟨39, _⟩ => ⟨S100000x1, .f32⟩
  | .hbm, ⟨40, _⟩ => ⟨S100000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S100000x256, .f32⟩
  | .hbm, ⟨52, _⟩ => ⟨S800000x1, .i32⟩
  | .hbm, ⟨53, _⟩ => ⟨S100000x256, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S100000, .f32⟩
  | .hbm, ⟨58, _⟩ => ⟨S800000x1, .i32⟩
  | .hbm, ⟨59, _⟩ => ⟨S100000, .f32⟩
  | .hbm, ⟨60, _⟩ => ⟨S100000x1, .f32⟩
  | .hbm, ⟨61, _⟩ => ⟨S1x256, .f32⟩
  | .hbm, ⟨62, _⟩ => ⟨S1x256, .f32⟩
  | .hbm, ⟨63, _⟩ => ⟨S1x1, .f32⟩
  | .hbm, ⟨64, _⟩ => ⟨S1x16, .f32⟩
  | .hbm, ⟨65, _⟩ => ⟨S100000x16, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x1, .f32⟩
  | .local _ .vmem, ⟨9, _⟩ => ⟨S1x1, .f32⟩
  | .local _ .vmem, ⟨10, _⟩ => ⟨S256x1, .f32⟩
  | .local _ .vmem, ⟨11, _⟩ => ⟨S1x1, .f32⟩
  | .local _ .vmem, ⟨12, _⟩ => ⟨S2000x256, .f32⟩
  | .local _ .vmem, ⟨13, _⟩ => ⟨S2000x256, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x1, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x1, .f32⟩
  | .local _ .vmem, ⟨26, _⟩ => ⟨S2000x1, .f32⟩
  | .local _ .vmem, ⟨27, _⟩ => ⟨S2000x1, .f32⟩
  | .local _ .vmem, ⟨28, _⟩ => ⟨S2000x1, .f32⟩
  | .local _ .vmem, ⟨29, _⟩ => ⟨S2000x256, .f32⟩
  | .local _ .vmem, ⟨30, _⟩ => ⟨S2000x256, .f32⟩
  | .local _ .vmem, ⟨31, _⟩ => ⟨S2000x1, .f32⟩
  | .local _ .vmem, ⟨32, _⟩ => ⟨S2000x1, .f32⟩
  | .local _ .vmem, ⟨33, _⟩ => ⟨S1x256, .f32⟩
  | .local _ .vmem, ⟨34, _⟩ => ⟨S256x256, .f32⟩
  | .local _ .vmem, ⟨35, _⟩ => ⟨S1x256, .f32⟩
  | .local _ .vmem, ⟨36, _⟩ => ⟨S256x1, .f32⟩
  | .local _ .vmem, ⟨37, _⟩ => ⟨S1x1, .f32⟩
  | .local _ .vmem, ⟨38, _⟩ => ⟨S256x16, .f32⟩
  | .local _ .vmem, ⟨39, _⟩ => ⟨S1x16, .f32⟩
  | .local _ .vmem, ⟨40, _⟩ => ⟨S2000x16, .f32⟩
  | .local _ .vmem, ⟨41, _⟩ => ⟨S2000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5_0 : Ref sig .tc := ⟨.hbm, 37, rfl⟩
abbrev main_v5_1 : Ref sig .tc := ⟨.hbm, 38, rfl⟩
abbrev main_v5_2 : Ref sig .tc := ⟨.hbm, 39, rfl⟩
abbrev main_v6 : Ref sig .tc := ⟨.hbm, 40, rfl⟩
abbrev main_c : Ref sig .tc := ⟨.hbm, 41, rfl⟩
abbrev main_v7 : Ref sig .tc := ⟨.hbm, 42, rfl⟩
abbrev main_v8 : Ref sig .tc := ⟨.hbm, 43, rfl⟩
abbrev main_c_0 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_1 : Ref sig .tc := ⟨.hbm, 54, rfl⟩
abbrev main_v17 : Ref sig .tc := ⟨.hbm, 55, rfl⟩
abbrev main_cst_2 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg2_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg11_0 : Ref sig .tc := ⟨.vmem, 39, rfl⟩
abbrev cc2_stg12_0 : Ref sig .tc := ⟨.vmem, 40, rfl⟩
abbrev cc2_stg12_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem2_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem11_0 : DmaSem sig := 39
abbrev cc2_sem12_0 : DmaSem sig := 40
abbrev cc2_sem12_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x16 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x16 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S2000x16 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  shapeCasts_S256_S1x256 : S256.ShapeCasts S1x256
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S_S100000 : S_.BroadcastsInDim S100000 (![] : Fin 0 → Fin S100000.rank)
  shapeCasts_S100000_S100000x1 : S100000.ShapeCasts S100000x1
  shapeCasts_S16_S1x16 : S16.ShapeCasts S1x16
  shapeCasts_S2000x256_S2000x256 : S2000x256.ShapeCasts S2000x256
  shapeCasts_S2000x1_S2000x1 : S2000x1.ShapeCasts S2000x1
  broadcasts_S2000x1_S2000x256 : S2000x1.Broadcasts S2000x256
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  dot_S2000x256_S256x16_S2000x16_1_0_0_1_n_n_wf : DotDims.WF S2000x256 S256x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1.size a ≤ S256x1.size a
  hwx0_9 : ∀ i : grid0.Coords, EltTy.bits .f32 = 32 ∨ (Rect.block (s := S256x1) S256x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x256.size a ≤ S100000x256.size a
  hwx0_11 : ∀ i : grid0.Coords, EltTy.bits .f32 = 32 ∨ (Rect.block (s := S100000x256) S2000x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x1.size a ≤ S100000x1.size a
  hwx0_12 : ∀ i : grid0.Coords, EltTy.bits .f32 = 32 ∨ (Rect.block (s := S100000x1) S2000x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x1.size a ≤ S100000x1.size a
  hwx0_13 : ∀ i : grid0.Coords, EltTy.bits .f32 = 32 ∨ (Rect.block (s := S100000x1) S2000x1.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S100000x256.size a
  hwx2_3 : ∀ i : grid2.Coords, EltTy.bits .f32 = 32 ∨ (Rect.block (s := S100000x256) S2000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S100000x1.size a
  hwx2_4 : ∀ i : grid2.Coords, EltTy.bits .f32 = 32 ∨ (Rect.block (s := S100000x1) S2000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x1.size a ≤ S256x1.size a
  hwx2_8 : ∀ i : grid2.Coords, EltTy.bits .f32 = 32 ∨ (Rect.block (s := S256x1) S256x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256x16.size a ≤ S256x16.size a
  hwx2_10 : ∀ i : grid2.Coords, EltTy.bits .f32 = 32 ∨ (Rect.block (s := S256x16) S256x16.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x16.size a ≤ S1x16.size a
  hwx2_11 : ∀ i : grid2.Coords, EltTy.bits .f32 = 32 ∨ (Rect.block (s := S1x16) S1x16.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2000x16.size a ≤ S100000x16.size a
  hwx2_12 : ∀ i : grid2.Coords, EltTy.bits .f32 = 32 ∨ (Rect.block (s := S100000x16) S2000x16.size (cc2_transform_12 i) (hinb2_12 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg14) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg18) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg22) S256x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5_0) S2000x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5_1) S2000x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5_2) S2000x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg26) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5_0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_1) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5_2) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S2000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v21) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v22) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg14) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v23) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S256x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v24) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg30) S256x16.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v25) S1x16.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v26) S2000x16.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x16 : Shape := ⟨2, ![256, 16]⟩
abbrev S16 : Shape := ⟨1, ![16]⟩
abbrev S1x256 : Shape := ⟨2, ![1, 256]⟩
abbrev S100000x1 : Shape := ⟨2, ![100000, 1]⟩
abbrev S1x1 : Shape := ⟨2, ![1, 1]⟩
abbrev S_ : Shape := ⟨0, ![]⟩
abbrev S800000x1 : Shape := ⟨2, ![800000, 1]⟩
abbrev S800000x256 : Shape := ⟨2, ![800000, 256]⟩
abbrev S100000 : Shape := ⟨1, ![100000]⟩
abbrev S1x100000x1 : Shape := ⟨3, ![1, 100000, 1]⟩
abbrev S2x100000x1 : Shape := ⟨3, ![2, 100000, 1]⟩
abbrev S100000x16 : Shape := ⟨2, ![100000, 16]⟩
abbrev S1x16 : Shape := ⟨2, ![1, 16]⟩

abbrev nBuf : Space → Nat
  | .hbm => 266
  | .vmem => 0
  | .smem => 0
  | _ => 0

abbrev hbmTy0_0 (i : Nat) : BufTy := match i % 128 with
  | 0 => ⟨S100000x256, .f32⟩
  | 1 => ⟨S100000x256, .f32⟩
  | 2 => ⟨S800000, .i32⟩
  | 3 => ⟨S800000, .i32⟩
  | 4 => ⟨S800000, .i32⟩
  | 5 => ⟨S800000, .i32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x1, .f32⟩
  | 19 => ⟨S1, .f32⟩
  | 20 => ⟨S256x1, .f32⟩
  | 21 => ⟨S1, .f32⟩
  | 22 => ⟨S256x1, .f32⟩
  | 23 => ⟨S1, .f32⟩
  | 24 => ⟨S256x1, .f32⟩
  | 25 => ⟨S1, .f32⟩
  | 26 => ⟨S256x256, .f32⟩
  | 27 => ⟨S256, .f32⟩
  | 28 => ⟨S256x256, .f32⟩
  | 29 => ⟨S256, .f32⟩
  | 30 => ⟨S256x16, .f32⟩
  | 31 => ⟨S16, .f32⟩
  | 32 => ⟨S100000x256, .f32⟩
  | 33 => ⟨S1x256, .f32⟩
  | 34 => ⟨S100000x256, .f32⟩
  | 35 => ⟨S100000x256, .f32⟩
  | 36 => ⟨S100000x256, .f32⟩
  | 37 => ⟨S1x256, .f32⟩
  | 38 => ⟨S100000x256, .f32⟩
  | 39 => ⟨S100000x256, .f32⟩
  | 40 => ⟨S100000x256, .f32⟩
  | 41 => ⟨S1x256, .f32⟩
  | 42 => ⟨S100000x256, .f32⟩
  | 43 => ⟨S100000x256, .f32⟩
  | 44 => ⟨S100000x1, .f32⟩
  | 45 => ⟨S1x1, .f32⟩
  | 46 => ⟨S100000x1, .f32⟩
  | 47 => ⟨S100000x1, .f32⟩
  | 48 => ⟨S100000x256, .f32⟩
  | 49 => ⟨S1x256, .f32⟩
  | 50 => ⟨S100000x256, .f32⟩
  | 51 => ⟨S100000x256, .f32⟩
  | 52 => ⟨S100000x1, .f32⟩
  | 53 => ⟨S1x1, .f32⟩
  | 54 => ⟨S100000x1, .f32⟩
  | 55 => ⟨S100000x1, .f32⟩
  | 56 => ⟨S100000x256, .f32⟩
  | 57 => ⟨S1x256, .f32⟩
  | 58 => ⟨S100000x256, .f32⟩
  | 59 => ⟨S100000x256, .f32⟩
  | 60 => ⟨S100000x1, .f32⟩
  | 61 => ⟨S1x1, .f32⟩
  | 62 => ⟨S100000x1, .f32⟩
  | 63 => ⟨S100000x1, .f32⟩
  | 64 => ⟨S100000x256, .f32⟩
  | 65 => ⟨S1x256, .f32⟩
  | 66 => ⟨S100000x256, .f32⟩
  | 67 => ⟨S100000x256, .f32⟩
  | 68 => ⟨S100000x1, .f32⟩
  | 69 => ⟨S1x1, .f32⟩
  | 70 => ⟨S100000x1, .f32⟩
  | 71 => ⟨S100000x1, .f32⟩
  | 72 => ⟨S100000x256, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x256, .f32⟩
  | 82 => ⟨S_, .f32⟩
  | 83 => ⟨S100000x256, .f32⟩
  | 84 => ⟨S800000x1, .i32⟩
  | 85 => ⟨S100000x256, .f32⟩
  | 86 => ⟨S_, .f32⟩
  | 87 => ⟨S800000, .f32⟩
  | 88 => ⟨S_, .f32⟩
  | 89 => ⟨S100000, .f32⟩
  | 90 => ⟨S800000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x256, .f32⟩
  | 97 => ⟨S100000x256, .f32⟩
  | 98 => ⟨S1x256, .f32⟩
  | 99 => ⟨S100000x256, .f32⟩
  | 100 => ⟨S100000x256, .f32⟩
  | 101 => ⟨S100000x256, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x256, .f32⟩
  | 111 => ⟨S_, .f32⟩
  | 112 => ⟨S100000x256, .f32⟩
  | 113 => ⟨S800000x1, .i32⟩
  | 114 => ⟨S100000x256, .f32⟩
  | 115 => ⟨S_, .f32⟩
  | 116 => ⟨S800000, .f32⟩
  | 117 => ⟨S_, .f32⟩
  | 118 => ⟨S100000, .f32⟩
  | 119 => ⟨S800000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x256, .f32⟩
  | 126 => ⟨S100000x256, .f32⟩
  | 127 => ⟨S1x256, .f32⟩
  | _ => ⟨S100000x256, .f32⟩

abbrev hbmTy0_1 (i : Nat) : BufTy := match i % 128 with
  | 0 => ⟨S100000x256, .f32⟩
  | 1 => ⟨S100000x256, .f32⟩
  | 2 => ⟨S100000x256, .f32⟩
  | 3 => ⟨S1x256, .f32⟩
  | 4 => ⟨S100000x256, .f32⟩
  | 5 => ⟨S100000x256, .f32⟩
  | 6 => ⟨S100000x1, .f32⟩
  | 7 => ⟨S1x1, .f32⟩
  | 8 => ⟨S100000x1, .f32⟩
  | 9 => ⟨S100000x1, .f32⟩
  | 10 => ⟨S100000x1, .f32⟩
  | 11 => ⟨S_, .f32⟩
  | 12 => ⟨S100000x1, .f32⟩
  | 13 => ⟨S100000x1, .i1⟩
  | 14 => ⟨S_, .f32⟩
  | 15 => ⟨S100000x1, .f32⟩
  | 16 => ⟨S100000x1, .i1⟩
  | 17 => ⟨S_, .f32⟩
  | 18 => ⟨S_, .f32⟩
  | 19 => ⟨S100000x1, .f32⟩
  | 20 => ⟨S100000x1, .f32⟩
  | 21 => ⟨S100000x1, .f32⟩
  | 22 => ⟨S_, .f32⟩
  | 23 => ⟨S100000x1, .f32⟩
  | 24 => ⟨S100000x1, .f32⟩
  | 25 => ⟨S100000x1, .f32⟩
  | 26 => ⟨S100000x256, .f32⟩
  | 27 => ⟨S1x256, .f32⟩
  | 28 => ⟨S100000x256, .f32⟩
  | 29 => ⟨S100000x256, .f32⟩
  | 30 => ⟨S100000x1, .f32⟩
  | 31 => ⟨S1x1, .f32⟩
  | 32 => ⟨S100000x1, .f32⟩
  | 33 => ⟨S100000x1, .f32⟩
  | 34 => ⟨S100000x1, .f32⟩
  | 35 => ⟨S_, .f32⟩
  | 36 => ⟨S100000x1, .f32⟩
  | 37 => ⟨S100000x1, .i1⟩
  | 38 => ⟨S_, .f32⟩
  | 39 => ⟨S100000x1, .f32⟩
  | 40 => ⟨S100000x1, .i1⟩
  | 41 => ⟨S_, .f32⟩
  | 42 => ⟨S_, .f32⟩
  | 43 => ⟨S100000x1, .f32⟩
  | 44 => ⟨S100000x1, .f32⟩
  | 45 => ⟨S100000x1, .f32⟩
  | 46 => ⟨S_, .f32⟩
  | 47 => ⟨S100000x1, .f32⟩
  | 48 => ⟨S100000x1, .f32⟩
  | 49 => ⟨S100000x1, .f32⟩
  | 50 => ⟨S100000x1, .f32⟩
  | 51 => ⟨S_, .f32⟩
  | 52 => ⟨S100000x1, .f32⟩
  | 53 => ⟨S100000x1, .i1⟩
  | 54 => ⟨S_, .f32⟩
  | 55 => ⟨S100000x1, .f32⟩
  | 56 => ⟨S100000x1, .i1⟩
  | 57 => ⟨S_, .f32⟩
  | 58 => ⟨S_, .f32⟩
  | 59 => ⟨S100000x1, .f32⟩
  | 60 => ⟨S100000x1, .f32⟩
  | 61 => ⟨S100000x1, .f32⟩
  | 62 => ⟨S_, .f32⟩
  | 63 => ⟨S100000x1, .f32⟩
  | 64 => ⟨S100000x1, .f32⟩
  | 65 => ⟨S100000x1, .f32⟩
  | 66 => ⟨S1x100000x1, .f32⟩
  | 67 => ⟨S1x100000x1, .f32⟩
  | 68 => ⟨S2x100000x1, .f32⟩
  | 69 => ⟨S_, .f32⟩
  | 70 => ⟨S100000x1, .f32⟩
  | 71 => ⟨S_, .f32⟩
  | 72 => ⟨S100000x1, .f32⟩
  | 73 => ⟨S100000x1, .f32⟩
  | 74 => ⟨S1x100000x1, .f32⟩
  | 75 => ⟨S2x100000x1, .f32⟩
  | 76 => ⟨S2x100000x1, .f32⟩
  | 77 => ⟨S2x100000x1, .f32⟩
  | 78 => ⟨S_, .f32⟩
  | 79 => ⟨S100000x1, .f32⟩
  | 80 => ⟨S1x100000x1, .f32⟩
  | 81 => ⟨S2x100000x1, .f32⟩
  | 82 => ⟨S2x100000x1, .f32⟩
  | 83 => ⟨S100000x1, .f32⟩
  | 84 => ⟨S_, .f32⟩
  | 85 => ⟨S100000x1, .f32⟩
  | 86 => ⟨S100000x1, .i1⟩
  | 87 => ⟨S_, .f32⟩
  | 88 => ⟨S100000x1, .f32⟩
  | 89 => ⟨S100000x1, .i1⟩
  | 90 => ⟨S_, .f32⟩
  | 91 => ⟨S_, .f32⟩
  | 92 => ⟨S100000x1, .f32⟩
  | 93 => ⟨S100000x1, .f32⟩
  | 94 => ⟨S100000x1, .f32⟩
  | 95 => ⟨S_, .f32⟩
  | 96 => ⟨S100000x1, .f32⟩
  | 97 => ⟨S100000x1, .f32⟩
  | 98 => ⟨S100000x1, .f32⟩
  | 99 => ⟨S1x100000x1, .f32⟩
  | 100 => ⟨S1x100000x1, .f32⟩
  | 101 => ⟨S2x100000x1, .f32⟩
  | 102 => ⟨S_, .f32⟩
  | 103 => ⟨S100000x1, .f32⟩
  | 104 => ⟨S_, .f32⟩
  | 105 => ⟨S100000x1, .f32⟩
  | 106 => ⟨S100000x1, .f32⟩
  | 107 => ⟨S1x100000x1, .f32⟩
  | 108 => ⟨S2x100000x1, .f32⟩
  | 109 => ⟨S2x100000x1, .f32⟩
  | 110 => ⟨S2x100000x1, .f32⟩
  | 111 => ⟨S_, .f32⟩
  | 112 => ⟨S100000x1, .f32⟩
  | 113 => ⟨S1x100000x1, .f32⟩
  | 114 => ⟨S2x100000x1, .f32⟩
  | 115 => ⟨S2x100000x1, .f32⟩
  | 116 => ⟨S1x100000x1, .f32⟩
  | 117 => ⟨S100000x1, .f32⟩
  | 118 => ⟨S100000x256, .f32⟩
  | 119 => ⟨S100000x256, .f32⟩
  | 120 => ⟨S1x100000x1, .f32⟩
  | 121 => ⟨S100000x1, .f32⟩
  | 122 => ⟨S100000x256, .f32⟩
  | 123 => ⟨S100000x256, .f32⟩
  | 124 => ⟨S100000x256, .f32⟩
  | 125 => ⟨S1x100000x1, .f32⟩
  | 126 => ⟨S100000x1, .f32⟩
  | 127 => ⟨S100000x256, .f32⟩
  | _ => ⟨S100000x256, .f32⟩

abbrev hbmTy0_2 (i : Nat) : BufTy := match i % 128 with
  | 0 => ⟨S100000x256, .f32⟩
  | 1 => ⟨S1x100000x1, .f32⟩
  | 2 => ⟨S100000x1, .f32⟩
  | 3 => ⟨S100000x256, .f32⟩
  | 4 => ⟨S100000x256, .f32⟩
  | 5 => ⟨S100000x256, .f32⟩
  | 6 => ⟨S100000x16, .f32⟩
  | 7 => ⟨S1x16, .f32⟩
  | 8 => ⟨S100000x16, .f32⟩
  | 9 => ⟨S100000x16, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_c : Ref sig .tc := ⟨.hbm, 73, rfl⟩
abbrev main_v41 : Ref sig .tc := ⟨.hbm, 74, rfl⟩
abbrev main_v42 : Ref sig .tc := ⟨.hbm, 75, rfl⟩
abbrev main_c_0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_1 : Ref sig .tc := ⟨.hbm, 86, rfl⟩
abbrev main_v51 : Ref sig .tc := ⟨.hbm, 87, rfl⟩
abbrev main_cst_2 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_3 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_4 : Ref sig .tc := ⟨.hbm, 102, rfl⟩
abbrev main_v64 : Ref sig .tc := ⟨.hbm, 103, rfl⟩
abbrev main_v65 : Ref sig .tc := ⟨.hbm, 104, rfl⟩
abbrev main_c_5 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_6 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_7 : Ref sig .tc := ⟨.hbm, 115, rfl⟩
abbrev main_v74 : Ref sig .tc := ⟨.hbm, 116, rfl⟩
abbrev main_cst_8 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_9 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_call0_cst : Ref sig .tc := ⟨.hbm, 139, rfl⟩
abbrev main_call0_v0 : Ref sig .tc := ⟨.hbm, 140, rfl⟩
abbrev main_call0_v1 : Ref sig .tc := ⟨.hbm, 141, rfl⟩
abbrev main_call0_cst_0 : Ref sig .tc := ⟨.hbm, 142, rfl⟩
abbrev main_call0_v2 : Ref sig .tc := ⟨.hbm, 143, rfl⟩
abbrev main_call0_v3 : Ref sig .tc := ⟨.hbm, 144, rfl⟩
abbrev main_call0_cst_1 : Ref sig .tc := ⟨.hbm, 145, rfl⟩
abbrev main_call0_call0_v0 : Ref sig .tc := ⟨.hbm, 146, rfl⟩
abbrev main_call0_call0_v1 : Ref sig .tc := ⟨.hbm, 147, rfl⟩
abbrev main_call0_v4 : Ref sig .tc := ⟨.hbm, 148, rfl⟩
abbrev main_call0_v5 : Ref sig .tc := ⟨.hbm, 149, rfl⟩
abbrev main_call0_cst_2 : Ref sig .tc := ⟨.hbm, 150, rfl⟩
abbrev main_call0_v6 : Ref sig .tc := ⟨.hbm, 151, rfl⟩
abbrev main_call0_v7 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_call1_cst : Ref sig .tc := ⟨.hbm, 163, rfl⟩
abbrev main_call1_v0 : Ref sig .tc := ⟨.hbm, 164, rfl⟩
abbrev main_call1_v1 : Ref sig .tc := ⟨.hbm, 165, rfl⟩
abbrev main_call1_cst_0 : Ref sig .tc := ⟨.hbm, 166, rfl⟩
abbrev main_call1_v2 : Ref sig .tc := ⟨.hbm, 167, rfl⟩
abbrev main_call1_v3 : Ref sig .tc := ⟨.hbm, 168, rfl⟩
abbrev main_call1_cst_1 : Ref sig .tc := ⟨.hbm, 169, rfl⟩
abbrev main_call1_call0_v0 : Ref sig .tc := ⟨.hbm, 170, rfl⟩
abbrev main_call1_call0_v1 : Ref sig .tc := ⟨.hbm, 171, rfl⟩
abbrev main_call1_v4 : Ref sig .tc := ⟨.hbm, 172, rfl⟩
abbrev main_call1_v5 : Ref sig .tc := ⟨.hbm, 173, rfl⟩
abbrev main_call1_cst_2 : Ref sig .tc := ⟨.hbm, 174, rfl⟩
abbrev main_call1_v6 : Ref sig .tc := ⟨.hbm, 175, rfl⟩
abbrev main_call1_v7 : Ref sig .tc := ⟨.hbm, 176, rfl⟩
abbrev main_v105 : Ref sig .tc := ⟨.hbm, 177, rfl⟩
abbrev main_v106 : Ref sig .tc := ⟨.hbm, 178, rfl⟩
abbrev main_call2_cst : Ref sig .tc := ⟨.hbm, 179, rfl⟩
abbrev main_call2_v0 : Ref sig .tc := ⟨.hbm, 180, rfl⟩
abbrev main_call2_v1 : Ref sig .tc := ⟨.hbm, 181, rfl⟩
abbrev main_call2_cst_0 : Ref sig .tc := ⟨.hbm, 182, rfl⟩
abbrev main_call2_v2 : Ref sig .tc := ⟨.hbm, 183, rfl⟩
abbrev main_call2_v3 : Ref sig .tc := ⟨.hbm, 184, rfl⟩
abbrev main_call2_cst_1 : Ref sig .tc := ⟨.hbm, 185, rfl⟩
abbrev main_call2_call0_v0 : Ref sig .tc := ⟨.hbm, 186, rfl⟩
abbrev main_call2_call0_v1 : Ref sig .tc := ⟨.hbm, 187, rfl⟩
abbrev main_call2_v4 : Ref sig .tc := ⟨.hbm, 188, rfl⟩
abbrev main_call2_v5 : Ref sig .tc := ⟨.hbm, 189, rfl⟩
abbrev main_call2_cst_2 : Ref sig .tc := ⟨.hbm, 190, rfl⟩
abbrev main_call2_v6 : Ref sig .tc := ⟨.hbm, 191, rfl⟩
abbrev main_call2_v7 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_cst_10 : Ref sig .tc := ⟨.hbm, 197, rfl⟩
abbrev main_v111 : Ref sig .tc := ⟨.hbm, 198, rfl⟩
abbrev main_cst_11 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_12 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_call3_cst : Ref sig .tc := ⟨.hbm, 212, rfl⟩
abbrev main_call3_v0 : Ref sig .tc := ⟨.hbm, 213, rfl⟩
abbrev main_call3_v1 : Ref sig .tc := ⟨.hbm, 214, rfl⟩
abbrev main_call3_cst_0 : Ref sig .tc := ⟨.hbm, 215, rfl⟩
abbrev main_call3_v2 : Ref sig .tc := ⟨.hbm, 216, rfl⟩
abbrev main_call3_v3 : Ref sig .tc := ⟨.hbm, 217, rfl⟩
abbrev main_call3_cst_1 : Ref sig .tc := ⟨.hbm, 218, rfl⟩
abbrev main_call3_call0_v0 : Ref sig .tc := ⟨.hbm, 219, rfl⟩
abbrev main_call3_call0_v1 : Ref sig .tc := ⟨.hbm, 220, rfl⟩
abbrev main_call3_v4 : Ref sig .tc := ⟨.hbm, 221, rfl⟩
abbrev main_call3_v5 : Ref sig .tc := ⟨.hbm, 222, rfl⟩
abbrev main_call3_cst_2 : Ref sig .tc := ⟨.hbm, 223, rfl⟩
abbrev main_call3_v6 : Ref sig .tc := ⟨.hbm, 224, rfl⟩
abbrev main_call3_v7 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_cst_13 : Ref sig .tc := ⟨.hbm, 230, rfl⟩
abbrev main_v127 : Ref sig .tc := ⟨.hbm, 231, rfl⟩
abbrev main_cst_14 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_cst_15 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_v152 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x1 : S_.BroadcastsInDim S100000x1 (![] : Fin 0 → Fin S100000x1.rank)
  bcast_S100000x1_S1x100000x1_1_2 : S100000x1.BroadcastsInDim S1x100000x1 (![1, 2] : Fin 2 → Fin S1x100000x1.rank)
  concatenates_S1x100000x1_S1x100000x1_S2x100000x1_d0 : Shape.Concatenates [S1x100000x1, S1x100000x1] S2x100000x1 0
  reducesTo_S2x100000x1_S100000x1_d0 : S2x100000x1.ReducesTo [0] S100000x1
  h_S_ : 0 < S_.numel
  bcast_S1x100000x1_S2x100000x1_0_1_2 : S1x100000x1.BroadcastsInDim S2x100000x1 (![0, 1, 2] : Fin 3 → Fin S2x100000x1.rank)
  slices_S2x100000x1_S1x100000x1_0_0_0 : S2x100000x1.Slices ![0, 0, 0] S1x100000x1
  shapeCasts_S1x100000x1_S100000x1 : S1x100000x1.ShapeCasts S100000x1
  slices_S2x100000x1_S1x100000x1_1_0_0 : S2x100000x1.Slices ![1, 0, 0] S1x100000x1
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  dot_S100000x256_S256x16_S100000x16_1_0_0_1_n_n_wf : DotDims.WF S100000x256 S256x16 S100000x16 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# The function both programs compute

One layer of a two-type graph attention network, read on the paper nodes, over the extended reals. With
`N = 100000` nodes of each type, `E = 800000` edges and feature width `256`:

* a node's own transform `d = x·Ws + bs` and its two attention scalars `hl = (d·Wk + bk)·wal + bal`,
  `hr = (d·Wq + bq)·war + bar`;
* the messages `xa·Wc` of the source nodes, gathered along the edges and summed at each edge's target
  (`agg`), divided by the target's in-degree (at least one) and shifted by a bias: `cv`;
* the relation's attention scalar `ar = (cv·Wk + bk)·wal + bal + hr`;
* the two-way softmax of `elu (hl + hr)` and `elu ar`, which weights `d` and `cv`;
* a last affine map to `16` classes.

Every stage is stated index by index (a matrix product is the sum over the shared axis), except the gather along
edges and the two sums over edges, which both programs take with the same host operations: they stay whole-array
operations of their operands here, and nothing is ever asked about what they hold.
-/

noncomputable section

open scoped BigOperators

namespace Cert.Spec

open Idealize.ShloMosaic Idealize.ShloMosaic.ValueIdx

/-! ## Shapes -/

abbrev SNxD : Shape := ⟨2, ![100000, 256]⟩
abbrev SNx1 : Shape := ⟨2, ![100000, 1]⟩
abbrev SNxC : Shape := ⟨2, ![100000, 16]⟩
abbrev SN : Shape := ⟨1, ![100000]⟩
abbrev SDxD : Shape := ⟨2, ![256, 256]⟩
abbrev SDx1 : Shape := ⟨2, ![256, 1]⟩
abbrev SDxC : Shape := ⟨2, ![256, 16]⟩
abbrev SD : Shape := ⟨1, ![256]⟩
abbrev SC : Shape := ⟨1, ![16]⟩
abbrev S1 : Shape := ⟨1, ![1]⟩
abbrev S1xD : Shape := ⟨2, ![1, 256]⟩
abbrev S1xC : Shape := ⟨2, ![1, 16]⟩
abbrev S1x1 : Shape := ⟨2, ![1, 1]⟩
abbrev SE : Shape := ⟨1, ![800000]⟩
abbrev SEx1 : Shape := ⟨2, ![800000, 1]⟩
abbrev SExD : Shape := ⟨2, ![800000, 256]⟩
abbrev S0 : Shape := ⟨0, ![]⟩

/-- An array of extended reals of a given shape. -/
abbrev Arr (s : Shape) : Type := s.Idx → EReal

/-! ## A bias kept as a one-row array, a column kept as a one-column array -/

/-- The row of a `1 × 256` array. -/
def rowD (b : Arr S1xD) : Arr SD := fun j => b (ix2 (0 : Fin 1) (j 0))
/-- The row of a `1 × 16` array. -/
def rowC (b : Arr S1xC) : Arr SC := fun j => b (ix2 (0 : Fin 1) (j 0))
/-- The entry of a `1 × 1` array. -/
def row1 (b : Arr S1x1) : Arr S1 := fun j => b (ix2 (0 : Fin 1) (j 0))
/-- The column of an `N × 1` array. -/
def colN (d : Arr SNx1) : Arr SN := fun j => d (ix2 (j 0) (0 : Fin 1))

/-! ## The affine maps -/

/-- `x·w + b` for a `256 × 256` matrix: entry `(r, c)` is `∑ₖ x (r, k) · w (k, c) + b c`. -/
def linD (x : Arr SNxD) (w : Arr SDxD) (b : Arr SD) : Arr SNxD :=
  fun i => (∑ k : Fin 256, x (ix2 (i 0) k) * w (ix2 k (i 1))) + b (ix1 (i 1))
/-- `x·w` for a `256 × 256` matrix. -/
def mulD (x : Arr SNxD) (w : Arr SDxD) : Arr SNxD :=
  fun i => ∑ k : Fin 256, x (ix2 (i 0) k) * w (ix2 k (i 1))
/-- `x·w + b` for a `256 × 1` matrix. -/
def lin1 (x : Arr SNxD) (w : Arr SDx1) (b : Arr S1) : Arr SNx1 :=
  fun i => (∑ k : Fin 256, x (ix2 (i 0) k) * w (ix2 k (i 1))) + b (ix1 (i 1))
/-- `x·w + b` for a `256 × 16` matrix. -/
def linC (x : Arr SNxD) (w : Arr SDxC) (b : Arr SC) : Arr SNxC :=
  fun i => (∑ k : Fin 256, x (ix2 (i 0) k) * w (ix2 k (i 1))) + b (ix1 (i 1))

theorem linD_apply (x : Arr SNxD) (w : Arr SDxD) (b : Arr SD) (r : Fin 100000) (c : Fin 256) :
    linD x w b (ix2 r c) = (∑ k : Fin 256, x (ix2 r k) * w (ix2 k c)) + b (ix1 c) := rfl
theorem mulD_apply (x : Arr SNxD) (w : Arr SDxD) (r : Fin 100000) (c : Fin 256) :
    mulD x w (ix2 r c) = ∑ k : Fin 256, x (ix2 r k) * w (ix2 k c) := rfl
theorem lin1_apply (x : Arr SNxD) (w : Arr SDx1) (b : Arr S1) (r : Fin 100000) (c : Fin 1) :
    lin1 x w b (ix2 r c) = (∑ k : Fin 256, x (ix2 r k) * w (ix2 k c)) + b (ix1 c) := rfl
theorem linC_apply (x : Arr SNxD) (w : Arr SDxC) (b : Arr SC) (r : Fin 100000) (c : Fin 16) :
    linC x w b (ix2 r c) = (∑ k : Fin 256, x (ix2 r k) * w (ix2 k c)) + b (ix1 c) := rfl

/-! ## Along the edges: the same host operations in both programs -/

/-- The dimension numbers of "take row `idx e` of an `N × 256` table, for every edge `e`". -/
def gatherRows : GatherDims SNxD SEx1 SExD where
  offsetDims := [1]
  collapsedSliceDims := [0]
  operandBatchingDims := []
  startIndicesBatchingDims := []
  startIndexMap := [0]
  indexVectorDim := 1
  sliceSizes := ![1, 256]
  wf := by decide
/-- The dimension numbers of "add row `e` of an `E × 256` table into row `idx e` of an `N × 256` one". -/
def scatterRows : ScatterDims SNxD SEx1 SExD where
  updateWindowDims := [1]
  insertedWindowDims := [0]
  scatterDimsToOperandDims := [0]
  indexVectorDim := 1
  wf := by decide
/-- The dimension numbers of "add entry `e` of an `E`-vector into entry `idx e` of an `N`-vector". -/
def scatterOnes : ScatterDims SN SEx1 SE where
  updateWindowDims := []
  insertedWindowDims := [0]
  scatterDimsToOperandDims := [0]
  indexVectorDim := 1
  wf := by decide

theorem bcast_S0_SE : S0.BroadcastsInDim SE (![] : Fin 0 → Fin SE.rank) := by decide
theorem bcast_SE_SEx1 : SE.BroadcastsInDim SEx1 (![0] : Fin 1 → Fin SEx1.rank) := by decide
theorem bcast_S0_SNxD : S0.BroadcastsInDim SNxD (![] : Fin 0 → Fin SNxD.rank) := by decide
theorem bcast_S0_SN : S0.BroadcastsInDim SN (![] : Fin 0 → Fin SN.rank) := by decide

/-- The messages summed at each edge's target: a source index below zero counts from the end (one wrap), the rows
    `msg (src e)` are taken for every edge, and row `e` is added into row `dst e` of an array of zeros. -/
def agg (msg : Arr SNxD) (src dst : IVec SE 32) : Arr SNxD :=
  Host.scatterAdd (F := Ideal) scatterRows
    (broadcastInDim SNxD ![] bcast_S0_SNxD (constant (F := Ideal) S0 .f32 0x00000000#32))
    (broadcastInDim SEx1 ![0] bcast_SE_SEx1 dst)
    (Host.gather gatherRows msg
      (broadcastInDim SEx1 ![0] bcast_SE_SEx1
        (select (cmpi .slt src (broadcastInDim SE ![] bcast_S0_SE (constantI S0 32 0#32)))
          (addi src (broadcastInDim SE ![] bcast_S0_SE (constantI S0 32 100000#32))) src)))
/-- The in-degree of every target: a one for every edge, added into entry `dst e` of a vector of zeros. -/
def deg (dst : IVec SE 32) : Arr SN :=
  Host.scatterAdd (F := Ideal) scatterOnes
    (broadcastInDim SN ![] bcast_S0_SN (constant (F := Ideal) S0 .f32 0x00000000#32))
    (broadcastInDim SEx1 ![0] bcast_SE_SEx1 dst)
    (broadcastInDim SE ![] bcast_S0_SE (constant (F := Ideal) S0 .f32 0x3F800000#32))

/-! ## The pointwise stages -/

/-- The mean message plus a bias: `a (r, c) / max (g r) 1 + b c`. -/
def conv (a : Arr SNxD) (g : Arr SN) (b : Arr SD) : Arr SNxD :=
  fun i => Ideal.div (a i) (max (g (ix1 (i 0))) 1) + b (ix1 (i 1))
theorem conv_apply (a : Arr SNxD) (g : Arr SN) (b : Arr SD) (r : Fin 100000) (c : Fin 256) :
    conv a g b (ix2 r c) = Ideal.div (a (ix2 r c)) (max (g (ix1 r)) 1) + b (ix1 c) := rfl

/-- `z` where `z` is positive, `eᶻ − 1` elsewhere. -/
def elu (z : EReal) : EReal := Scalar.select (Ideal.cmp .ogt z 0) z (Ideal.exp z - 1)

/-- The softmax of a pair, first weight: `e^(s − m) / (e^(s − m) + e^(r − m))` with `m = max s r`. -/
def soft0 (s r : EReal) : EReal :=
  Ideal.div (Ideal.exp (s - max s r)) (Ideal.exp (s - max s r) + Ideal.exp (r - max s r))
/-- The softmax of a pair, second weight. -/
def soft1 (s r : EReal) : EReal :=
  Ideal.div (Ideal.exp (r - max s r)) (Ideal.exp (s - max s r) + Ideal.exp (r - max s r))

/-- A node's own attention logit. -/
def attSelf (hl hr : Arr SNx1) (r : Fin 100000) : EReal := elu (hl (ix2 r (0 : Fin 1)) + hr (ix2 r (0 : Fin 1)))
/-- The relation's attention logit: `(cv·Wk + bk)·wal + bal + hr`, through `elu`. -/
def attRel (cv : Arr SNxD) (hr : Arr SNx1) (wk : Arr SDxD) (bk : Arr SD) (wal : Arr SDx1) (bal : Arr S1) (r : Fin 100000) : EReal :=
  elu (lin1 (linD cv wk bk) wal bal (ix2 r (0 : Fin 1)) + hr (ix2 r (0 : Fin 1)))

/-- The attended features: the softmax weights of the two logits on the node's own transform and on the relation's. -/
def rst (d : Arr SNxD) (hl hr : Arr SNx1) (cv : Arr SNxD) (wk : Arr SDxD) (bk : Arr SD) (wal : Arr SDx1) (bal : Arr S1) : Arr SNxD :=
  fun i => soft0 (attSelf hl hr (i 0)) (attRel cv hr wk bk wal bal (i 0)) * d i
    + soft1 (attSelf hl hr (i 0)) (attRel cv hr wk bk wal bal (i 0)) * cv i
theorem rst_apply (d : Arr SNxD) (hl hr : Arr SNx1) (cv : Arr SNxD) (wk : Arr SDxD) (bk : Arr SD) (wal : Arr SDx1) (bal : Arr S1)
    (r : Fin 100000) (c : Fin 256) :
    rst d hl hr cv wk bk wal bal (ix2 r c) = soft0 (attSelf hl hr r) (attRel cv hr wk bk wal bal r) * d (ix2 r c)
      + soft1 (attSelf hl hr r) (attRel cv hr wk bk wal bal r) * cv (ix2 r c) := rfl

/-! ## The stages composed -/

/-- What the last kernel computes of the arrays it is given: the class scores of the attended features. -/
def combine (d : Arr SNxD) (hl hr : Arr SNx1) (a : Arr SNxD) (g : Arr SN) (cb : Arr SD) (wk : Arr SDxD) (bk : Arr SD)
    (wal : Arr SDx1) (bal : Arr S1) (cw : Arr SDxC) (cbs : Arr SC) : Arr SNxC :=
  linC (rst d hl hr (conv a g cb) wk bk wal bal) cw cbs

/-- The whole layer on the paper nodes, of the argument arrays. -/
def total (xp xa : Arr SNxD) (src dst : IVec SE 32) (ws : Arr SDxD) (bs : Arr SD) (wq : Arr SDxD) (bq : Arr SD)
    (wk : Arr SDxD) (bk : Arr SD) (wal : Arr SDx1) (bal : Arr S1) (war : Arr SDx1) (bar : Arr S1)
    (wc : Arr SDxD) (cb : Arr SD) (cw : Arr SDxC) (cbs : Arr SC) : Arr SNxC :=
  combine (linD xp ws bs) (lin1 (linD (linD xp ws bs) wk bk) wal bal) (lin1 (linD (linD xp ws bs) wq bq) war bar)
    (agg (mulD xa wc) src dst) (deg dst) cb wk bk wal bal cw cbs

end Cert.Spec

end
-- ==== Proof.LibDot.lean ====
/-
  A MATRIX PRODUCT WITH ONE CONTRACTED AXIS, READ AT AN OUTPUT INDEX.

  At the exact extended-real values a product of an M×K matrix by a K×N matrix, whose dimension numbers contract the
  left operand's axis 1 with the right operand's axis 0 and have no batch axis, is at the output index (m, n) the sum
  over k : Fin K of lhs (m, k) · rhs (k, n). The library states the product as a sum over the dimension numbers' own
  contraction index (a multi-index into the one-axis shape of extent K) at the operand indices the dimension numbers
  build; here that sum is re-indexed through the contraction index's one coordinate, and the two operand indices are
  computed axis by axis. The kernel's product into a zero accumulator and the host's product have the same reading.
-/
import Idealize.ShloMosaic.PureOps.Ideal.Laws
import Idealize.ShloMosaic.Lib.ValueIdx

noncomputable section

open scoped BigOperators

namespace Idealize.ShloMosaic.LibDot

open Idealize.ShloMosaic Idealize.ShloMosaic.ValueIdx

/-- The dimension numbers of a plain product: contract the left operand's axis 1 with the right operand's axis 0, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-! ## Off the contracting axes, for any dimension numbers: the operand index reads the output index -/

section General
variable {sl sr so : Shape} (d : DotDims sl sr so)

/-- The head of a one-element list. -/
theorem getElem_zero_of_eq_singleton {α : Type} {l : List α} {a : α} (h : l = [a]) (hp : 0 < l.length) : l[0] = a := by
  subst h; rfl

/-- A coordinate of an index depends only on the axis's number. -/
theorem idx_val_congr (j : so.Idx) (p q : Nat) (hp : p < so.rank) (hq : q < so.rank) (h : p = q) :
    (j ⟨p, hp⟩).val = (j ⟨q, hq⟩).val := by
  subst h; rfl

/-- On a left non-contracting axis the left operand's index is the output index's coordinate at that axis's position
    after the batch axes. -/
theorem lhsIdx_val_of_nonContracting {a : Fin sl.rank} (hb : a ∉ d.lhsBatch) (hn : a ∈ d.lhsNonContracting)
    (j : so.Idx) (k : d.contr.Idx) :
    (d.lhsIdx j k a).val
      = (j ⟨d.lhsBatch.length + d.lhsNonContracting.idxOf a, by
          rw [d.rank_out]; have := List.idxOf_lt_length_iff.2 hn; omega⟩).val := by
  unfold DotDims.lhsIdx
  rw [dif_neg hb, dif_pos hn]
  rfl

/-- On a right non-contracting axis the right operand's index is the output index's coordinate at that axis's position
    after the batch axes and the left operand's non-contracting axes. -/
theorem rhsIdx_val_of_nonContracting {a : Fin sr.rank} (hb : a ∉ d.rhsBatch) (hn : a ∈ d.rhsNonContracting)
    (j : so.Idx) (k : d.contr.Idx) :
    (d.rhsIdx j k a).val
      = (j ⟨d.lhsBatch.length + d.lhsNonContracting.length + d.rhsNonContracting.idxOf a, by
          rw [d.rank_out]; have := List.idxOf_lt_length_iff.2 hn; omega⟩).val := by
  unfold DotDims.rhsIdx
  rw [dif_neg hb, dif_pos hn]
  rfl

end General

/-! ## The plain product: the contraction shape, and the operand indices axis by axis -/

section Plain
variable {M K N : Nat} {d : DotDims ⟨2, ![M, K]⟩ ⟨2, ![K, N]⟩ ⟨2, ![M, N]⟩}

/-- The contraction shape has one axis … -/
theorem rank_contr (hd : IsPlain d) : d.contr.rank = 1 := by
  rw [d.rank_contr, hd.lc]; rfl

/-- … of extent K, the left operand's axis 1. -/
theorem size_contr (hd : IsPlain d) : d.contr.size ⟨0, by have := rank_contr hd; omega⟩ = K := by
  have hp : 0 < d.lhsContracting.length := by rw [hd.lc]; exact Nat.one_pos
  have h := d.size_contr 0 hp
  rw [getElem_zero_of_eq_singleton hd.lc hp] at h
  exact h

/-- The left operand's index on its axis 0 is the output row. -/
theorem lhsIdx_axis0 (hd : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [hd.lb]; exact List.not_mem_nil
  have hn : (0 : Fin (⟨2, ![M, K]⟩ : Shape).rank) ∈ d.lhsNonContracting := by rw [hd.ln]; exact List.mem_singleton.mpr rfl
  refine (lhsIdx_val_of_nonContracting d hb hn j k).trans ?_
  refine idx_val_congr j _ 0 _ Nat.two_pos ?_
  rw [hd.lb, hd.ln]; rfl

/-- The left operand's index on its axis 1 is the contraction index's one coordinate. -/
theorem lhsIdx_axis1 (hd : IsPlain d) (j : (⟨2, ![M, N]⟩ : Shape).Idx) (k : d.contr.Idx) :
    (d.lhsIdx j k 1).val = (k ⟨0, by have := rank_contr hd; omega⟩).val :=
  d.lhsIdx_val_of_single hd.lc j k

/-- The right operand's index on its axis 0 is the contraction index's one coordinate. -/
theorem rhsIdx_axis0 (hd : IsPlain d) (j : (⟨2, ![M, N]⟩ : Shape).Idx) (k : d.contr.Idx) :
    (d.rhsIdx j k 0).val = (k ⟨0, by have := rank_contr hd; omega⟩).val :=
  d.rhsIdx_val_of_single hd.rc j k

/-- The right operand's index on its axis 1 is the output column. -/
theorem rhsIdx_axis1 (hd : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [hd.rb]; exact List.not_mem_nil
  have hn : (1 : Fin (⟨2, ![K, N]⟩ : Shape).rank) ∈ d.rhsNonContracting := by rw [hd.rn]; exact List.mem_singleton.mpr rfl
  refine (rhsIdx_val_of_nonContracting d hb hn j k).trans ?_
  refine idx_val_congr j _ 1 _ Nat.one_lt_two ?_
  rw [hd.lb, hd.ln, hd.rn]; rfl

/-- At the contraction index whose one coordinate is i, the left operand's index is (row, i) … -/
theorem lhsIdx_contr (hd : IsPlain d) (j : (⟨2, ![M, N]⟩ : Shape).Idx) (i : Fin K) :
    d.lhsIdx j ((contrEquiv1 d K (rank_contr hd) (size_contr hd)).symm i) = ix2 (j 0) i := by
  funext a
  match a with
  | ⟨0, _⟩ => exact Fin.ext (lhsIdx_axis0 hd j _)
  | ⟨1, _⟩ => exact Fin.ext ((lhsIdx_axis1 hd j _).trans (contrEquiv1_symm_val d K (rank_contr hd) (size_contr hd) i))

/-- … and the right operand's index is (i, column). -/
theorem rhsIdx_contr (hd : IsPlain d) (j : (⟨2, ![M, N]⟩ : Shape).Idx) (i : Fin K) :
    d.rhsIdx j ((contrEquiv1 d K (rank_contr hd) (size_contr hd)).symm i) = ix2 i (j 1) := by
  funext a
  match a with
  | ⟨0, _⟩ => exact Fin.ext ((rhsIdx_axis0 hd j _).trans (contrEquiv1_symm_val d K (rank_contr hd) (size_contr hd) i))
  | ⟨1, _⟩ => exact Fin.ext (rhsIdx_axis1 hd j _)

/-- THE RE-INDEXING: the sum over the dimension numbers' contraction index of the operands' products at the operand
    indices is the sum over k : Fin K of lhs (row, k) · rhs (k, column). -/
theorem sum_contr {M K N : Nat} {d : DotDims ⟨2, ![M, K]⟩ ⟨2, ![K, N]⟩ ⟨2, ![M, N]⟩} (hd : IsPlain d)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  refine (Equiv.sum_comp (contrEquiv1 d K (rank_contr hd) (size_contr hd)).symm
    (fun k => l (d.lhsIdx j k) * r (d.rhsIdx j k))).symm.trans ?_
  refine Finset.sum_congr rfl fun i _ => ?_
  exact congrArg₂ (· * ·) (congrArg l (lhsIdx_contr hd j i)) (congrArg r (rhsIdx_contr hd j i))

end Plain

/-! ## The two products read at an output index -/

/-- The kernel's product into the zero accumulator, at (row, column): the sum over k of lhs (row, k) · rhs (k, column). -/
theorem matmul_zero_apply {M K N : Nat} {d : DotDims ⟨2, ![M, K]⟩ ⟨2, ![K, N]⟩ ⟨2, ![M, N]⟩} (hd : IsPlain d) {φ₁ φ₂ : FTy}
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr hd l r j)

/-- The same, stated over the vector-level product as a kernel's payload applies it. -/
theorem matmul_vec_zero_apply {M K N : Nat} {d : DotDims ⟨2, ![M, K]⟩ ⟨2, ![K, N]⟩ ⟨2, ![M, N]⟩} (hd : IsPlain d) {φ₁ φ₂ : FTy}
    (prec : Option ContractPrecision) (l : FVec Ideal ⟨2, ![M, K]⟩ φ₁) (r : FVec Ideal ⟨2, ![K, N]⟩ φ₂)
    (j : (⟨2, ![M, N]⟩ : Shape).Idx) :
    matmul d prec l r (constant ⟨2, ![M, N]⟩ .f32 0x00000000#32) j = ∑ k : Fin K, l (ix2 (j 0) k) * r (ix2 k (j 1)) :=
  matmul_zero_apply hd prec l r j

/-- The host's product, whatever its schedule key, at (row, column): the same sum. -/
theorem dotGeneral_apply' {M K N : Nat} {d : DotDims ⟨2, ![M, K]⟩ ⟨2, ![K, N]⟩ ⟨2, ![M, N]⟩} (hd : IsPlain d) {φ₁ φ₂ : FTy}
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr hd l r j)

/-- The same, stated over the host-level product as a reference program applies it (one device's schedule key). -/
theorem dotGeneral_host_apply {M K N : Nat} {d : DotDims ⟨2, ![M, K]⟩ ⟨2, ![K, N]⟩ ⟨2, ![M, N]⟩} (hd : IsPlain d) {φ₁ φ₂ : FTy}
    (prec : Option ContractPrecision) (l : FVec Ideal ⟨2, ![M, K]⟩ φ₁) (r : FVec Ideal ⟨2, ![K, N]⟩ φ₂)
    (j : (⟨2, ![M, N]⟩ : Shape).Idx) :
    Host.dotGeneral d prec l r j = ∑ k : Fin K, l (ix2 (j 0) k) * r (ix2 k (j 1)) :=
  dotGeneral_apply' hd prec .single l r j

/-! ## Sanity instances: the library's plain dimension numbers -/

example : IsPlain (DotDims.plain 2000 256 256) := ⟨rfl, rfl, rfl, rfl, rfl, rfl⟩

example : IsPlain (DotDims.plain 100000 256 1) := ⟨rfl, rfl, rfl, rfl, rfl, rfl⟩

end Idealize.ShloMosaic.LibDot

end
-- ==== Proof.KReg0.lean ====
import proofs.«407857_j5583457485247_1_alg».proof.Proof.Gen.KernelIdeal.Frame
import proofs.«407857_j5583457485247_1_alg».proof.Proof.Spec
import proofs.«407857_j5583457485247_1_alg».proof.Proof.LibDot
import Idealize.ShloMosaic.Lib.Pipeline.Value
import Idealize.ShloMosaic.Lib.ValueLayout
set_option maxRecDepth 16384

noncomputable section

namespace Cert.KernelIdeal.Reg0

open Idealize.ShloMosaic Idealize.ShloMosaic.TcCoe Idealize.ShloMosaic.ValueIdx Idealize.SL.Sem Cert.KernelIdeal Cert.KernelIdeal.Gen
open Cert.Spec (Arr linD mulD lin1 linC rowD rowC row1 colN conv rst combine agg deg)
open scoped BigOperators

variable (V : (c : Dev nD) → (b : Ref sig .tc) → Buf (Elt Ideal) ((c : Thread nD τ).loc b))

/-! ## The payloads at an index -/

/-- The stores and loads of the body go through the whole-buffer rectangle at zero offsets. -/
theorem zero_offsets : (![0, 0] : Fin 2 → Nat) = fun _ => 0 :=
  funext fun a => match a with | ⟨0, _⟩ => rfl | ⟨1, _⟩ => rfl

/-- The square product contracts the left operand's columns with the right operand's rows. -/
theorem plain_sq : LibDot.IsPlain dot_S2000x256_S256x256_S2000x256_1_0_0_1_n_n := ⟨rfl, rfl, rfl, rfl, rfl, rfl⟩
/-- So does the product with a one-column matrix. -/
theorem plain_col : LibDot.IsPlain dot_S2000x256_S256x1_S2000x1_1_0_0_1_n_n := ⟨rfl, rfl, rfl, rfl, rfl, rfl⟩

/-- The block's own transform at (r, q): the row of the block times the column of the weight, plus the bias row's entry. -/
theorem pay2_apply (x : Vec Ideal S2000x256 .f32) (w : Vec Ideal S256x256 .f32) (b : Vec Ideal S1x256 .f32)
    (r : Fin 2000) (q : Fin 256) :
    k0_pay2 (F := Ideal) x w b (ix2 r q) = (∑ k : Fin 256, x (ix2 r k) * w (ix2 k q)) + b (ix2 (0 : Fin 1) q) := by
  unfold k0_pay2
  refine congrArg₂ (· + ·) (LibDot.matmul_vec_zero_apply plain_sq none _ _ (ix2 r q)) ?_
  rw [shapeCast_self]
  exact broadcastTo_1b_ab_apply b _ r q

/-- The transform taken through a second square weight, no bias yet. -/
theorem pay5_apply (x : Vec Ideal S2000x256 .f32) (w : Vec Ideal S256x256 .f32) (b : Vec Ideal S1x256 .f32)
    (w2 : Vec Ideal S256x256 .f32) (r : Fin 2000) (q : Fin 256) :
    k0_pay5 (F := Ideal) x w b w2 (ix2 r q) = ∑ k : Fin 256, k0_pay2 (F := Ideal) x w b (ix2 r k) * w2 (ix2 k q) := by
  unfold k0_pay5
  exact LibDot.matmul_vec_zero_apply plain_sq none _ _ (ix2 r q)

/-- A block plus a bias row, times a one-column weight, plus a one-entry bias. -/
theorem pay1_apply (v : FVec Ideal S2000x256 .f32) (b2 : Vec Ideal S1x256 .f32) (w3 : Vec Ideal S256x1 .f32) (b3 : Vec Ideal S1x1 .f32)
    (r : Fin 2000) (q : Fin 1) :
    k0_pay1 (F := Ideal) v b2 w3 b3 (ix2 r q)
      = (∑ k : Fin 256, (v (ix2 r k) + b2 (ix2 (0 : Fin 1) k)) * w3 (ix2 k q)) + b3 (ix2 (0 : Fin 1) q) := by
  unfold k0_pay1
  refine congrArg₂ (· + ·) ((LibDot.matmul_vec_zero_apply plain_col none _ _ (ix2 r q)).trans ?_) ?_
  · refine Finset.sum_congr rfl fun k _ => congrArg (· * w3 (ix2 k q)) (congrArg (v (ix2 r k) + ·) ?_)
    rw [shapeCast_self]
    exact broadcastTo_1b_ab_apply b2 _ r k
  · rw [shapeCast_self]
    exact broadcastTo_1b_ab_apply b3 _ r q

/-- The attention scalar through the key map, all in one payload. -/
theorem pay4_apply (x : Vec Ideal S2000x256 .f32) (w : Vec Ideal S256x256 .f32) (b : Vec Ideal S1x256 .f32)
    (w2 : Vec Ideal S256x256 .f32) (b2 : Vec Ideal S1x256 .f32) (w3 : Vec Ideal S256x1 .f32) (b3 : Vec Ideal S1x1 .f32)
    (r : Fin 2000) (q : Fin 1) :
    k0_pay4 (F := Ideal) x w b w2 b2 w3 b3 (ix2 r q)
      = (∑ k : Fin 256, ((∑ k' : Fin 256, k0_pay2 (F := Ideal) x w b (ix2 r k') * w2 (ix2 k' k)) + b2 (ix2 (0 : Fin 1) k)) * w3 (ix2 k q))
        + b3 (ix2 (0 : Fin 1) q) := by
  unfold k0_pay4
  refine congrArg₂ (· + ·) ((LibDot.matmul_vec_zero_apply plain_col none _ _ (ix2 r q)).trans ?_) ?_
  · refine Finset.sum_congr rfl fun k _ => congrArg (· * w3 (ix2 k q)) ?_
    refine congrArg₂ (· + ·) (LibDot.matmul_vec_zero_apply plain_sq none _ _ (ix2 r k)) ?_
    rw [shapeCast_self]
    exact broadcastTo_1b_ab_apply b2 _ r k
  · rw [shapeCast_self]
    exact broadcastTo_1b_ab_apply b3 _ r q

/-! ## A block's affine maps are the array's, at the block's rows -/

/-- The block's own transform at row r is the array's at row 2000·t + r, when the block holds those rows of the array
    and the weight and bias are the arrays'. -/
theorem blk_dst (x : Vec Ideal S2000x256 .f32) (w : Vec Ideal S256x256 .f32) (b : Vec Ideal S1x256 .f32)
    (X : Arr Cert.Spec.SNxD) (W : Arr Cert.Spec.SDxD) (B : Arr Cert.Spec.S1xD) (t : Nat)
    (hx : ∀ (r : Fin 2000) (k : Fin 256) (R : Fin 100000), R.val = 2000 * t + r.val → x (ix2 r k) = X (ix2 R k))
    (hw : ∀ (k q : Fin 256), w (ix2 k q) = W (ix2 k q)) (hb : ∀ q : Fin 256, b (ix2 (0 : Fin 1) q) = B (ix2 (0 : Fin 1) q))
    (r : Fin 2000) (q : Fin 256) (R : Fin 100000) (hR : R.val = 2000 * t + r.val) :
    k0_pay2 (F := Ideal) x w b (ix2 r q) = linD X W (rowD B) (ix2 R q) := by
  rw [pay2_apply, Cert.Spec.linD_apply]
  exact congrArg₂ (· + ·) (Finset.sum_congr rfl fun k _ => congrArg₂ (· * ·) (hx r k R hR) (hw k q)) (hb q)

/-- The key-side attention scalar of a block's row is the array's. -/
theorem blk_hl (x : Vec Ideal S2000x256 .f32) (w : Vec Ideal S256x256 .f32) (b : Vec Ideal S1x256 .f32)
    (w2 : Vec Ideal S256x256 .f32) (b2 : Vec Ideal S1x256 .f32) (w3 : Vec Ideal S256x1 .f32) (b3 : Vec Ideal S1x1 .f32)
    (X : Arr Cert.Spec.SNxD) (W : Arr Cert.Spec.SDxD) (B : Arr Cert.Spec.S1xD) (W2 : Arr Cert.Spec.SDxD) (B2 : Arr Cert.Spec.S1xD)
    (W3 : Arr Cert.Spec.SDx1) (B3 : Arr Cert.Spec.S1x1) (t : Nat)
    (hx : ∀ (r : Fin 2000) (k : Fin 256) (R : Fin 100000), R.val = 2000 * t + r.val → x (ix2 r k) = X (ix2 R k))
    (hw : ∀ (k q : Fin 256), w (ix2 k q) = W (ix2 k q)) (hb : ∀ q : Fin 256, b (ix2 (0 : Fin 1) q) = B (ix2 (0 : Fin 1) q))
    (hw2 : ∀ (k q : Fin 256), w2 (ix2 k q) = W2 (ix2 k q)) (hb2 : ∀ q : Fin 256, b2 (ix2 (0 : Fin 1) q) = B2 (ix2 (0 : Fin 1) q))
    (hw3 : ∀ (k : Fin 256) (q : Fin 1), w3 (ix2 k q) = W3 (ix2 k q)) (hb3 : ∀ q : Fin 1, b3 (ix2 (0 : Fin 1) q) = B3 (ix2 (0 : Fin 1) q))
    (r : Fin 2000) (q : Fin 1) (R : Fin 100000) (hR : R.val = 2000 * t + r.val) :
    k0_pay4 (F := Ideal) x w b w2 b2 w3 b3 (ix2 r q)
      = lin1 (linD (linD X W (rowD B)) W2 (rowD B2)) W3 (row1 B3) (ix2 R q) := by
  rw [pay4_apply, Cert.Spec.lin1_apply]
  refine congrArg₂ (· + ·) (Finset.sum_congr rfl fun k _ => congrArg₂ (· * ·) ?_ (hw3 k q)) (hb3 q)
  rw [Cert.Spec.linD_apply]
  exact congrArg₂ (· + ·) (Finset.sum_congr rfl fun k' _ =>
    congrArg₂ (· * ·) (blk_dst x w b X W B t hx hw hb r k' R hR) (hw2 k' k)) (hb2 k)

/-- The query-side attention scalar of a block's row is the array's. -/
theorem blk_hr (x : Vec Ideal S2000x256 .f32) (w : Vec Ideal S256x256 .f32) (b : Vec Ideal S1x256 .f32)
    (w2 : Vec Ideal S256x256 .f32) (b2 : Vec Ideal S1x256 .f32) (w3 : Vec Ideal S256x1 .f32) (b3 : Vec Ideal S1x1 .f32)
    (X : Arr Cert.Spec.SNxD) (W : Arr Cert.Spec.SDxD) (B : Arr Cert.Spec.S1xD) (W2 : Arr Cert.Spec.SDxD) (B2 : Arr Cert.Spec.S1xD)
    (W3 : Arr Cert.Spec.SDx1) (B3 : Arr Cert.Spec.S1x1) (t : Nat)
    (hx : ∀ (r : Fin 2000) (k : Fin 256) (R : Fin 100000), R.val = 2000 * t + r.val → x (ix2 r k) = X (ix2 R k))
    (hw : ∀ (k q : Fin 256), w (ix2 k q) = W (ix2 k q)) (hb : ∀ q : Fin 256, b (ix2 (0 : Fin 1) q) = B (ix2 (0 : Fin 1) q))
    (hw2 : ∀ (k q : Fin 256), w2 (ix2 k q) = W2 (ix2 k q)) (hb2 : ∀ q : Fin 256, b2 (ix2 (0 : Fin 1) q) = B2 (ix2 (0 : Fin 1) q))
    (hw3 : ∀ (k : Fin 256) (q : Fin 1), w3 (ix2 k q) = W3 (ix2 k q)) (hb3 : ∀ q : Fin 1, b3 (ix2 (0 : Fin 1) q) = B3 (ix2 (0 : Fin 1) q))
    (r : Fin 2000) (q : Fin 1) (R : Fin 100000) (hR : R.val = 2000 * t + r.val) :
    k0_pay1 (F := Ideal) (k0_pay5 (F := Ideal) x w b w2) b2 w3 b3 (ix2 r q)
      = lin1 (linD (linD X W (rowD B)) W2 (rowD B2)) W3 (row1 B3) (ix2 R q) := by
  rw [pay1_apply, Cert.Spec.lin1_apply]
  refine congrArg₂ (· + ·) (Finset.sum_congr rfl fun k _ => congrArg₂ (· * ·) ?_ (hw3 k q)) (hb3 q)
  rw [pay5_apply, Cert.Spec.linD_apply]
  exact congrArg₂ (· + ·) (Finset.sum_congr rfl fun k' _ =>
    congrArg₂ (· * ·) (blk_dst x w b X W B t hx hw hb r k' R hR) (hw2 k' k)) (hb2 k)

/-! ## From blocks to arrays -/

/-- The printed index maps over the grid: the node blocks (the input features and the three outputs) sit at row block t,
    every weight and bias is taken whole at every point. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- The feature block at point t holds rows 2000·t … 2000·t + 1999 of the feature array. -/
theorem in0_apply (c : Dev nD) (t : Fin cfg0.N) (r : Fin 2000) (k : Fin 256) (R : Fin 100000) (hR : R.val = 2000 * t.val + r.val) :
    (iblk0 (F := Ideal) V c 0 t : Vec Ideal S2000x256 .f32) (ix2 r k) = (V c main_arg0 : Arr Cert.Spec.SNxD) (ix2 R k) := by
  obtain ⟨h0, h1, h2, h3, h4, h5, h6, h7, h8, h9, h10, h11, h12, h13⟩ := idx_facts t
  show V c main_arg0 (((cfg0.win 0).blk t).view.emb (ix2 r k)) = V c main_arg0 (ix2 R k)
  refine congrArg (V c main_arg0) (funext fun a => Fin.ext ?_)
  match a with
  | ⟨0, _⟩ => show win0_0.index t (0 : Fin 2) * 2000 + 1 * r.val = R.val; rw [h0.1, hR]; omega
  | ⟨1, _⟩ => show win0_0.index t (1 : Fin 2) * 256 + 1 * k.val = k.val; rw [h0.2]; omega

/-- The self weight is taken whole at every point. -/
theorem in1_apply (c : Dev nD) (t : Fin cfg0.N) (k q : Fin 256) :
    (iblk0 (F := Ideal) V c 1 t : Vec Ideal S256x256 .f32) (ix2 k q) = (V c main_arg6 : Arr Cert.Spec.SDxD) (ix2 k q) := by
  obtain ⟨h0, h1, h2, h3, h4, h5, h6, h7, h8, h9, h10, h11, h12, h13⟩ := idx_facts t
  show V c main_arg6 (((cfg0.win 1).blk t).view.emb (ix2 k q)) = V c main_arg6 (ix2 k q)
  refine congrArg (V c main_arg6) (funext fun a => Fin.ext ?_)
  match a with
  | ⟨0, _⟩ => show win0_1.index t (0 : Fin 2) * 256 + 1 * k.val = k.val; rw [h1.1]; omega
  | ⟨1, _⟩ => show win0_1.index t (1 : Fin 2) * 256 + 1 * q.val = q.val; rw [h1.2]; omega

/-- The self bias row is taken whole at every point. -/
theorem in2_apply (c : Dev nD) (t : Fin cfg0.N) (q : Fin 256) :
    (iblk0 (F := Ideal) V c 2 t : Vec Ideal S1x256 .f32) (ix2 (0 : Fin 1) q) = (V c main_v0 : Arr Cert.Spec.S1xD) (ix2 (0 : Fin 1) q) := by
  obtain ⟨h0, h1, h2, h3, h4, h5, h6, h7, h8, h9, h10, h11, h12, h13⟩ := idx_facts t
  show V c main_v0 (((cfg0.win 2).blk t).view.emb (ix2 (0 : Fin 1) q)) = V c main_v0 (ix2 (0 : Fin 1) q)
  refine congrArg (V c main_v0) (funext fun a => Fin.ext ?_)
  match a with
  | ⟨0, _⟩ => show win0_2.index t (0 : Fin 2) * 1 + 1 * (0 : Fin 1).val = (0 : Fin 1).val; rw [h2.1]; rfl
  | ⟨1, _⟩ => show win0_2.index t (1 : Fin 2) * 256 + 1 * q.val = q.val; rw [h2.2]; omega

/-- The query weight is taken whole at every point. -/
theorem in3_apply (c : Dev nD) (t : Fin cfg0.N) (k q : Fin 256) :
    (iblk0 (F := Ideal) V c 3 t : Vec Ideal S256x256 .f32) (ix2 k q) = (V c main_arg10 : Arr Cert.Spec.SDxD) (ix2 k q) := by
  obtain ⟨h0, h1, h2, h3, h4, h5, h6, h7, h8, h9, h10, h11, h12, h13⟩ := idx_facts t
  show V c main_arg10 (((cfg0.win 3).blk t).view.emb (ix2 k q)) = V c main_arg10 (ix2 k q)
  refine congrArg (V c main_arg10) (funext fun a => Fin.ext ?_)
  match a with
  | ⟨0, _⟩ => show win0_3.index t (0 : Fin 2) * 256 + 1 * k.val = k.val; rw [h3.1]; omega
  | ⟨1, _⟩ => show win0_3.index t (1 : Fin 2) * 256 + 1 * q.val = q.val; rw [h3.2]; omega

/-- The query bias row is taken whole at every point. -/
theorem in4_apply (c : Dev nD) (t : Fin cfg0.N) (q : Fin 256) :
    (iblk0 (F := Ideal) V c 4 t : Vec Ideal S1x256 .f32) (ix2 (0 : Fin 1) q) = (V c main_v1 : Arr Cert.Spec.S1xD) (ix2 (0 : Fin 1) q) := by
  obtain ⟨h0, h1, h2, h3, h4, h5, h6, h7, h8, h9, h10, h11, h12, h13⟩ := idx_facts t
  show V c main_v1 (((cfg0.win 4).blk t).view.emb (ix2 (0 : Fin 1) q)) = V c main_v1 (ix2 (0 : Fin 1) q)
  refine congrArg (V c main_v1) (funext fun a => Fin.ext ?_)
  match a with
  | ⟨0, _⟩ => show win0_4.index t (0 : Fin 2) * 1 + 1 * (0 : Fin 1).val = (0 : Fin 1).val; rw [h4.1]; rfl
  | ⟨1, _⟩ => show win0_4.index t (1 : Fin 2) * 256 + 1 * q.val = q.val; rw [h4.2]; omega

/-- The key weight is taken whole at every point. -/
theorem in5_apply (c : Dev nD) (t : Fin cfg0.N) (k q : Fin 256) :
    (iblk0 (F := Ideal) V c 5 t : Vec Ideal S256x256 .f32) (ix2 k q) = (V c main_arg14 : Arr Cert.Spec.SDxD) (ix2 k q) := by
  obtain ⟨h0, h1, h2, h3, h4, h5, h6, h7, h8, h9, h10, h11, h12, h13⟩ := idx_facts t
  show V c main_arg14 (((cfg0.win 5).blk t).view.emb (ix2 k q)) = V c main_arg14 (ix2 k q)
  refine congrArg (V c main_arg14) (funext fun a => Fin.ext ?_)
  match a with
  | ⟨0, _⟩ => show win0_5.index t (0 : Fin 2) * 256 + 1 * k.val = k.val; rw [h5.1]; omega
  | ⟨1, _⟩ => show win0_5.index t (1 : Fin 2) * 256 + 1 * q.val = q.val; rw [h5.2]; omega

/-- The key bias row is taken whole at every point. -/
theorem in6_apply (c : Dev nD) (t : Fin cfg0.N) (q : Fin 256) :
    (iblk0 (F := Ideal) V c 6 t : Vec Ideal S1x256 .f32) (ix2 (0 : Fin 1) q) = (V c main_v2 : Arr Cert.Spec.S1xD) (ix2 (0 : Fin 1) q) := by
  obtain ⟨h0, h1, h2, h3, h4, h5, h6, h7, h8, h9, h10, h11, h12, h13⟩ := idx_facts t
  show V c main_v2 (((cfg0.win 6).blk t).view.emb (ix2 (0 : Fin 1) q)) = V c main_v2 (ix2 (0 : Fin 1) q)
  refine congrArg (V c main_v2) (funext fun a => Fin.ext ?_)
  match a with
  | ⟨0, _⟩ => show win0_6.index t (0 : Fin 2) * 1 + 1 * (0 : Fin 1).val = (0 : Fin 1).val; rw [h6.1]; rfl
  | ⟨1, _⟩ => show win0_6.index t (1 : Fin 2) * 256 + 1 * q.val = q.val; rw [h6.2]; omega

/-- The left attention column is taken whole at every point. -/
theorem in7_apply (c : Dev nD) (t : Fin cfg0.N) (k : Fin 256) (q : Fin 1) :
    (iblk0 (F := Ideal) V c 7 t : Vec Ideal S256x1 .f32) (ix2 k q) = (V c main_arg18 : Arr Cert.Spec.SDx1) (ix2 k q) := by
  obtain ⟨h0, h1, h2, h3, h4, h5, h6, h7, h8, h9, h10, h11, h12, h13⟩ := idx_facts t
  show V c main_arg18 (((cfg0.win 7).blk t).view.emb (ix2 k q)) = V c main_arg18 (ix2 k q)
  refine congrArg (V c main_arg18) (funext fun a => Fin.ext ?_)
  match a with
  | ⟨0, _⟩ => show win0_7.index t (0 : Fin 2) * 256 + 1 * k.val = k.val; rw [h7.1]; omega
  | ⟨1, _⟩ => show win0_7.index t (1 : Fin 2) * 1 + 1 * q.val = q.val; rw [h7.2]; omega

/-- The left attention bias is taken whole at every point. -/
theorem in8_apply (c : Dev nD) (t : Fin cfg0.N) (q : Fin 1) :
    (iblk0 (F := Ideal) V c 8 t : Vec Ideal S1x1 .f32) (ix2 (0 : Fin 1) q) = (V c main_v3 : Arr Cert.Spec.S1x1) (ix2 (0 : Fin 1) q) := by
  obtain ⟨h0, h1, h2, h3, h4, h5, h6, h7, h8, h9, h10, h11, h12, h13⟩ := idx_facts t
  show V c main_v3 (((cfg0.win 8).blk t).view.emb (ix2 (0 : Fin 1) q)) = V c main_v3 (ix2 (0 : Fin 1) q)
  refine congrArg (V c main_v3) (funext fun a => Fin.ext ?_)
  match a with
  | ⟨0, _⟩ => show win0_8.index t (0 : Fin 2) * 1 + 1 * (0 : Fin 1).val = (0 : Fin 1).val; rw [h8.1]; rfl
  | ⟨1, _⟩ => show win0_8.index t (1 : Fin 2) * 1 + 1 * q.val = q.val; rw [h8.2]; omega

/-- The right attention column is taken whole at every point. -/
theorem in9_apply (c : Dev nD) (t : Fin cfg0.N) (k : Fin 256) (q : Fin 1) :
    (iblk0 (F := Ideal) V c 9 t : Vec Ideal S256x1 .f32) (ix2 k q) = (V c main_arg22 : Arr Cert.Spec.SDx1) (ix2 k q) := by
  obtain ⟨h0, h1, h2, h3, h4, h5, h6, h7, h8, h9, h10, h11, h12, h13⟩ := idx_facts t
  show V c main_arg22 (((cfg0.win 9).blk t).view.emb (ix2 k q)) = V c main_arg22 (ix2 k q)
  refine congrArg (V c main_arg22) (funext fun a => Fin.ext ?_)
  match a with
  | ⟨0, _⟩ => show win0_9.index t (0 : Fin 2) * 256 + 1 * k.val = k.val; rw [h9.1]; omega
  | ⟨1, _⟩ => show win0_9.index t (1 : Fin 2) * 1 + 1 * q.val = q.val; rw [h9.2]; omega

/-- The right attention bias is taken whole at every point. -/
theorem in10_apply (c : Dev nD) (t : Fin cfg0.N) (q : Fin 1) :
    (iblk0 (F := Ideal) V c 10 t : Vec Ideal S1x1 .f32) (ix2 (0 : Fin 1) q) = (V c main_v4 : Arr Cert.Spec.S1x1) (ix2 (0 : Fin 1) q) := by
  obtain ⟨h0, h1, h2, h3, h4, h5, h6, h7, h8, h9, h10, h11, h12, h13⟩ := idx_facts t
  show V c main_v4 (((cfg0.win 10).blk t).view.emb (ix2 (0 : Fin 1) q)) = V c main_v4 (ix2 (0 : Fin 1) q)
  refine congrArg (V c main_v4) (funext fun a => Fin.ext ?_)
  match a with
  | ⟨0, _⟩ => show win0_10.index t (0 : Fin 2) * 1 + 1 * (0 : Fin 1).val = (0 : Fin 1).val; rw [h10.1]; rfl
  | ⟨1, _⟩ => show win0_10.index t (1 : Fin 2) * 1 + 1 * q.val = q.val; rw [h10.2]; omega

/-! ## What each point writes back, the cover, and the arrays after the run -/

/-- What point t writes back to the first output is block t of the node's own transform of the whole arrays. -/
theorem flushed11_eq (c : Dev nD) (t : Fin cfg0.N) :
    (dat0 (F := Ideal) V c).flushed 11 t = ((cfg0.win 11).blk t).view.read (Elt Ideal)
      (linD (V c main_arg0) (V c main_arg6) (rowD (V c main_v0))) := by
  obtain ⟨h0, h1, h2, h3, h4, h5, h6, h7, h8, h9, h10, h11, h12, h13⟩ := idx_facts t
  show (cfg0.win 11).cut (grid0.coords t) ((dat0 (F := Ideal) V c).after 11 t) = _
  rw [after0_11]
  unfold out0_11
  rw [View.canon_unit_zero zero_offsets]
  simp only [View.ld_unit_zero (S := S2000x256) zero_offsets, View.ld_unit_zero (S := S256x256) zero_offsets,
    View.ld_unit_zero (S := S1x256) zero_offsets]
  funext j
  obtain ⟨r, q, rfl⟩ : ∃ (r : Fin 2000) (q : Fin 256), j = ix2 r q := ⟨j 0, j 1, eq_ix2 j⟩
  have hN : cfg0.N = 50 := N_0
  have ht : t.val < 50 := hN ▸ t.isLt
  have hr : r.val < 2000 := r.isLt
  have he : ((cfg0.win 11).blk t).view.emb (ix2 r q) = ix2 (⟨2000 * t.val + r.val, by omega⟩ : Fin 100000) q := by
    funext a; apply Fin.ext
    match a with
    | ⟨0, _⟩ => show win0_11.index t (0 : Fin 2) * 2000 + 1 * r.val = 2000 * t.val + r.val; rw [h11.1]; omega
    | ⟨1, _⟩ => show win0_11.index t (1 : Fin 2) * 256 + 1 * q.val = q.val; rw [h11.2]; omega
  show k0_pay2 (F := Ideal) (iblk0 V c 0 t) (iblk0 V c 1 t) (iblk0 V c 2 t) (ix2 r q)
    = linD (V c main_arg0) (V c main_arg6) (rowD (V c main_v0)) (((cfg0.win 11).blk t).view.emb (ix2 r q))
  rw [he]
  exact blk_dst _ _ _ _ _ _ t.val (fun r k R hR => in0_apply V c t r k R hR) (fun k q => in1_apply V c t k q)
    (fun q => in2_apply V c t q) r q _ rfl

/-- What point t writes back to the second output is block t of the key-side attention scalar of the whole arrays. -/
theorem flushed12_eq (c : Dev nD) (t : Fin cfg0.N) :
    (dat0 (F := Ideal) V c).flushed 12 t = ((cfg0.win 12).blk t).view.read (Elt Ideal)
      (lin1 (linD (linD (V c main_arg0) (V c main_arg6) (rowD (V c main_v0))) (V c main_arg14) (rowD (V c main_v2)))
        (V c main_arg18) (row1 (V c main_v3))) := by
  obtain ⟨h0, h1, h2, h3, h4, h5, h6, h7, h8, h9, h10, h11, h12, h13⟩ := idx_facts t
  show (cfg0.win 12).cut (grid0.coords t) ((dat0 (F := Ideal) V c).after 12 t) = _
  rw [after0_12]
  unfold out0_12
  rw [View.canon_unit_zero zero_offsets]
  simp only [View.ld_unit_zero (S := S2000x256) zero_offsets, View.ld_unit_zero (S := S256x256) zero_offsets,
    View.ld_unit_zero (S := S1x256) zero_offsets, View.ld_unit_zero (S := S256x1) zero_offsets,
    View.ld_unit_zero (S := S1x1) zero_offsets]
  funext j
  obtain ⟨r, q, rfl⟩ : ∃ (r : Fin 2000) (q : Fin 1), j = ix2 r q := ⟨j 0, j 1, eq_ix2 j⟩
  have hN : cfg0.N = 50 := N_0
  have ht : t.val < 50 := hN ▸ t.isLt
  have hr : r.val < 2000 := r.isLt
  have he : ((cfg0.win 12).blk t).view.emb (ix2 r q) = ix2 (⟨2000 * t.val + r.val, by omega⟩ : Fin 100000) q := by
    funext a; apply Fin.ext
    match a with
    | ⟨0, _⟩ => show win0_12.index t (0 : Fin 2) * 2000 + 1 * r.val = 2000 * t.val + r.val; rw [h12.1]; omega
    | ⟨1, _⟩ => show win0_12.index t (1 : Fin 2) * 1 + 1 * q.val = q.val; rw [h12.2]; omega
  show k0_pay4 (F := Ideal) (iblk0 V c 0 t) (iblk0 V c 1 t) (iblk0 V c 2 t) (iblk0 V c 5 t) (iblk0 V c 6 t)
      (iblk0 V c 7 t) (iblk0 V c 8 t) (ix2 r q)
    = lin1 (linD (linD (V c main_arg0) (V c main_arg6) (rowD (V c main_v0))) (V c main_arg14) (rowD (V c main_v2)))
        (V c main_arg18) (row1 (V c main_v3)) (((cfg0.win 12).blk t).view.emb (ix2 r q))
  rw [he]
  exact blk_hl _ _ _ _ _ _ _ _ _ _ _ _ _ _ t.val (fun r k R hR => in0_apply V c t r k R hR) (fun k q => in1_apply V c t k q)
    (fun q => in2_apply V c t q) (fun k q => in5_apply V c t k q) (fun q => in6_apply V c t q)
    (fun k q => in7_apply V c t k q) (fun q => in8_apply V c t q) r q _ rfl

/-- What point t writes back to the third output is block t of the query-side attention scalar of the whole arrays. -/
theorem flushed13_eq (c : Dev nD) (t : Fin cfg0.N) :
    (dat0 (F := Ideal) V c).flushed 13 t = ((cfg0.win 13).blk t).view.read (Elt Ideal)
      (lin1 (linD (linD (V c main_arg0) (V c main_arg6) (rowD (V c main_v0))) (V c main_arg10) (rowD (V c main_v1)))
        (V c main_arg22) (row1 (V c main_v4))) := by
  obtain ⟨h0, h1, h2, h3, h4, h5, h6, h7, h8, h9, h10, h11, h12, h13⟩ := idx_facts t
  show (cfg0.win 13).cut (grid0.coords t) ((dat0 (F := Ideal) V c).after 13 t) = _
  rw [after0_13]
  unfold out0_13
  rw [View.canon_unit_zero zero_offsets]
  simp only [View.ld_unit_zero (S := S2000x256) zero_offsets, View.ld_unit_zero (S := S256x256) zero_offsets,
    View.ld_unit_zero (S := S1x256) zero_offsets, View.ld_unit_zero (S := S256x1) zero_offsets,
    View.ld_unit_zero (S := S1x1) zero_offsets]
  funext j
  obtain ⟨r, q, rfl⟩ : ∃ (r : Fin 2000) (q : Fin 1), j = ix2 r q := ⟨j 0, j 1, eq_ix2 j⟩
  have hN : cfg0.N = 50 := N_0
  have ht : t.val < 50 := hN ▸ t.isLt
  have hr : r.val < 2000 := r.isLt
  have he : ((cfg0.win 13).blk t).view.emb (ix2 r q) = ix2 (⟨2000 * t.val + r.val, by omega⟩ : Fin 100000) q := by
    funext a; apply Fin.ext
    match a with
    | ⟨0, _⟩ => show win0_13.index t (0 : Fin 2) * 2000 + 1 * r.val = 2000 * t.val + r.val; rw [h13.1]; omega
    | ⟨1, _⟩ => show win0_13.index t (1 : Fin 2) * 1 + 1 * q.val = q.val; rw [h13.2]; omega
  show k0_pay1 (F := Ideal) (k0_pay5 (F := Ideal) (iblk0 V c 0 t) (iblk0 V c 1 t) (iblk0 V c 2 t) (iblk0 V c 3 t))
      (iblk0 V c 4 t) (iblk0 V c 9 t) (iblk0 V c 10 t) (ix2 r q)
    = lin1 (linD (linD (V c main_arg0) (V c main_arg6) (rowD (V c main_v0))) (V c main_arg10) (rowD (V c main_v1)))
        (V c main_arg22) (row1 (V c main_v4)) (((cfg0.win 13).blk t).view.emb (ix2 r q))
  rw [he]
  exact blk_hr _ _ _ _ _ _ _ _ _ _ _ _ _ _ t.val (fun r k R hR => in0_apply V c t r k R hR) (fun k q => in1_apply V c t k q)
    (fun q => in2_apply V c t q) (fun k q => in3_apply V c t k q) (fun q => in4_apply V c t q)
    (fun k q => in9_apply V c t k q) (fun q => in10_apply V c t q) r q _ rfl

/-- An index of the first output is in point t's block iff each coordinate is in the block's range on its axis. -/
theorem mem_blk11 (t : Fin cfg0.N) (i : S100000x256.Idx) :
    i ∈ ((cfg0.win 11).blk t).view.set ↔ ∀ a : Fin 2, win0_11.index t a * S2000x256.size a ≤ (i a).val
      ∧ (i a).val < win0_11.index t a * S2000x256.size a + S2000x256.size a := by
  show i ∈ ((View.whole main_v5_0).slice (win0_11.rect t)).set ↔ _
  rw [View.set_slice_whole, Rect.mem_set_unit]
  exact Iff.rfl

/-- Every index of the first output is in the block of the point its row falls in: row ρ is point ρ / 2000's. -/
theorem cover11 (i : S100000x256.Idx) :
    ∃ t : Fin cfg0.N, (cfg0.win 11).flush t = true ∧ i ∈ ((cfg0.win 11).blk t).view.set := by
  have hN : cfg0.N = 50 := N_0
  have hi0 : (i 0).val < 100000 := (i 0).isLt
  have hi1 : (i 1).val < 256 := (i 1).isLt
  obtain ⟨t, ht⟩ : ∃ t : Fin cfg0.N, t.val = (i 0).val / 2000 := ⟨⟨(i 0).val / 2000, by omega⟩, rfl⟩
  obtain ⟨h0, h1, h2, h3, h4, h5, h6, h7, h8, h9, h10, h11, h12, h13⟩ := idx_facts t
  refine ⟨t, flush0_11 t, ?_⟩
  rw [mem_blk11]
  intro a
  match a with
  | ⟨0, _⟩ =>
    show win0_11.index t (0 : Fin 2) * 2000 ≤ (i 0).val ∧ (i 0).val < win0_11.index t (0 : Fin 2) * 2000 + 2000
    rw [h11.1]; omega
  | ⟨1, _⟩ =>
    show win0_11.index t (1 : Fin 2) * 256 ≤ (i 1).val ∧ (i 1).val < win0_11.index t (1 : Fin 2) * 256 + 256
    rw [h11.2]; omega

/-- An index of the second output is in point t's block iff each coordinate is in the block's range on its axis. -/
theorem mem_blk12 (t : Fin cfg0.N) (i : S100000x1.Idx) :
    i ∈ ((cfg0.win 12).blk t).view.set ↔ ∀ a : Fin 2, win0_12.index t a * S2000x1.size a ≤ (i a).val
      ∧ (i a).val < win0_12.index t a * S2000x1.size a + S2000x1.size a := by
  show i ∈ ((View.whole main_v5_1).slice (win0_12.rect t)).set ↔ _
  rw [View.set_slice_whole, Rect.mem_set_unit]
  exact Iff.rfl

/-- Every index of the second output is in the block of the point its row falls in. -/
theorem cover12 (i : S100000x1.Idx) :
    ∃ t : Fin cfg0.N, (cfg0.win 12).flush t = true ∧ i ∈ ((cfg0.win 12).blk t).view.set := by
  have hN : cfg0.N = 50 := N_0
  have hi0 : (i 0).val < 100000 := (i 0).isLt
  have hi1 : (i 1).val < 1 := (i 1).isLt
  obtain ⟨t, ht⟩ : ∃ t : Fin cfg0.N, t.val = (i 0).val / 2000 := ⟨⟨(i 0).val / 2000, by omega⟩, rfl⟩
  obtain ⟨h0, h1, h2, h3, h4, h5, h6, h7, h8, h9, h10, h11, h12, h13⟩ := idx_facts t
  refine ⟨t, flush0_12 t, ?_⟩
  rw [mem_blk12]
  intro a
  match a with
  | ⟨0, _⟩ =>
    show win0_12.index t (0 : Fin 2) * 2000 ≤ (i 0).val ∧ (i 0).val < win0_12.index t (0 : Fin 2) * 2000 + 2000
    rw [h12.1]; omega
  | ⟨1, _⟩ =>
    show win0_12.index t (1 : Fin 2) * 1 ≤ (i 1).val ∧ (i 1).val < win0_12.index t (1 : Fin 2) * 1 + 1
    rw [h12.2]; omega

/-- An index of the third output is in point t's block iff each coordinate is in the block's range on its axis. -/
theorem mem_blk13 (t : Fin cfg0.N) (i : S100000x1.Idx) :
    i ∈ ((cfg0.win 13).blk t).view.set ↔ ∀ a : Fin 2, win0_13.index t a * S2000x1.size a ≤ (i a).val
      ∧ (i a).val < win0_13.index t a * S2000x1.size a + S2000x1.size a := by
  show i ∈ ((View.whole main_v5_2).slice (win0_13.rect t)).set ↔ _
  rw [View.set_slice_whole, Rect.mem_set_unit]
  exact Iff.rfl

/-- Every index of the third output is in the block of the point its row falls in. -/
theorem cover13 (i : S100000x1.Idx) :
    ∃ t : Fin cfg0.N, (cfg0.win 13).flush t = true ∧ i ∈ ((cfg0.win 13).blk t).view.set := by
  have hN : cfg0.N = 50 := N_0
  have hi0 : (i 0).val < 100000 := (i 0).isLt
  have hi1 : (i 1).val < 1 := (i 1).isLt
  obtain ⟨t, ht⟩ : ∃ t : Fin cfg0.N, t.val = (i 0).val / 2000 := ⟨⟨(i 0).val / 2000, by omega⟩, rfl⟩
  obtain ⟨h0, h1, h2, h3, h4, h5, h6, h7, h8, h9, h10, h11, h12, h13⟩ := idx_facts t
  refine ⟨t, flush0_13 t, ?_⟩
  rw [mem_blk13]
  intro a
  match a with
  | ⟨0, _⟩ =>
    show win0_13.index t (0 : Fin 2) * 2000 ≤ (i 0).val ∧ (i 0).val < win0_13.index t (0 : Fin 2) * 2000 + 2000
    rw [h13.1]; omega
  | ⟨1, _⟩ =>
    show win0_13.index t (1 : Fin 2) * 1 ≤ (i 1).val ∧ (i 1).val < win0_13.index t (1 : Fin 2) * 1 + 1
    rw [h13.2]; omega

/-! ## The three arrays after the region's run -/

/-- The first kernel's first output: the node's own transform. -/
theorem dst_eq (c : Dev nD) : (dat0 (F := Ideal) V c).arrAt 11 cfg0.N
    = linD (V c main_arg0) (V c main_arg6) (rowD (V c main_v0)) :=
  (dat0 (F := Ideal) V c).arrAt_eq_of_cover 11 _ (fun t _ => flushed11_eq V c t) cover11
/-- Its second output: the attention scalar taken through the key map. -/
theorem hl_eq (c : Dev nD) : (dat0 (F := Ideal) V c).arrAt 12 cfg0.N
    = lin1 (linD (linD (V c main_arg0) (V c main_arg6) (rowD (V c main_v0))) (V c main_arg14) (rowD (V c main_v2))) (V c main_arg18) (row1 (V c main_v3)) :=
  (dat0 (F := Ideal) V c).arrAt_eq_of_cover 12 _ (fun t _ => flushed12_eq V c t) cover12
/-- Its third output: the attention scalar taken through the query map. -/
theorem hr_eq (c : Dev nD) : (dat0 (F := Ideal) V c).arrAt 13 cfg0.N
    = lin1 (linD (linD (V c main_arg0) (V c main_arg6) (rowD (V c main_v0))) (V c main_arg10) (rowD (V c main_v1))) (V c main_arg22) (row1 (V c main_v4)) :=
  (dat0 (F := Ideal) V c).arrAt_eq_of_cover 13 _ (fun t _ => flushed13_eq V c t) cover13

end Cert.KernelIdeal.Reg0
end
-- ==== Proof.KReg1.lean ====
import proofs.«407857_j5583457485247_1_alg».proof.Proof.Gen.KernelIdeal.Frame
import proofs.«407857_j5583457485247_1_alg».proof.Proof.Spec
import proofs.«407857_j5583457485247_1_alg».proof.Proof.LibDot
import Idealize.ShloMosaic.Lib.Pipeline.Value
set_option maxRecDepth 16384

noncomputable section

namespace Cert.KernelIdeal.Reg1

open Idealize.ShloMosaic Idealize.ShloMosaic.TcCoe Idealize.ShloMosaic.ValueIdx Idealize.SL.Sem Cert.KernelIdeal Cert.KernelIdeal.Gen
open Cert.Spec (Arr linD mulD lin1 linC rowD rowC row1 colN conv rst combine agg deg)
open scoped BigOperators

/-- The zero offsets of a whole-buffer access, as a constant function. -/
theorem zero_offsets : (![0, 0] : Fin 2 → Nat) = fun _ => 0 := funext fun a => by fin_cases a <;> rfl

/-- The product's dimension numbers are the plain ones. -/
theorem plain_dot : Idealize.ShloMosaic.LibDot.IsPlain dot_S2000x256_S256x256_S2000x256_1_0_0_1_n_n := ⟨rfl, rfl, rfl, rfl, rfl, rfl⟩

/-- THE BODY'S PAYLOAD AT AN ELEMENT: row p of the left block times column q of the right one. -/
theorem pay_apply (x0 : Vec Ideal S2000x256 .f32) (x1 : Vec Ideal S256x256 .f32) (p : Fin 2000) (q : Fin 256) :
    k1_pay1 x0 x1 (ix2 p q) = ∑ k : Fin 256, x0 (ix2 p k) * x1 (ix2 k q) := by
  unfold k1_pay1
  exact Idealize.ShloMosaic.LibDot.matmul_vec_zero_apply plain_dot none _ _ (ix2 p q)

/-- The same against whole arrays: where the left block's row p is row r of A and the right block is W. -/
theorem pay_eq_mulD (x0 : Vec Ideal S2000x256 .f32) (x1 : Vec Ideal S256x256 .f32) (A : Arr Cert.Spec.SNxD) (W : Arr Cert.Spec.SDxD)
    (p : Fin 2000) (q : Fin 256) (r : Fin 100000)
    (h0 : ∀ k : Fin 256, x0 (ix2 p k) = A (ix2 r k)) (h1 : ∀ k : Fin 256, x1 (ix2 k q) = W (ix2 k q)) :
    k1_pay1 x0 x1 (ix2 p q) = mulD A W (ix2 r q) := by
  rw [pay_apply, Cert.Spec.mulD_apply]
  exact Finset.sum_congr rfl fun k _ => by rw [h0 k, h1 k]

/-- The same at any two indices with equal columns: the left block's row there is a row of A, the right block is W. -/
theorem pay_eq_mulD' (x0 : Vec Ideal S2000x256 .f32) (x1 : Vec Ideal S256x256 .f32) (A : Arr Cert.Spec.SNxD) (W : Arr Cert.Spec.SDxD)
    (y : S2000x256.Idx) (i : Cert.Spec.SNxD.Idx) (hc : (y 1).val = (i 1).val)
    (h0 : ∀ k : Fin 256, x0 (ix2 (y 0) k) = A (ix2 (i 0) k)) (h1 : ∀ k : Fin 256, x1 (ix2 k (y 1)) = W (ix2 k (y 1))) :
    k1_pay1 x0 x1 y = mulD A W i := by
  obtain ⟨p, q, rfl⟩ : ∃ (p : Fin 2000) (q : Fin 256), y = ix2 p q := ⟨y 0, y 1, eq_ix2 y⟩
  obtain ⟨r, q', rfl⟩ : ∃ (r : Fin 100000) (q' : Fin 256), i = ix2 r q' := ⟨i 0, i 1, eq_ix2 i⟩
  obtain rfl : q = q' := Fin.ext hc
  exact pay_eq_mulD x0 x1 A W p q r h0 h1

/-- The printed index maps over the grid: point t works on row block t; the weight is taken whole. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- WHAT POINT t WRITES BACK is block t of the product of the two arrays as the region finds them. -/
theorem flushed_eq (c : Dev nD) (t : Fin cfg1.N) :
    (dat1 (F := Ideal) V c).flushed 2 t = ((cfg1.win 2).blk t).view.read (Elt Ideal) (mulD (V c main_arg1) (V c main_arg26)) := by
  show (cfg1.win 2).cut (grid1.coords t) ((dat1 V c).after 2 t) = _
  rw [after1_2]
  unfold out1_2
  rw [View.canon_unit_zero zero_offsets]
  simp only [View.ld_unit_zero (S := S2000x256) zero_offsets, View.ld_unit_zero (S := S256x256) zero_offsets]
  funext j
  obtain ⟨e00, e01, e10, e11, e20, e21⟩ := idx_facts t
  have hj0 : (j 0).val < 2000 := (j 0).isLt
  have hj1 : (j 1).val < 256 := (j 1).isLt
  show k1_pay1 (iblk1 V c 0 t) (iblk1 V c 1 t) ((cfg1.win 2).xinj (grid1.coords t) j)
    = mulD (V c main_arg1) (V c main_arg26) (((cfg1.win 2).blk t).view.emb j)
  refine pay_eq_mulD' _ _ _ _ ((cfg1.win 2).xinj (grid1.coords t) j) (((cfg1.win 2).blk t).view.emb j) ?_ ?_ ?_
  · show (j 1).val = win1_2.index t (1 : Fin 2) * 256 + 1 * (j 1).val
    omega
  · intro k
    show V c main_arg1 (((cfg1.win 0).blk t).view.emb _) = _
    refine congrArg (V c main_arg1) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  · intro k
    show V c main_arg26 (((cfg1.win 1).blk t).view.emb _) = _
    refine congrArg (V c main_arg26) (funext fun a => Fin.ext ?_)
    match a with
    | ⟨0, _⟩ => show win1_1.index t (0 : Fin 2) * 256 + 1 * k.val = k.val; omega
    | ⟨1, _⟩ => show win1_1.index t (1 : Fin 2) * 256 + 1 * (j 1).val = (j 1).val; omega

/-- An index of the output array is in point t's block iff each coordinate is in the block's range on its axis. -/
theorem mem_blk (t : Fin cfg1.N) (i : S100000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v6).slice (win1_2.rect t)).set ↔ _
  rw [View.set_slice_whole, Rect.mem_set_unit]
  exact Iff.rfl

/-- EVERY ROW IS SOME POINT'S: row r is written back by point r / 2000, the fifty blocks of 2000 rows filling the array. -/
theorem cover (i : S100000x256.Idx) : ∃ t : Fin cfg1.N, (cfg1.win 2).flush t = true ∧ i ∈ ((cfg1.win 2).blk t).view.set := by
  have hi0 : (i 0).val < 100000 := (i 0).isLt
  have hi1 : (i 1).val < 256 := (i 1).isLt
  have hN : cfg1.N = 50 := N_1
  have ht : (i 0).val / 2000 < cfg1.N := by rw [hN]; omega
  obtain ⟨-, -, -, -, e20, e21⟩ := idx_facts ⟨(i 0).val / 2000, ht⟩
  have e20' : win1_2.index ⟨(i 0).val / 2000, ht⟩ (0 : Fin 2) = (i 0).val / 2000 := e20
  refine ⟨⟨(i 0).val / 2000, ht⟩, flush1_2 _, ?_⟩
  rw [mem_blk]
  intro a
  match a with
  | ⟨0, _⟩ => show win1_2.index ⟨(i 0).val / 2000, ht⟩ (0 : Fin 2) * 2000 ≤ (i 0).val ∧ (i 0).val < win1_2.index ⟨(i 0).val / 2000, ht⟩ (0 : Fin 2) * 2000 + 2000; omega
  | ⟨1, _⟩ => show win1_2.index ⟨(i 0).val / 2000, ht⟩ (1 : Fin 2) * 256 ≤ (i 1).val ∧ (i 1).val < win1_2.index ⟨(i 0).val / 2000, ht⟩ (1 : Fin 2) * 256 + 256; omega

/-- The second kernel's output: the source nodes' messages. -/
theorem msg_eq (c : Dev nD) : (dat1 (F := Ideal) V c).arrAt 2 cfg1.N = mulD (V c main_arg1) (V c main_arg26) :=
  (dat1 V c).arrAt_eq_of_cover 2 (mulD (V c main_arg1) (V c main_arg26)) (fun t _ => flushed_eq V c t) cover

end Cert.KernelIdeal.Reg1
end
-- ==== Proof.KReg2.lean ====
import proofs.«407857_j5583457485247_1_alg».proof.Proof.Gen.KernelIdeal.Frame
import proofs.«407857_j5583457485247_1_alg».proof.Proof.Spec
import proofs.«407857_j5583457485247_1_alg».proof.Proof.LibDot
import Idealize.ShloMosaic.Lib.Pipeline.Value
import Idealize.ShloMosaic.Lib.ValueLayout
import Idealize.ShloMosaic.Lib.IdealHost
set_option maxRecDepth 16384

noncomputable section

namespace Cert.KernelIdeal.Reg2

open Idealize.ShloMosaic Idealize.ShloMosaic.TcCoe Idealize.ShloMosaic.ValueIdx Idealize.SL.Sem Cert.KernelIdeal Cert.KernelIdeal.Gen
open Cert.Spec (Arr linD mulD lin1 linC rowD rowC row1 colN conv rst combine agg deg)
open Cert.Spec (elu soft0 soft1 attSelf attRel conv_apply linD_apply lin1_apply linC_apply rst_apply)
open scoped BigOperators

/-!
# The third kernel's output array as a function of its input arrays

Grid point `t` of fifty works on rows `2000·t … 2000·t + 1999`: it reads those rows of the nodes' own transform, of their
two attention scalars, of the summed messages and of the in-degrees, takes the seven weight arrays whole, and writes those
rows of the class scores. The body's payload is read at an index stage by stage (the mean message plus its bias; the
relation's logit through the two affine maps; the pair's softmax weights on the two feature rows; the last affine map),
each matrix product as the sum over the shared axis; with row `r` of every row block being row `2000·t + r` of its array,
that is the specified function `combine` at row `2000·t + r`. The fifty blocks of 2000 rows fill the array's 100000 rows,
so the array after the run is `combine` of the input arrays everywhere.
-/

/-! ## Layout operations and constants read at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of `0.0` is the extended real zero. -/
theorem zero_f32 : (Scalar.ofBits .f32 0x00000000#32 : Ideal .f32) = 0 := Ideal.ofBits_zero_f32
/-- The word of `1.0` is the extended real one. -/
theorem one_f32 : (Scalar.ofBits .f32 0x3F800000#32 : Ideal .f32) = 1 := Ideal.ofBits_one_f32

/-- The three products' dimension numbers contract the left operand's columns with the right operand's rows. -/
theorem plain_D : LibDot.IsPlain dot_S2000x256_S256x256_S2000x256_1_0_0_1_n_n := ⟨rfl, rfl, rfl, rfl, rfl, rfl⟩
theorem plain_1 : LibDot.IsPlain dot_S2000x256_S256x1_S2000x1_1_0_0_1_n_n := ⟨rfl, rfl, rfl, rfl, rfl, rfl⟩
theorem plain_C : LibDot.IsPlain dot_S2000x256_S256x16_S2000x16_1_0_0_1_n_n := ⟨rfl, rfl, rfl, rfl, rfl, rfl⟩

/-! ## The body's payload, stage by stage, over any blocks -/

/-- The mean message plus the bias, at row `r` and column `c` of a block. -/
theorem mean_apply (x3 : Vec Ideal S2000x256 .f32) (x4 : Vec Ideal S2000x1 .f32) (x5 : Vec Ideal S1x256 .f32)
    (r : Fin 2000) (c : Fin 256) :
    k2_pay5 x3 x4 x5 (ix2 r c)
      = Ideal.div (x3 (ix2 r c)) (max (x4 (ix2 r (0 : Fin 1))) 1) + x5 (ix2 (0 : Fin 1) c) := by
  unfold k2_pay5
  simp only [addf_apply, divf_apply, shapeCast_self]
  rw [broadcastTo_a1_ab_apply, broadcastTo_1b_ab_apply, maximumf_apply, broadcast_apply, one_f32]

/-- The relation's logit before `elu`, at row `r` of a block: the mean message through the two affine maps, plus the
    node's right scalar. -/
theorem logit_apply (x2 : Vec Ideal S2000x1 .f32) (x3 : Vec Ideal S2000x256 .f32) (x4 : Vec Ideal S2000x1 .f32)
    (x5 : Vec Ideal S1x256 .f32) (x6 : Vec Ideal S256x256 .f32) (x7 : Vec Ideal S1x256 .f32) (x8 : Vec Ideal S256x1 .f32)
    (x9 : Vec Ideal S1x1 .f32) (r : Fin 2000) :
    k2_pay6 x2 x3 x4 x5 x6 x7 x8 x9 (ix2 r (0 : Fin 1))
      = (∑ k : Fin 256, ((∑ j : Fin 256, k2_pay5 x3 x4 x5 (ix2 r j) * x6 (ix2 j k)) + x7 (ix2 (0 : Fin 1) k))
            * x8 (ix2 k (0 : Fin 1)))
          + x9 (ix2 (0 : Fin 1) (0 : Fin 1)) + x2 (ix2 r (0 : Fin 1)) := by
  unfold k2_pay6 k2_pay4
  simp only [addf_apply, shapeCast_self]
  rw [broadcastTo_1b_ab_apply]
  refine congrArg₂ (· + ·) (congrArg₂ (· + ·) ?_ rfl) rfl
  refine (LibDot.matmul_vec_zero_apply plain_1 none _ _ (ix2 r (0 : Fin 1))).trans ?_
  refine Finset.sum_congr rfl fun k _ => congrArg₂ (· * ·) ?_ rfl
  show matmul dot_S2000x256_S256x256_S2000x256_1_0_0_1_n_n none (truncf FTy.bf16 (k2_pay5 x3 x4 x5) bitsLt_bf16_f32)
      (truncf FTy.bf16 x6 bitsLt_bf16_f32) (constant S2000x256 FTy.f32 0#32) (ix2 r k)
      + broadcastTo S2000x256 x7 broadcasts_S1x256_S2000x256 (ix2 r k) = _
  rw [broadcastTo_1b_ab_apply]
  exact congrArg₂ (· + ·) (LibDot.matmul_vec_zero_apply plain_D none _ _ (ix2 r k)) rfl

/-- The class scores at row `r` and class `c` of a block, of the node's own features `v1`, the mean message `v17`
    and the two logits: the pair's softmax weights on the two feature rows, through the last affine map. -/
theorem scores_apply (v1 : FVec Ideal S2000x256 .f32) (v3 v5 : FVec Ideal S2000x1 .f32) (v17 : FVec Ideal S2000x256 .f32)
    (v34 : FVec Ideal S2000x1 .f32) (v62 : Vec Ideal S256x16 .f32) (v65 : Vec Ideal S1x16 .f32) (r : Fin 2000) (c : Fin 16) :
    k2_pay1 v1 v3 v5 v17 v34 (Scalar.ofBits .f32 0x00000000#32) v62 v65 (ix2 r c)
      = (∑ k : Fin 256,
            (soft0 (elu (v3 (ix2 r (0 : Fin 1)) + v5 (ix2 r (0 : Fin 1)))) (elu (v34 (ix2 r (0 : Fin 1)))) * v1 (ix2 r k)
              + soft1 (elu (v3 (ix2 r (0 : Fin 1)) + v5 (ix2 r (0 : Fin 1)))) (elu (v34 (ix2 r (0 : Fin 1)))) * v17 (ix2 r k))
            * v62 (ix2 k c))
          + v65 (ix2 (0 : Fin 1) c) := by
  unfold k2_pay1
  simp only [addf_apply, shapeCast_self]
  rw [broadcastTo_1b_ab_apply]
  refine congrArg₂ (· + ·) ?_ rfl
  refine (LibDot.matmul_vec_zero_apply plain_C none _ _ (ix2 r c)).trans ?_
  refine Finset.sum_congr rfl fun k _ => congrArg₂ (· * ·) ?_ rfl
  show broadcastTo S2000x256 _ broadcasts_S2000x1_S2000x256 (ix2 r k) * v1 (ix2 r k)
      + broadcastTo S2000x256 _ broadcasts_S2000x1_S2000x256 (ix2 r k) * v17 (ix2 r k) = _
  rw [broadcastTo_a1_ab_apply, broadcastTo_a1_ab_apply, zero_f32, one_f32]
  rfl

/-! ## The payload is the specified function, row by row -/

/-- The three layout casts of a block to its own shape are the block. -/
theorem pay2_eq (x : Vec Ideal S2000x256 .f32) : k2_pay2 x = x := shapeCast_self _ _
theorem pay3_eq (x : Vec Ideal S2000x1 .f32) : k2_pay3 x = x := shapeCast_self _ _
theorem pay4_eq (x : Vec Ideal S2000x1 .f32) : k2_pay4 x = x := shapeCast_self _ _

/-- THE PAYLOAD AT AN INDEX OF ITS BLOCK IS THE CLASS SCORES AT THE ARRAY INDEX THE BLOCK INDEX NAMES, whenever row `p` of
    each row-blocked operand is row `P` of its array and each operand taken whole is its array: both sides are the same
    nested expression of those rows, stage by stage. -/
theorem point_eq (x0 : Vec Ideal S2000x256 .f32) (x1 x2 : Vec Ideal S2000x1 .f32) (x3 : Vec Ideal S2000x256 .f32)
    (x4 : Vec Ideal S2000x1 .f32) (x5 : Vec Ideal S1x256 .f32) (x6 : Vec Ideal S256x256 .f32) (x7 : Vec Ideal S1x256 .f32)
    (x8 : Vec Ideal S256x1 .f32) (x9 : Vec Ideal S1x1 .f32) (x10 : Vec Ideal S256x16 .f32) (x11 : Vec Ideal S1x16 .f32)
    (d : Arr Cert.Spec.SNxD) (hl hr : Arr Cert.Spec.SNx1) (a : Arr Cert.Spec.SNxD) (g : Arr Cert.Spec.SNx1)
    (cb : Arr Cert.Spec.S1xD) (wk : Arr Cert.Spec.SDxD) (bk : Arr Cert.Spec.S1xD) (wal : Arr Cert.Spec.SDx1)
    (bal : Arr Cert.Spec.S1x1) (cw : Arr Cert.Spec.SDxC) (cbs : Arr Cert.Spec.S1xC)
    (y : S2000x16.Idx) (i : Cert.Spec.SNxC.Idx) (p : Fin 2000) (P : Fin 100000)
    (hp : (y 0).val = p.val) (hP : (i 0).val = P.val) (hq : (y 1).val = (i 1).val)
    (h0 : ∀ k : Fin 256, x0 (ix2 p k) = d (ix2 P k))
    (h1 : x1 (ix2 p (0 : Fin 1)) = hl (ix2 P (0 : Fin 1)))
    (h2 : x2 (ix2 p (0 : Fin 1)) = hr (ix2 P (0 : Fin 1)))
    (h3 : ∀ k : Fin 256, x3 (ix2 p k) = a (ix2 P k))
    (h4 : x4 (ix2 p (0 : Fin 1)) = g (ix2 P (0 : Fin 1)))
    (h5 : x5 = cb) (h6 : x6 = wk) (h7 : x7 = bk) (h8 : x8 = wal) (h9 : x9 = bal) (h10 : x10 = cw) (h11 : x11 = cbs) :
    k2_pay1 (k2_pay2 x0) (k2_pay3 x1) (k2_pay4 x2) (k2_pay5 x3 x4 x5) (k2_pay6 x2 x3 x4 x5 x6 x7 x8 x9)
        (Scalar.ofBits .f32 0x00000000#32) x10 x11 y
      = combine d hl hr a (colN g) (rowD cb) wk (rowD bk) wal (row1 bal) cw (rowC cbs) i := by
  subst h5 h6 h7 h8 h9 h10 h11
  obtain ⟨p', q, rfl⟩ : ∃ (p' : Fin 2000) (q : Fin 16), y = ix2 p' q := ⟨y 0, y 1, eq_ix2 y⟩
  obtain ⟨P', Q, rfl⟩ : ∃ (P' : Fin 100000) (Q : Fin 16), i = ix2 P' Q := ⟨i 0, i 1, eq_ix2 i⟩
  obtain rfl : p' = p := Fin.ext hp
  obtain rfl : P' = P := Fin.ext hP
  obtain rfl : q = Q := Fin.ext hq
  -- the mean message plus its bias, along the row
  have hcv : ∀ k : Fin 256, k2_pay5 x3 x4 x5 (ix2 p' k) = conv a (colN g) (rowD x5) (ix2 P' k) := fun k => by
    rw [mean_apply, conv_apply, h3, h4]; rfl
  -- the relation's logit before `elu`
  have hrel : k2_pay6 x2 x3 x4 x5 x6 x7 x8 x9 (ix2 p' (0 : Fin 1))
      = lin1 (linD (conv a (colN g) (rowD x5)) x6 (rowD x7)) x8 (row1 x9) (ix2 P' (0 : Fin 1)) + hr (ix2 P' (0 : Fin 1)) := by
    rw [logit_apply, lin1_apply, h2]
    refine congrArg₂ (· + ·) (congrArg₂ (· + ·) (Finset.sum_congr rfl fun k _ => congrArg₂ (· * ·) ?_ rfl) rfl) rfl
    rw [linD_apply]
    exact congrArg₂ (· + ·) (Finset.sum_congr rfl fun j _ => congrArg₂ (· * ·) (hcv j) rfl) rfl
  rw [scores_apply]
  unfold combine
  rw [linC_apply]
  refine congrArg₂ (· + ·) (Finset.sum_congr rfl fun k _ => congrArg₂ (· * ·) ?_ rfl) rfl
  rw [rst_apply, hrel, hcv k, pay2_eq, pay3_eq, pay4_eq, h0, h1, h2]
  rfl

/-! ## From blocks to the array -/

variable (V : (c : Dev nD) → (b : Ref sig .tc) → Buf (Elt Ideal) ((c : Thread nD τ).loc b))

/-- The whole-buffer accesses start at the origin. -/
theorem zero_offsets : (![0, 0] : Fin 2 → Nat) = fun _ => 0 := funext fun a => by fin_cases a <;> rfl

/-- The printed index maps, decided over the grid: point `t` works on block row `t` of every array cut into row blocks,
    and on the one block of every array taken whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = t.val ∧ win2_12.index t (1 : Fin 2) = 0 :=
  (by decide +kernel : ∀ t : Fin grid2.N, _)

/-- Row `r` of the block of the nodes' own transform at point `t` is row `2000·t + r` of the array. -/
theorem read0 (c : Dev nD) (t : Fin cfg2.N) (r : Fin 2000) (k : Fin 256) (R : Fin 100000) (hR : R.val = t.val * 2000 + r.val) :
    iblk2 V c 0 t (ix2 r k) = V c main_v5_0 (ix2 R k) := by
  obtain ⟨e0, e1, -⟩ := idx_facts t
  show V c main_v5_0 (((cfg2.win 0).blk t).view.emb (ix2 r k)) = V c main_v5_0 (ix2 R k)
  refine congrArg _ (funext fun a => Fin.ext ?_)
  match a with
  | ⟨0, _⟩ => show win2_0.index t (0 : Fin 2) * 2000 + 1 * r.val = R.val; omega
  | ⟨1, _⟩ => show win2_0.index t (1 : Fin 2) * 256 + 1 * k.val = k.val; omega

/-- Row `r` of the block of the nodes' left scalars at point `t` is row `2000·t + r` of the array. -/
theorem read1 (c : Dev nD) (t : Fin cfg2.N) (r : Fin 2000) (k : Fin 1) (R : Fin 100000) (hR : R.val = t.val * 2000 + r.val) :
    iblk2 V c 1 t (ix2 r k) = V c main_v5_1 (ix2 R k) := by
  obtain ⟨-, -, e0, e1, -⟩ := idx_facts t
  show V c main_v5_1 (((cfg2.win 1).blk t).view.emb (ix2 r k)) = V c main_v5_1 (ix2 R k)
  refine congrArg _ (funext fun a => Fin.ext ?_)
  match a with
  | ⟨0, _⟩ => show win2_1.index t (0 : Fin 2) * 2000 + 1 * r.val = R.val; omega
  | ⟨1, _⟩ => show win2_1.index t (1 : Fin 2) * 1 + 1 * k.val = k.val; omega

/-- Row `r` of the block of the nodes' right scalars at point `t` is row `2000·t + r` of the array. -/
theorem read2 (c : Dev nD) (t : Fin cfg2.N) (r : Fin 2000) (k : Fin 1) (R : Fin 100000) (hR : R.val = t.val * 2000 + r.val) :
    iblk2 V c 2 t (ix2 r k) = V c main_v5_2 (ix2 R k) := by
  obtain ⟨-, -, -, -, e0, e1, -⟩ := idx_facts t
  show V c main_v5_2 (((cfg2.win 2).blk t).view.emb (ix2 r k)) = V c main_v5_2 (ix2 R k)
  refine congrArg _ (funext fun a => Fin.ext ?_)
  match a with
  | ⟨0, _⟩ => show win2_2.index t (0 : Fin 2) * 2000 + 1 * r.val = R.val; omega
  | ⟨1, _⟩ => show win2_2.index t (1 : Fin 2) * 1 + 1 * k.val = k.val; omega

/-- Row `r` of the block of the summed messages at point `t` is row `2000·t + r` of the array. -/
theorem read3 (c : Dev nD) (t : Fin cfg2.N) (r : Fin 2000) (k : Fin 256) (R : Fin 100000) (hR : R.val = t.val * 2000 + r.val) :
    iblk2 V c 3 t (ix2 r k) = V c main_v16 (ix2 R k) := by
  obtain ⟨-, -, -, -, -, -, e0, e1, -⟩ := idx_facts t
  show V c main_v16 (((cfg2.win 3).blk t).view.emb (ix2 r k)) = V c main_v16 (ix2 R k)
  refine congrArg _ (funext fun a => Fin.ext ?_)
  match a with
  | ⟨0, _⟩ => show win2_3.index t (0 : Fin 2) * 2000 + 1 * r.val = R.val; omega
  | ⟨1, _⟩ => show win2_3.index t (1 : Fin 2) * 256 + 1 * k.val = k.val; omega

/-- Row `r` of the block of the in-degrees at point `t` is row `2000·t + r` of the array. -/
theorem read4 (c : Dev nD) (t : Fin cfg2.N) (r : Fin 2000) (k : Fin 1) (R : Fin 100000) (hR : R.val = t.val * 2000 + r.val) :
    iblk2 V c 4 t (ix2 r k) = V c main_v21 (ix2 R k) := by
  obtain ⟨-, -, -, -, -, -, -, -, e0, e1, -⟩ := idx_facts t
  show V c main_v21 (((cfg2.win 4).blk t).view.emb (ix2 r k)) = V c main_v21 (ix2 R k)
  refine congrArg _ (funext fun a => Fin.ext ?_)
  match a with
  | ⟨0, _⟩ => show win2_4.index t (0 : Fin 2) * 2000 + 1 * r.val = R.val; omega
  | ⟨1, _⟩ => show win2_4.index t (1 : Fin 2) * 1 + 1 * k.val = k.val; omega

/-- The one block of the messages' bias is the whole array, at every point. -/
theorem read5 (c : Dev nD) (t : Fin cfg2.N) : (iblk2 V c 5 t : S1x256.Idx → EReal) = V c main_v22 := by
  obtain ⟨-, -, -, -, -, -, -, -, -, -, e0, e1, -⟩ := idx_facts t
  funext y
  show V c main_v22 (((cfg2.win 5).blk t).view.emb y) = V c main_v22 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 256 + 1 * (y 1).val = (y 1).val; omega

/-- The one block of the key matrix is the whole array, at every point. -/
theorem read6 (c : Dev nD) (t : Fin cfg2.N) : (iblk2 V c 6 t : S256x256.Idx → EReal) = V c main_arg14 := by
  obtain ⟨-, -, -, -, -, -, -, -, -, -, -, -, e0, e1, -⟩ := idx_facts t
  funext y
  show V c main_arg14 (((cfg2.win 6).blk t).view.emb y) = V c main_arg14 y
  refine congrArg _ (funext fun a => Fin.ext ?_)
  match a with
  | ⟨0, _⟩ => show win2_6.index t (0 : Fin 2) * 256 + 1 * (y 0).val = (y 0).val; omega
  | ⟨1, _⟩ => show win2_6.index t (1 : Fin 2) * 256 + 1 * (y 1).val = (y 1).val; omega

/-- The one block of the key bias is the whole array, at every point. -/
theorem read7 (c : Dev nD) (t : Fin cfg2.N) : (iblk2 V c 7 t : S1x256.Idx → EReal) = V c main_v23 := by
  obtain ⟨-, -, -, -, -, -, -, -, -, -, -, -, -, -, e0, e1, -⟩ := idx_facts t
  funext y
  show V c main_v23 (((cfg2.win 7).blk t).view.emb y) = V c main_v23 y
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 256 + 1 * (y 1).val = (y 1).val; omega

/-- The one block of the left attention vector is the whole array, at every point. -/
theorem read8 (c : Dev nD) (t : Fin cfg2.N) : (iblk2 V c 8 t : S256x1.Idx → EReal) = V c main_arg18 := by
  obtain ⟨-, -, -, -, -, -, -, -, -, -, -, -, -, -, -, -, e0, e1, -⟩ := idx_facts t
  funext y
  show V c main_arg18 (((cfg2.win 8).blk t).view.emb y) = V c main_arg18 y
  refine congrArg _ (funext fun a => Fin.ext ?_)
  match a with
  | ⟨0, _⟩ => show win2_8.index t (0 : Fin 2) * 256 + 1 * (y 0).val = (y 0).val; omega
  | ⟨1, _⟩ => show win2_8.index t (1 : Fin 2) * 1 + 1 * (y 1).val = (y 1).val; omega

/-- The one block of the left attention bias is the whole array, at every point. -/
theorem read9 (c : Dev nD) (t : Fin cfg2.N) : (iblk2 V c 9 t : S1x1.Idx → EReal) = V c main_v24 := by
  obtain ⟨-, -, -, -, -, -, -, -, -, -, -, -, -, -, -, -, -, -, e0, e1, -⟩ := idx_facts t
  funext y
  show V c main_v24 (((cfg2.win 9).blk t).view.emb y) = V c main_v24 y
  refine congrArg _ (funext fun a => Fin.ext ?_)
  match a with
  | ⟨0, _⟩ => show win2_9.index t (0 : Fin 2) * 1 + 1 * (y 0).val = (y 0).val; omega
  | ⟨1, _⟩ => show win2_9.index t (1 : Fin 2) * 1 + 1 * (y 1).val = (y 1).val; omega

/-- The one block of the class matrix is the whole array, at every point. -/
theorem read10 (c : Dev nD) (t : Fin cfg2.N) : (iblk2 V c 10 t : S256x16.Idx → EReal) = V c main_arg30 := by
  obtain ⟨-, -, -, -, -, -, -, -, -, -, -, -, -, -, -, -, -, -, -, -, e0, e1, -⟩ := idx_facts t
  funext y
  show V c main_arg30 (((cfg2.win 10).blk t).view.emb y) = V c main_arg30 y
  refine congrArg _ (funext fun a => Fin.ext ?_)
  match a with
  | ⟨0, _⟩ => show win2_10.index t (0 : Fin 2) * 256 + 1 * (y 0).val = (y 0).val; omega
  | ⟨1, _⟩ => show win2_10.index t (1 : Fin 2) * 16 + 1 * (y 1).val = (y 1).val; omega

/-- The one block of the class bias is the whole array, at every point. -/
theorem read11 (c : Dev nD) (t : Fin cfg2.N) : (iblk2 V c 11 t : S1x16.Idx → EReal) = V c main_v25 := by
  obtain ⟨-, -, -, -, -, -, -, -, -, -, -, -, -, -, -, -, -, -, -, -, -, -, e0, e1, -⟩ := idx_facts t
  funext y
  show V c main_v25 (((cfg2.win 11).blk t).view.emb y) = V c main_v25 y
  refine congrArg _ (funext fun a => Fin.ext ?_)
  match a with
  | ⟨0, _⟩ => show win2_11.index t (0 : Fin 2) * 1 + 1 * (y 0).val = (y 0).val; omega
  | ⟨1, _⟩ => show win2_11.index t (1 : Fin 2) * 16 + 1 * (y 1).val = (y 1).val; omega

/-! ## What each point writes back, and the array after the run -/

/-- WHAT POINT `t` WRITES BACK is block `t` of the class scores of the region's input arrays. -/
theorem flushed_eq (c : Dev nD) (t : Fin cfg2.N) :
    (dat2 (F := Ideal) V c).flushed 12 t = ((cfg2.win 12).blk t).view.read (Elt Ideal)
      (combine (V c main_v5_0) (V c main_v5_1) (V c main_v5_2) (V c main_v16) (colN (V c main_v21)) (rowD (V c main_v22))
        (V c main_arg14) (rowD (V c main_v23)) (V c main_arg18) (row1 (V c main_v24)) (V c main_arg30) (rowC (V c main_v25))) := by
  show (cfg2.win 12).cut (grid2.coords t) ((dat2 (F := Ideal) V c).after 12 t) = _
  rw [after2_12]
  unfold out2_12
  rw [View.canon_unit_zero zero_offsets]
  simp only [View.ld_unit_zero (S := S2000x256) zero_offsets, View.ld_unit_zero (S := S2000x1) zero_offsets,
    View.ld_unit_zero (S := S1x256) zero_offsets, View.ld_unit_zero (S := S256x256) zero_offsets,
    View.ld_unit_zero (S := S256x1) zero_offsets, View.ld_unit_zero (S := S1x1) zero_offsets,
    View.ld_unit_zero (S := S256x16) zero_offsets, View.ld_unit_zero (S := S1x16) zero_offsets]
  funext j
  obtain ⟨-, -, -, -, -, -, -, -, -, -, -, -, -, -, -, -, -, -, -, -, -, -, -, -, e0, e1⟩ := idx_facts t
  have hj0 : (j 0).val < 2000 := (j 0).isLt
  have ht : t.val < 50 := lt_of_lt_of_eq t.isLt N_2
  show k2_pay1 (k2_pay2 (iblk2 V c 0 t)) (k2_pay3 (iblk2 V c 1 t)) (k2_pay4 (iblk2 V c 2 t))
        (k2_pay5 (iblk2 V c 3 t) (iblk2 V c 4 t) (iblk2 V c 5 t))
        (k2_pay6 (iblk2 V c 2 t) (iblk2 V c 3 t) (iblk2 V c 4 t) (iblk2 V c 5 t) (iblk2 V c 6 t) (iblk2 V c 7 t)
          (iblk2 V c 8 t) (iblk2 V c 9 t))
        (Scalar.ofBits .f32 0x00000000#32) (iblk2 V c 10 t) (iblk2 V c 11 t) ((cfg2.win 12).xinj (grid2.coords t) j)
      = (combine (V c main_v5_0) (V c main_v5_1) (V c main_v5_2) (V c main_v16) (colN (V c main_v21)) (rowD (V c main_v22)) (V c main_arg14) (rowD (V c main_v23)) (V c main_arg18) (row1 (V c main_v24)) (V c main_arg30) (rowC (V c main_v25)))
          (((cfg2.win 12).blk t).view.emb j)
  refine point_eq _ _ _ _ _ _ _ _ _ _ _ _ _ _ _ _ _ _ _ _ _ _ _ _ ((cfg2.win 12).xinj (grid2.coords t) j) (((cfg2.win 12).blk t).view.emb j)
    ⟨(j 0).val, hj0⟩ ⟨t.val * 2000 + (j 0).val, by omega⟩ rfl ?_ ?_
    (fun k => read0 V c t _ k _ rfl) (read1 V c t _ _ _ rfl) (read2 V c t _ _ _ rfl) (fun k => read3 V c t _ k _ rfl)
    (read4 V c t _ _ _ rfl) (read5 V c t) (read6 V c t) (read7 V c t) (read8 V c t) (read9 V c t) (read10 V c t) (read11 V c t)
  · show win2_12.index t (0 : Fin 2) * 2000 + 1 * (j 0).val = t.val * 2000 + (j 0).val; omega
  · show (j 1).val = win2_12.index t (1 : Fin 2) * 16 + 1 * (j 1).val; omega

/-- An index of the array is in point `t`'s block iff each coordinate is in the block's range on its axis. -/
theorem mem_blk (t : Fin cfg2.N) (i : S100000x16.Idx) :
    i ∈ ((cfg2.win 12).blk t).view.set ↔ ∀ a : Fin 2, win2_12.index t a * S2000x16.size a ≤ (i a).val
      ∧ (i a).val < win2_12.index t a * S2000x16.size a + S2000x16.size a := by
  show i ∈ ((View.whole main_v26).slice (win2_12.rect t)).set ↔ _
  rw [View.set_slice_whole, Rect.mem_set_unit]
  exact Iff.rfl

/-- Every row of the array is in the block of the point its number divided by the block's height names: the fifty
    blocks of 2000 rows fill the 100000 rows. -/
theorem cover (i : S100000x16.Idx) :
    ∃ t : Fin cfg2.N, (cfg2.win 12).flush t = true ∧ i ∈ ((cfg2.win 12).blk t).view.set := by
  have hi0 : (i 0).val < 100000 := (i 0).isLt
  have hi1 : (i 1).val < 16 := (i 1).isLt
  have hN : cfg2.N = 50 := N_2
  have ht : (i 0).val / 2000 < cfg2.N := by rw [hN]; omega
  obtain ⟨-, -, -, -, -, -, -, -, -, -, -, -, -, -, -, -, -, -, -, -, -, -, -, -, e0, e1⟩ := idx_facts ⟨(i 0).val / 2000, ht⟩
  have e0' : win2_12.index ⟨(i 0).val / 2000, ht⟩ (0 : Fin 2) = (i 0).val / 2000 := e0
  refine ⟨⟨_, ht⟩, flush2_12 _, ?_⟩
  rw [mem_blk]
  intro a
  match a with
  | ⟨0, _⟩ =>
    show win2_12.index ⟨(i 0).val / 2000, ht⟩ (0 : Fin 2) * 2000 ≤ (i 0).val
      ∧ (i 0).val < win2_12.index ⟨(i 0).val / 2000, ht⟩ (0 : Fin 2) * 2000 + 2000
    omega
  | ⟨1, _⟩ =>
    show win2_12.index ⟨(i 0).val / 2000, ht⟩ (1 : Fin 2) * 16 ≤ (i 1).val
      ∧ (i 1).val < win2_12.index ⟨(i 0).val / 2000, ht⟩ (1 : Fin 2) * 16 + 16
    omega

/-- The third kernel's output: the class scores of the attended features, of the arrays the kernel is given. -/
theorem out_eq (c : Dev nD) : (dat2 (F := Ideal) V c).arrAt 12 cfg2.N
    = combine (V c main_v5_0) (V c main_v5_1) (V c main_v5_2) (V c main_v16) (colN (V c main_v21)) (rowD (V c main_v22))
        (V c main_arg14) (rowD (V c main_v23)) (V c main_arg18) (row1 (V c main_v24)) (V c main_arg30) (rowC (V c main_v25)) :=
  (dat2 (F := Ideal) V c).arrAt_eq_of_cover 12 _ (fun t _ => flushed_eq V c t) cover

end Cert.KernelIdeal.Reg2
end
-- ==== Proof.KHost.lean ====
import proofs.«407857_j5583457485247_1_alg».proof.Proof.Gen.KernelIdeal.Frame
import proofs.«407857_j5583457485247_1_alg».proof.Proof.Spec
import Idealize.ShloMosaic.Lib.StableHlo.Run
import Idealize.ShloMosaic.Lib.Pipeline.Value
set_option maxRecDepth 16384

noncomputable section

namespace Cert.KernelIdeal.HostVals

open Idealize.ShloMosaic Idealize.ShloMosaic.TcCoe Idealize.ShloMosaic.ValueIdx Idealize.SL.Sem Cert.KernelIdeal Cert.KernelIdeal.Gen
open Cert.Spec (Arr linD mulD lin1 linC rowD rowC row1 colN conv rst combine agg deg)
open scoped BigOperators

variable (W : Valuation τ sig (Elt Ideal))

/-! ## A vector recast with a unit axis -/

/-- A vector laid out as a one-row array and read back along its row is the vector: the entry `(0, i)` of the
    row-major recast sits at position `0 * a + i = i`. -/
theorem row_of_cast {a : ℕ} (x : (⟨1, ![a]⟩ : Shape).Idx → EReal) (h : (⟨1, ![a]⟩ : Shape).ShapeCasts ⟨2, ![1, a]⟩)
    (j : (⟨1, ![a]⟩ : Shape).Idx) : shapeCast ⟨2, ![1, a]⟩ x h (ix2 (0 : Fin 1) (j 0)) = x j :=
  shapeCast_apply x h _ _ (by
    rw [Shape.rowMajor_val_two, Shape.rowMajor_val_one]
    show (j 0).val = 0 * a + (j 0).val
    rw [Nat.zero_mul, Nat.zero_add])

/-- A vector laid out as a one-column array and read back along its column is the vector: the entry `(i, 0)` of the
    row-major recast sits at position `i * 1 + 0 = i`. -/
theorem col_of_cast {a : ℕ} (x : (⟨1, ![a]⟩ : Shape).Idx → EReal) (h : (⟨1, ![a]⟩ : Shape).ShapeCasts ⟨2, ![a, 1]⟩)
    (j : (⟨1, ![a]⟩ : Shape).Idx) : shapeCast ⟨2, ![a, 1]⟩ x h (ix2 (j 0) (0 : Fin 1)) = x j :=
  shapeCast_apply x h _ _ (by
    rw [Shape.rowMajor_val_two, Shape.rowMajor_val_one]
    show (j 0).val = (j 0).val * 1 + 0
    rw [Nat.mul_one, Nat.add_zero])

/-! ## The host operations before the first kernel: five biases laid out as one-row arrays -/

theorem host0_v0 : rowD (StableHlo.after (hostOps0 (F := Ideal)) W (Proc.devRef .tc main_v0)) = W (Proc.devRef .tc main_arg7) := by
  funext j; unfold rowD; after_results
  exact row_of_cast (W (Proc.devRef .tc main_arg7)) shapeCasts_S256_S1x256 j
theorem host0_v1 : rowD (StableHlo.after (hostOps0 (F := Ideal)) W (Proc.devRef .tc main_v1)) = W (Proc.devRef .tc main_arg11) := by
  funext j; unfold rowD; after_results
  exact row_of_cast (W (Proc.devRef .tc main_arg11)) shapeCasts_S256_S1x256 j
theorem host0_v2 : rowD (StableHlo.after (hostOps0 (F := Ideal)) W (Proc.devRef .tc main_v2)) = W (Proc.devRef .tc main_arg15) := by
  funext j; unfold rowD; after_results
  exact row_of_cast (W (Proc.devRef .tc main_arg15)) shapeCasts_S256_S1x256 j
theorem host0_v3 : row1 (StableHlo.after (hostOps0 (F := Ideal)) W (Proc.devRef .tc main_v3)) = W (Proc.devRef .tc main_arg19) := by
  funext j; unfold row1; after_results
  exact row_of_cast (W (Proc.devRef .tc main_arg19)) shapeCasts_S1_S1x1 j
theorem host0_v4 : row1 (StableHlo.after (hostOps0 (F := Ideal)) W (Proc.devRef .tc main_v4)) = W (Proc.devRef .tc main_arg23) := by
  funext j; unfold row1; after_results
  exact row_of_cast (W (Proc.devRef .tc main_arg23)) shapeCasts_S1_S1x1 j
/-- A buffer the stretch does not write keeps its contents. -/
theorem host0_keep (b : Ref sig .tc) (hb : b ∉ [main_v0, main_v1, main_v2, main_v3, main_v4]) :
    StableHlo.after (hostOps0 (F := Ideal)) W (Proc.devRef .tc b) = W (Proc.devRef .tc b) := by
  simp only [List.mem_cons, List.not_mem_nil, or_false, not_or] at hb
  refine StableHlo.after_of_forall_not_mem (b := Proc.devRef .tc b) _ _ (List.forall_iff_forall_mem.mp ?_)
  simp only [hostOps0, List.Forall, StableHlo.reshape_writes, Finset.mem_singleton]
  exact ⟨StableHlo.devRef_ne_of_ne hb.1, StableHlo.devRef_ne_of_ne hb.2.1, StableHlo.devRef_ne_of_ne hb.2.2.1,
    StableHlo.devRef_ne_of_ne hb.2.2.2.1, StableHlo.devRef_ne_of_ne hb.2.2.2.2⟩

/-! ## The host operations between the second and the third kernel -/

attribute [local irreducible] Host.gather Host.scatterAdd in
/-- The messages gathered along the edges and summed at the targets. -/
theorem host2_agg : StableHlo.after (hostOps2 (F := Ideal)) W (Proc.devRef .tc main_v16)
    = agg (W (Proc.devRef .tc main_v6)) (W (Proc.devRef .tc main_arg2)) (W (Proc.devRef .tc main_arg3)) := by
  after_results
  rfl
attribute [local irreducible] Host.gather Host.scatterAdd in
/-- The in-degrees, laid out as a column. -/
theorem host2_deg : colN (StableHlo.after (hostOps2 (F := Ideal)) W (Proc.devRef .tc main_v21)) = deg (W (Proc.devRef .tc main_arg3)) := by
  funext j; unfold colN; after_results
  exact col_of_cast _ shapeCasts_S100000_S100000x1 j
theorem host2_v22 : rowD (StableHlo.after (hostOps2 (F := Ideal)) W (Proc.devRef .tc main_v22)) = W (Proc.devRef .tc main_arg27) := by
  funext j; unfold rowD; after_results
  exact row_of_cast (W (Proc.devRef .tc main_arg27)) shapeCasts_S256_S1x256 j
theorem host2_v23 : rowD (StableHlo.after (hostOps2 (F := Ideal)) W (Proc.devRef .tc main_v23)) = W (Proc.devRef .tc main_arg15) := by
  funext j; unfold rowD; after_results
  exact row_of_cast (W (Proc.devRef .tc main_arg15)) shapeCasts_S256_S1x256 j
theorem host2_v24 : row1 (StableHlo.after (hostOps2 (F := Ideal)) W (Proc.devRef .tc main_v24)) = W (Proc.devRef .tc main_arg19) := by
  funext j; unfold row1; after_results
  exact row_of_cast (W (Proc.devRef .tc main_arg19)) shapeCasts_S1_S1x1 j
theorem host2_v25 : rowC (StableHlo.after (hostOps2 (F := Ideal)) W (Proc.devRef .tc main_v25)) = W (Proc.devRef .tc main_arg31) := by
  funext j; unfold rowC; after_results
  exact row_of_cast (W (Proc.devRef .tc main_arg31)) shapeCasts_S16_S1x16 j
/-- A buffer none of the twenty-four operations writes keeps its contents. -/
theorem host2_keep (b : Ref sig .tc)
    (hb : b ∉ [main_c, main_v7, main_v8, main_c_0, main_v9, main_v10, main_v11, main_v12, main_v13, main_cst, main_v14, main_v15,
      main_v16, main_cst_1, main_v17, main_cst_2, main_v18, main_v19, main_v20, main_v21, main_v22, main_v23, main_v24, main_v25]) :
    StableHlo.after (hostOps2 (F := Ideal)) W (Proc.devRef .tc b) = W (Proc.devRef .tc b) := by
  refine StableHlo.after_of_forall_not_mem (b := Proc.devRef .tc b) _ _ (List.forall_iff_forall_mem.mp ?_)
  simp only [hostOps2, List.Forall, StableHlo.nullary_writes, StableHlo.unary_writes, StableHlo.binary_writes,
    StableHlo.ternary_writes, StableHlo.reshape_writes, Finset.mem_singleton]
  repeat' apply And.intro
  all_goals exact StableHlo.devRef_ne_of_ne fun e => hb (by subst e; decide)
/-- The first kernel's three outputs and the three weight arrays the third kernel reads pass through unchanged. -/
theorem host2_v5_0 : StableHlo.after (hostOps2 (F := Ideal)) W (Proc.devRef .tc main_v5_0) = W (Proc.devRef .tc main_v5_0) :=
  host2_keep W main_v5_0 (by decide)
theorem host2_v5_1 : StableHlo.after (hostOps2 (F := Ideal)) W (Proc.devRef .tc main_v5_1) = W (Proc.devRef .tc main_v5_1) :=
  host2_keep W main_v5_1 (by decide)
theorem host2_v5_2 : StableHlo.after (hostOps2 (F := Ideal)) W (Proc.devRef .tc main_v5_2) = W (Proc.devRef .tc main_v5_2) :=
  host2_keep W main_v5_2 (by decide)
theorem host2_arg14 : StableHlo.after (hostOps2 (F := Ideal)) W (Proc.devRef .tc main_arg14) = W (Proc.devRef .tc main_arg14) :=
  host2_keep W main_arg14 (by decide)
theorem host2_arg18 : StableHlo.after (hostOps2 (F := Ideal)) W (Proc.devRef .tc main_arg18) = W (Proc.devRef .tc main_arg18) :=
  host2_keep W main_arg18 (by decide)
theorem host2_arg30 : StableHlo.after (hostOps2 (F := Ideal)) W (Proc.devRef .tc main_arg30) = W (Proc.devRef .tc main_arg30) :=
  host2_keep W main_arg30 (by decide)

end Cert.KernelIdeal.HostVals
end
-- ==== Proof.KChain.lean ====
import proofs.«407857_j5583457485247_1_alg».proof.Proof.Gen.KernelIdeal.Frame
import proofs.«407857_j5583457485247_1_alg».proof.Proof.Spec
import proofs.«407857_j5583457485247_1_alg».proof.Proof.KReg0
import proofs.«407857_j5583457485247_1_alg».proof.Proof.KReg1
import proofs.«407857_j5583457485247_1_alg».proof.Proof.KReg2
import proofs.«407857_j5583457485247_1_alg».proof.Proof.KHost

/-!
# The kernel program's result, of the launch memory

The program's buffers pass six boundaries: the launch, after the first host operations, after the first kernel, after
the second kernel, after the second host operations, after the third kernel. A kernel changes only its own output arrays
and a host operation only the one buffer it writes, so each array a later stage reads is found by walking back to the
stage that wrote it, or to the launch. Composed, the result array is the layer's function of the argument arrays.
-/

set_option maxRecDepth 16384

noncomputable section

namespace Cert.KernelIdeal.Chain

open Idealize.ShloMosaic Idealize.ShloMosaic.TcCoe Idealize.SL.Sem Cert.KernelIdeal Cert.KernelIdeal.Gen
open Cert.Spec (linD mulD lin1 linC rowD rowC row1 colN combine agg deg total)

variable (m : (ℓ : Loc nD τ sig) → Buf (Elt Ideal) ℓ) (ρ : Dev nD → PrngReg) (c : Dev nD)

/-! ## A buffer nothing has written yet -/

/-- After the first host operations a buffer other than the five reshaped biases holds its launch contents. -/
theorem W1_keep (b : Ref sig .tc) (hb : b ∉ [main_v0, main_v1, main_v2, main_v3, main_v4]) :
    W1 (F := Ideal) m ρ c (Proc.devRef .tc b) = m ((c : Thread nD τ).loc b) :=
  HostVals.host0_keep (W0 m ρ c) b hb

/-- After the first kernel a buffer that is none of its arrays and none of the five reshaped biases still holds its
    launch contents. -/
theorem W2_keep (b : Ref sig .tc) (h0 : ∀ w, Pipeline.arrRef spec0 w ≠ b) (hb : b ∉ [main_v0, main_v1, main_v2, main_v3, main_v4]) :
    W2 (F := Ideal) m ρ c (Proc.devRef .tc b) = m ((c : Thread nD τ).loc b) :=
  (W2_of_ne m ρ c b h0).trans (W1_keep m ρ c b hb)

/-- After the second kernel a buffer that is none of either kernel's arrays and none of the five reshaped biases still
    holds its launch contents. -/
theorem W3_keep (b : Ref sig .tc) (h1 : ∀ w, Pipeline.arrRef spec1 w ≠ b) (h0 : ∀ w, Pipeline.arrRef spec0 w ≠ b)
    (hb : b ∉ [main_v0, main_v1, main_v2, main_v3, main_v4]) :
    W3 (F := Ideal) m ρ c (Proc.devRef .tc b) = m ((c : Thread nD τ).loc b) :=
  (W3_of_ne m ρ c b h1).trans (W2_keep m ρ c b h0 hb)

/-! ## The first kernel's input arrays, as it finds them -/

theorem V1_arg0 : V1 (F := Ideal) m ρ c main_arg0 = m ((c : Thread nD τ).loc main_arg0) := W1_keep m ρ c main_arg0 (by decide)
theorem V1_arg6 : V1 (F := Ideal) m ρ c main_arg6 = m ((c : Thread nD τ).loc main_arg6) := W1_keep m ρ c main_arg6 (by decide)
theorem V1_arg10 : V1 (F := Ideal) m ρ c main_arg10 = m ((c : Thread nD τ).loc main_arg10) := W1_keep m ρ c main_arg10 (by decide)
theorem V1_arg14 : V1 (F := Ideal) m ρ c main_arg14 = m ((c : Thread nD τ).loc main_arg14) := W1_keep m ρ c main_arg14 (by decide)
theorem V1_arg18 : V1 (F := Ideal) m ρ c main_arg18 = m ((c : Thread nD τ).loc main_arg18) := W1_keep m ρ c main_arg18 (by decide)
theorem V1_arg22 : V1 (F := Ideal) m ρ c main_arg22 = m ((c : Thread nD τ).loc main_arg22) := W1_keep m ρ c main_arg22 (by decide)
theorem V1_v0 : rowD (V1 (F := Ideal) m ρ c main_v0) = m ((c : Thread nD τ).loc main_arg7) := HostVals.host0_v0 (W0 m ρ c)
theorem V1_v1 : rowD (V1 (F := Ideal) m ρ c main_v1) = m ((c : Thread nD τ).loc main_arg11) := HostVals.host0_v1 (W0 m ρ c)
theorem V1_v2 : rowD (V1 (F := Ideal) m ρ c main_v2) = m ((c : Thread nD τ).loc main_arg15) := HostVals.host0_v2 (W0 m ρ c)
theorem V1_v3 : row1 (V1 (F := Ideal) m ρ c main_v3) = m ((c : Thread nD τ).loc main_arg19) := HostVals.host0_v3 (W0 m ρ c)
theorem V1_v4 : row1 (V1 (F := Ideal) m ρ c main_v4) = m ((c : Thread nD τ).loc main_arg23) := HostVals.host0_v4 (W0 m ρ c)

/-! ## What the first kernel leaves -/

/-- The node's own transform, of the launch memory. -/
abbrev dstOf : Cert.Spec.Arr Cert.Spec.SNxD :=
  linD (m ((c : Thread nD τ).loc main_arg0)) (m ((c : Thread nD τ).loc main_arg6)) (m ((c : Thread nD τ).loc main_arg7))

theorem W2_dst : W2 (F := Ideal) m ρ c (Proc.devRef .tc main_v5_0) = dstOf m c := by
  refine (W2_arr m ρ c 11).trans ((Reg0.dst_eq (V1 m ρ) c).trans ?_)
  rw [V1_arg0, V1_arg6, V1_v0]
theorem W2_hl : W2 (F := Ideal) m ρ c (Proc.devRef .tc main_v5_1)
    = lin1 (linD (dstOf m c) (m ((c : Thread nD τ).loc main_arg14)) (m ((c : Thread nD τ).loc main_arg15)))
        (m ((c : Thread nD τ).loc main_arg18)) (m ((c : Thread nD τ).loc main_arg19)) := by
  refine (W2_arr m ρ c 12).trans ((Reg0.hl_eq (V1 m ρ) c).trans ?_)
  rw [V1_arg0, V1_arg6, V1_v0, V1_arg14, V1_v2, V1_arg18, V1_v3]
theorem W2_hr : W2 (F := Ideal) m ρ c (Proc.devRef .tc main_v5_2)
    = lin1 (linD (dstOf m c) (m ((c : Thread nD τ).loc main_arg10)) (m ((c : Thread nD τ).loc main_arg11)))
        (m ((c : Thread nD τ).loc main_arg22)) (m ((c : Thread nD τ).loc main_arg23)) := by
  refine (W2_arr m ρ c 13).trans ((Reg0.hr_eq (V1 m ρ) c).trans ?_)
  rw [V1_arg0, V1_arg6, V1_v0, V1_arg10, V1_v1, V1_arg22, V1_v4]

/-- An input array of the first kernel is, after it, what it was before it: the key map's two weight arrays, which the
    third kernel reads again. -/
theorem W2_arg14 : W2 (F := Ideal) m ρ c (Proc.devRef .tc main_arg14) = m ((c : Thread nD τ).loc main_arg14) :=
  ((W2_arr m ρ c 5).trans (((dat0 (V1 m ρ) c).arrAt_in 5 rfl _).trans (A_eq0 (V1 m ρ) c 5))).trans (V1_arg14 m ρ c)
theorem W2_arg18 : W2 (F := Ideal) m ρ c (Proc.devRef .tc main_arg18) = m ((c : Thread nD τ).loc main_arg18) :=
  ((W2_arr m ρ c 7).trans (((dat0 (V1 m ρ) c).arrAt_in 7 rfl _).trans (A_eq0 (V1 m ρ) c 7))).trans (V1_arg18 m ρ c)

/-! ## What the second kernel leaves -/

theorem W3_msg : W3 (F := Ideal) m ρ c (Proc.devRef .tc main_v6)
    = mulD (m ((c : Thread nD τ).loc main_arg1)) (m ((c : Thread nD τ).loc main_arg26)) := by
  refine (W3_arr m ρ c 2).trans ((Reg1.msg_eq (V2 m ρ) c).trans ?_)
  have e1 : V2 (F := Ideal) m ρ c main_arg1 = m ((c : Thread nD τ).loc main_arg1) := W2_keep m ρ c main_arg1 (by decide) (by decide)
  have e26 : V2 (F := Ideal) m ρ c main_arg26 = m ((c : Thread nD τ).loc main_arg26) := W2_keep m ρ c main_arg26 (by decide) (by decide)
  rw [e1, e26]

/-! ## The third kernel's input arrays, as it finds them -/

theorem V4_dst : V4 (F := Ideal) m ρ c main_v5_0 = dstOf m c :=
  (HostVals.host2_v5_0 (W3 m ρ c)).trans ((W3_of_ne m ρ c main_v5_0 (by decide)).trans (W2_dst m ρ c))
theorem V4_hl : V4 (F := Ideal) m ρ c main_v5_1
    = lin1 (linD (dstOf m c) (m ((c : Thread nD τ).loc main_arg14)) (m ((c : Thread nD τ).loc main_arg15)))
        (m ((c : Thread nD τ).loc main_arg18)) (m ((c : Thread nD τ).loc main_arg19)) :=
  (HostVals.host2_v5_1 (W3 m ρ c)).trans ((W3_of_ne m ρ c main_v5_1 (by decide)).trans (W2_hl m ρ c))
theorem V4_hr : V4 (F := Ideal) m ρ c main_v5_2
    = lin1 (linD (dstOf m c) (m ((c : Thread nD τ).loc main_arg10)) (m ((c : Thread nD τ).loc main_arg11)))
        (m ((c : Thread nD τ).loc main_arg22)) (m ((c : Thread nD τ).loc main_arg23)) :=
  (HostVals.host2_v5_2 (W3 m ρ c)).trans ((W3_of_ne m ρ c main_v5_2 (by decide)).trans (W2_hr m ρ c))
theorem V4_agg : V4 (F := Ideal) m ρ c main_v16
    = agg (mulD (m ((c : Thread nD τ).loc main_arg1)) (m ((c : Thread nD τ).loc main_arg26)))
        (m ((c : Thread nD τ).loc main_arg2)) (m ((c : Thread nD τ).loc main_arg3)) := by
  refine (HostVals.host2_agg (W3 m ρ c)).trans ?_
  rw [W3_msg, W3_keep m ρ c main_arg2 (by decide) (by decide) (by decide), W3_keep m ρ c main_arg3 (by decide) (by decide) (by decide)]
theorem V4_deg : colN (V4 (F := Ideal) m ρ c main_v21) = deg (m ((c : Thread nD τ).loc main_arg3)) := by
  refine (HostVals.host2_deg (W3 m ρ c)).trans ?_
  rw [W3_keep m ρ c main_arg3 (by decide) (by decide) (by decide)]
theorem V4_cb : rowD (V4 (F := Ideal) m ρ c main_v22) = m ((c : Thread nD τ).loc main_arg27) :=
  (HostVals.host2_v22 (W3 m ρ c)).trans (W3_keep m ρ c main_arg27 (by decide) (by decide) (by decide))
theorem V4_bk : rowD (V4 (F := Ideal) m ρ c main_v23) = m ((c : Thread nD τ).loc main_arg15) :=
  (HostVals.host2_v23 (W3 m ρ c)).trans (W3_keep m ρ c main_arg15 (by decide) (by decide) (by decide))
theorem V4_bal : row1 (V4 (F := Ideal) m ρ c main_v24) = m ((c : Thread nD τ).loc main_arg19) :=
  (HostVals.host2_v24 (W3 m ρ c)).trans (W3_keep m ρ c main_arg19 (by decide) (by decide) (by decide))
theorem V4_cbs : rowC (V4 (F := Ideal) m ρ c main_v25) = m ((c : Thread nD τ).loc main_arg31) :=
  (HostVals.host2_v25 (W3 m ρ c)).trans (W3_keep m ρ c main_arg31 (by decide) (by decide) (by decide))
theorem V4_wk : V4 (F := Ideal) m ρ c main_arg14 = m ((c : Thread nD τ).loc main_arg14) :=
  (HostVals.host2_arg14 (W3 m ρ c)).trans ((W3_of_ne m ρ c main_arg14 (by decide)).trans (W2_arg14 m ρ c))
theorem V4_wal : V4 (F := Ideal) m ρ c main_arg18 = m ((c : Thread nD τ).loc main_arg18) :=
  (HostVals.host2_arg18 (W3 m ρ c)).trans ((W3_of_ne m ρ c main_arg18 (by decide)).trans (W2_arg18 m ρ c))
theorem V4_cw : V4 (F := Ideal) m ρ c main_arg30 = m ((c : Thread nD τ).loc main_arg30) :=
  (HostVals.host2_arg30 (W3 m ρ c)).trans (W3_keep m ρ c main_arg30 (by decide) (by decide) (by decide))

/-! ## The result -/

open Cert.Spec in
/-- Equal arrays in, equal class scores out. -/
theorem combine_congr {d d' : Arr SNxD} {hl hl' hr hr' : Arr SNx1} {a a' : Arr SNxD} {g g' : Arr SN} {cb cb' : Arr SD}
    {wk wk' : Arr SDxD} {bk bk' : Arr SD} {wal wal' : Arr SDx1} {bal bal' : Arr S1} {cw cw' : Arr SDxC} {cbs cbs' : Arr SC}
    (e1 : d = d') (e2 : hl = hl') (e3 : hr = hr') (e4 : a = a') (e5 : g = g') (e6 : cb = cb') (e7 : wk = wk') (e8 : bk = bk')
    (e9 : wal = wal') (e10 : bal = bal') (e11 : cw = cw') (e12 : cbs = cbs') :
    combine d hl hr a g cb wk bk wal bal cw cbs = combine d' hl' hr' a' g' cb' wk' bk' wal' bal' cw' cbs' := by
  subst e1 e2 e3 e4 e5 e6 e7 e8 e9 e10 e11 e12; rfl

/-- The result array after the run is the layer's function of the argument arrays as launched. -/
theorem result_eq : W5 (F := Ideal) m ρ c (Proc.devRef .tc main_v26) = total (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg10)) (m ((c : Thread nD τ).loc main_arg11)) (m ((c : Thread nD τ).loc main_arg14)) (m ((c : Thread nD τ).loc main_arg15)) (m ((c : Thread nD τ).loc main_arg18)) (m ((c : Thread nD τ).loc main_arg19)) (m ((c : Thread nD τ).loc main_arg22)) (m ((c : Thread nD τ).loc main_arg23)) (m ((c : Thread nD τ).loc main_arg26)) (m ((c : Thread nD τ).loc main_arg27)) (m ((c : Thread nD τ).loc main_arg30)) (m ((c : Thread nD τ).loc main_arg31)) := by
  refine (W5_arr m ρ c 12).trans ((Reg2.out_eq (V4 m ρ) c).trans ?_)
  exact combine_congr (V4_dst m ρ c) (V4_hl m ρ c) (V4_hr m ρ c) (V4_agg m ρ c) (V4_deg m ρ c) (V4_cb m ρ c) (V4_wk m ρ c)
    (V4_bk m ρ c) (V4_wal m ρ c) (V4_bal m ρ c) (V4_cw m ρ c) (V4_cbs m ρ c)

end Cert.KernelIdeal.Chain

end
-- ==== Proof.RefRun.lean ====
import proofs.«407857_j5583457485247_1_alg».proof.ReferenceIdeal
import proofs.«407857_j5583457485247_1_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal Cert.ReferenceIdeal.Gen

variable {F : FTy → Type} [FloatOps F]

/-- @main's 234 operations in program order, every call unfolded at its site. Each call of the
    exponential-linear unit on a column x is fifteen operations into that call's own buffers: the zero and its
    broadcast, the comparison x > 0 (twice, into two buffers), a third zero, the inner selection's three (the
    zero converted to its own type, broadcast, select (x > 0) 0 x), expm1 of that, the one and its
    broadcast, the product 1 * expm1 …, and the outer select (x > 0) x (1 * expm1 …) into the buffer the
    call's result becomes. Around the four calls are @main's own operations: the affine maps (a contraction, the
    bias broadcast twice, the sum), the two neighbourhood means (index wrap-around, gather, scatter-add of the rows
    and of ones, the count clamped below by one, the quotient, the bias), the attention logits, the two
    two-way softmaxes along a new leading axis (concatenate, maximum, subtract, exponential, sum, quotient), the
    slices of their weights, the weighted sums and the final affine map. -/
abbrev ops : List (HloOp τ sig (Elt F)) :=
  [ binary main_arg0 main_arg6 main_v0 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg7 main_v1 (broadcastInDim S1x256 ![1] bcast_S256_S1x256_1 : (⟨S256, .f32⟩ : BufTy).Contents (Elt F) → (⟨S1x256, .f32⟩ : BufTy).Contents (Elt F)),
    unary main_v1 main_v2 (broadcastInDim S100000x256 ![0, 1] bcast_S1x256_S100000x256_0_1 : (⟨S1x256, .f32⟩ : BufTy).Contents (Elt F) → (⟨S100000x256, .f32⟩ : BufTy).Contents (Elt F)),
    binary main_v0 main_v2 main_v3 (addf : (⟨S100000x256, .f32⟩ : BufTy).Contents (Elt F) → (⟨S100000x256, .f32⟩ : BufTy).Contents (Elt F) → (⟨S100000x256, .f32⟩ : BufTy).Contents (Elt F)),
    binary main_arg1 main_arg8 main_v4 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg9 main_v5 (broadcastInDim S1x256 ![1] bcast_S256_S1x256_1 : (⟨S256, .f32⟩ : BufTy).Contents (Elt F) → (⟨S1x256, .f32⟩ : BufTy).Contents (Elt F)),
    unary main_v5 main_v6 (broadcastInDim S100000x256 ![0, 1] bcast_S1x256_S100000x256_0_1 : (⟨S1x256, .f32⟩ : BufTy).Contents (Elt F) → (⟨S100000x256, .f32⟩ : BufTy).Contents (Elt F)),
    binary main_v4 main_v6 main_v7 (addf : (⟨S100000x256, .f32⟩ : BufTy).Contents (Elt F) → (⟨S100000x256, .f32⟩ : BufTy).Contents (Elt F) → (⟨S100000x256, .f32⟩ : BufTy).Contents (Elt F)),
    binary main_v3 main_arg14 main_v8 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg15 main_v9 (broadcastInDim S1x256 ![1] bcast_S256_S1x256_1 : (⟨S256, .f32⟩ : BufTy).Contents (Elt F) → (⟨S1x256, .f32⟩ : BufTy).Contents (Elt F)),
    unary main_v9 main_v10 (broadcastInDim S100000x256 ![0, 1] bcast_S1x256_S100000x256_0_1 : (⟨S1x256, .f32⟩ : BufTy).Contents (Elt F) → (⟨S100000x256, .f32⟩ : BufTy).Contents (Elt F)),
    binary main_v8 main_v10 main_v11 (addf : (⟨S100000x256, .f32⟩ : BufTy).Contents (Elt F) → (⟨S100000x256, .f32⟩ : BufTy).Contents (Elt F) → (⟨S100000x256, .f32⟩ : BufTy).Contents (Elt F)),
    binary main_v11 main_arg18 main_v12 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg19 main_v13 (broadcastInDim S1x1 ![1] bcast_S1_S1x1_1 : (⟨S1, .f32⟩ : BufTy).Contents (Elt F) → (⟨S1x1, .f32⟩ : BufTy).Contents (Elt F)),
    unary main_v13 main_v14 (broadcastInDim S100000x1 ![0, 1] bcast_S1x1_S100000x1_0_1 : (⟨S1x1, .f32⟩ : BufTy).Contents (Elt F) → (⟨S100000x1, .f32⟩ : BufTy).Contents (Elt F)),
    binary main_v12 main_v14 main_v15 (addf : (⟨S100000x1, .f32⟩ : BufTy).Contents (Elt F) → (⟨S100000x1, .f32⟩ : BufTy).Contents (Elt F) → (⟨S100000x1, .f32⟩ : BufTy).Contents (Elt F)),
    binary main_v3 main_arg10 main_v16 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg11 main_v17 (broadcastInDim S1x256 ![1] bcast_S256_S1x256_1 : (⟨S256, .f32⟩ : BufTy).Contents (Elt F) → (⟨S1x256, .f32⟩ : BufTy).Contents (Elt F)),
    unary main_v17 main_v18 (broadcastInDim S100000x256 ![0, 1] bcast_S1x256_S100000x256_0_1 : (⟨S1x256, .f32⟩ : BufTy).Contents (Elt F) → (⟨S100000x256, .f32⟩ : BufTy).Contents (Elt F)),
    binary main_v16 main_v18 main_v19 (addf : (⟨S100000x256, .f32⟩ : BufTy).Contents (Elt F) → (⟨S100000x256, .f32⟩ : BufTy).Contents (Elt F) → (⟨S100000x256, .f32⟩ : BufTy).Contents (Elt F)),
    binary main_v19 main_arg22 main_v20 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg23 main_v21 (broadcastInDim S1x1 ![1] bcast_S1_S1x1_1 : (⟨S1, .f32⟩ : BufTy).Contents (Elt F) → (⟨S1x1, .f32⟩ : BufTy).Contents (Elt F)),
    unary main_v21 main_v22 (broadcastInDim S100000x1 ![0, 1] bcast_S1x1_S100000x1_0_1 : (⟨S1x1, .f32⟩ : BufTy).Contents (Elt F) → (⟨S100000x1, .f32⟩ : BufTy).Contents (Elt F)),
    binary main_v20 main_v22 main_v23 (addf : (⟨S100000x1, .f32⟩ : BufTy).Contents (Elt F) → (⟨S100000x1, .f32⟩ : BufTy).Contents (Elt F) → (⟨S100000x1, .f32⟩ : BufTy).Contents (Elt F)),
    binary main_v7 main_arg16 main_v24 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg17 main_v25 (broadcastInDim S1x256 ![1] bcast_S256_S1x256_1 : (⟨S256, .f32⟩ : BufTy).Contents (Elt F) → (⟨S1x256, .f32⟩ : BufTy).Contents (Elt F)),
    unary main_v25 main_v26 (broadcastInDim S100000x256 ![0, 1] bcast_S1x256_S100000x256_0_1 : (⟨S1x256, .f32⟩ : BufTy).Contents (Elt F) → (⟨S100000x256, .f32⟩ : BufTy).Contents (Elt F)),
    binary main_v24 main_v26 main_v27 (addf : (⟨S100000x256, .f32⟩ : BufTy).Contents (Elt F) → (⟨S100000x256, .f32⟩ : BufTy).Contents (Elt F) → (⟨S100000x256, .f32⟩ : BufTy).Contents (Elt F)),
    binary main_v27 main_arg20 main_v28 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg21 main_v29 (broadcastInDim S1x1 ![1] bcast_S1_S1x1_1 : (⟨S1, .f32⟩ : BufTy).Contents (Elt F) → (⟨S1x1, .f32⟩ : BufTy).Contents (Elt F)),
    unary main_v29 main_v30 (broadcastInDim S100000x1 ![0, 1] bcast_S1x1_S100000x1_0_1 : (⟨S1x1, .f32⟩ : BufTy).Contents (Elt F) → (⟨S100000x1, .f32⟩ : BufTy).Contents (Elt F)),
    binary main_v28 main_v30 main_v31 (addf : (⟨S100000x1, .f32⟩ : BufTy).Contents (Elt F) → (⟨S100000x1, .f32⟩ : BufTy).Contents (Elt F) → (⟨S100000x1, .f32⟩ : BufTy).Contents (Elt F)),
    binary main_v7 main_arg12 main_v32 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg13 main_v33 (broadcastInDim S1x256 ![1] bcast_S256_S1x256_1 : (⟨S256, .f32⟩ : BufTy).Contents (Elt F) → (⟨S1x256, .f32⟩ : BufTy).Contents (Elt F)),
    unary main_v33 main_v34 (broadcastInDim S100000x256 ![0, 1] bcast_S1x256_S100000x256_0_1 : (⟨S1x256, .f32⟩ : BufTy).Contents (Elt F) → (⟨S100000x256, .f32⟩ : BufTy).Contents (Elt F)),
    binary main_v32 main_v34 main_v35 (addf : (⟨S100000x256, .f32⟩ : BufTy).Contents (Elt F) → (⟨S100000x256, .f32⟩ : BufTy).Contents (Elt F) → (⟨S100000x256, .f32⟩ : BufTy).Contents (Elt F)),
    binary main_v35 main_arg24 main_v36 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg25 main_v37 (broadcastInDim S1x1 ![1] bcast_S1_S1x1_1 : (⟨S1, .f32⟩ : BufTy).Contents (Elt F) → (⟨S1x1, .f32⟩ : BufTy).Contents (Elt F)),
    unary main_v37 main_v38 (broadcastInDim S100000x1 ![0, 1] bcast_S1x1_S100000x1_0_1 : (⟨S1x1, .f32⟩ : BufTy).Contents (Elt F) → (⟨S100000x1, .f32⟩ : BufTy).Contents (Elt F)),
    binary main_v36 main_v38 main_v39 (addf : (⟨S100000x1, .f32⟩ : BufTy).Contents (Elt F) → (⟨S100000x1, .f32⟩ : BufTy).Contents (Elt F) → (⟨S100000x1, .f32⟩ : BufTy).Contents (Elt F)),
    binary main_arg1 main_arg26 main_v40 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    nullary main_c (constantI S_ 32 0#32),
    unary main_c main_v41 (broadcastInDim S800000 ![] bcast_S_S800000 : (⟨S_, .i32⟩ : BufTy).Contents (Elt F) → (⟨S800000, .i32⟩ : BufTy).Contents (Elt F)),
    binary main_arg2 main_v41 main_v42 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v43 (broadcastInDim S800000 ![] bcast_S_S800000 : (⟨S_, .i32⟩ : BufTy).Contents (Elt F) → (⟨S800000, .i32⟩ : BufTy).Contents (Elt F)),
    binary main_arg2 main_v43 main_v44 (addi : (⟨S800000, .i32⟩ : BufTy).Contents (Elt F) → (⟨S800000, .i32⟩ : BufTy).Contents (Elt F) → (⟨S800000, .i32⟩ : BufTy).Contents (Elt F)),
    ternary main_v42 main_v44 main_arg2 main_v45 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v45 main_v46 (broadcastInDim S800000x1 ![0] bcast_S800000_S800000x1_0 : (⟨S800000, .i32⟩ : BufTy).Contents (Elt F) → (⟨S800000x1, .i32⟩ : BufTy).Contents (Elt F)),
    binary main_v40 main_v46 main_v47 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst (constant S_ .f32 0x00000000#32),
    unary main_cst main_v48 (broadcastInDim S100000x256 ![] bcast_S_S100000x256 : (⟨S_, .f32⟩ : BufTy).Contents (Elt F) → (⟨S100000x256, .f32⟩ : BufTy).Contents (Elt F)),
    unary main_arg3 main_v49 (broadcastInDim S800000x1 ![0] bcast_S800000_S800000x1_0 : (⟨S800000, .i32⟩ : BufTy).Contents (Elt F) → (⟨S800000x1, .i32⟩ : BufTy).Contents (Elt F)),
    ternary main_v48 main_v49 main_v47 main_v50 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    nullary main_cst_1 (constant S_ .f32 0x3F800000#32),
    unary main_cst_1 main_v51 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v52 (broadcastInDim S100000 ![] bcast_S_S100000 : (⟨S_, .f32⟩ : BufTy).Contents (Elt F) → (⟨S100000, .f32⟩ : BufTy).Contents (Elt F)),
    unary main_arg3 main_v53 (broadcastInDim S800000x1 ![0] bcast_S800000_S800000x1_0 : (⟨S800000, .i32⟩ : BufTy).Contents (Elt F) → (⟨S800000x1, .i32⟩ : BufTy).Contents (Elt F)),
    ternary main_v52 main_v53 main_v51 main_v54 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_3 (constant S_ .f32 0x3F800000#32),
    unary main_cst_3 main_v55 (broadcastInDim S100000 ![] bcast_S_S100000 : (⟨S_, .f32⟩ : BufTy).Contents (Elt F) → (⟨S100000, .f32⟩ : BufTy).Contents (Elt F)),
    binary main_v54 main_v55 main_v56 (maximumf : (⟨S100000, .f32⟩ : BufTy).Contents (Elt F) → (⟨S100000, .f32⟩ : BufTy).Contents (Elt F) → (⟨S100000, .f32⟩ : BufTy).Contents (Elt F)),
    unary main_v56 main_v57 (broadcastInDim S100000x1 ![0] bcast_S100000_S100000x1_0 : (⟨S100000, .f32⟩ : BufTy).Contents (Elt F) → (⟨S100000x1, .f32⟩ : BufTy).Contents (Elt F)),
    unary main_v57 main_v58 (broadcastInDim S100000x256 ![0, 1] bcast_S100000x1_S100000x256_0_1 : (⟨S100000x1, .f32⟩ : BufTy).Contents (Elt F) → (⟨S100000x256, .f32⟩ : BufTy).Contents (Elt F)),
    binary main_v50 main_v58 main_v59 (Host.divf : (⟨S100000x256, .f32⟩ : BufTy).Contents (Elt F) → (⟨S100000x256, .f32⟩ : BufTy).Contents (Elt F) → (⟨S100000x256, .f32⟩ : BufTy).Contents (Elt F)),
    unary main_arg27 main_v60 (broadcastInDim S1x256 ![1] bcast_S256_S1x256_1 : (⟨S256, .f32⟩ : BufTy).Contents (Elt F) → (⟨S1x256, .f32⟩ : BufTy).Contents (Elt F)),
    unary main_v60 main_v61 (broadcastInDim S100000x256 ![0, 1] bcast_S1x256_S100000x256_0_1 : (⟨S1x256, .f32⟩ : BufTy).Contents (Elt F) → (⟨S100000x256, .f32⟩ : BufTy).Contents (Elt F)),
    binary main_v59 main_v61 main_v62 (addf : (⟨S100000x256, .f32⟩ : BufTy).Contents (Elt F) → (⟨S100000x256, .f32⟩ : BufTy).Contents (Elt F) → (⟨S100000x256, .f32⟩ : BufTy).Contents (Elt F)),
    binary main_arg0 main_arg28 main_v63 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    nullary main_c_4 (constantI S_ 32 0#32),
    unary main_c_4 main_v64 (broadcastInDim S800000 ![] bcast_S_S800000 : (⟨S_, .i32⟩ : BufTy).Contents (Elt F) → (⟨S800000, .i32⟩ : BufTy).Contents (Elt F)),
    binary main_arg4 main_v64 main_v65 (cmpi .slt : (⟨S800000, .i32⟩ : BufTy).Contents (Elt F) → (⟨S800000, .i32⟩ : BufTy).Contents (Elt F) → (⟨S800000, .i1⟩ : BufTy).Contents (Elt F)),
    nullary main_c_5 (constantI S_ 32 100000#32),
    unary main_c_5 main_v66 (broadcastInDim S800000 ![] bcast_S_S800000 : (⟨S_, .i32⟩ : BufTy).Contents (Elt F) → (⟨S800000, .i32⟩ : BufTy).Contents (Elt F)),
    binary main_arg4 main_v66 main_v67 (addi : (⟨S800000, .i32⟩ : BufTy).Contents (Elt F) → (⟨S800000, .i32⟩ : BufTy).Contents (Elt F) → (⟨S800000, .i32⟩ : BufTy).Contents (Elt F)),
    ternary main_v65 main_v67 main_arg4 main_v68 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v68 main_v69 (broadcastInDim S800000x1 ![0] bcast_S800000_S800000x1_0 : (⟨S800000, .i32⟩ : BufTy).Contents (Elt F) → (⟨S800000x1, .i32⟩ : BufTy).Contents (Elt F)),
    binary main_v63 main_v69 main_v70 ((fun x i => Host.gather gather_S100000x256_S800000x1_S800000x256_1_0_n_n_0_1_1256 x i) : (⟨S100000x256, .f32⟩ : BufTy).Contents (Elt F) → (⟨S800000x1, .i32⟩ : BufTy).Contents (Elt F) → (⟨S800000x256, .f32⟩ : BufTy).Contents (Elt F)),
    nullary main_cst_6 (constant S_ .f32 0x00000000#32),
    unary main_cst_6 main_v71 (broadcastInDim S100000x256 ![] bcast_S_S100000x256 : (⟨S_, .f32⟩ : BufTy).Contents (Elt F) → (⟨S100000x256, .f32⟩ : BufTy).Contents (Elt F)),
    unary main_arg5 main_v72 (broadcastInDim S800000x1 ![0] bcast_S800000_S800000x1_0 : (⟨S800000, .i32⟩ : BufTy).Contents (Elt F) → (⟨S800000x1, .i32⟩ : BufTy).Contents (Elt F)),
    ternary main_v71 main_v72 main_v70 main_v73 ((fun x i u => Host.scatterAdd scatter_S100000x256_S800000x1_S800000x256_1_0_0_1 x i u) : (⟨S100000x256, .f32⟩ : BufTy).Contents (Elt F) → (⟨S800000x1, .i32⟩ : BufTy).Contents (Elt F) → (⟨S800000x256, .f32⟩ : BufTy).Contents (Elt F) → (⟨S100000x256, .f32⟩ : BufTy).Contents (Elt F)),
    nullary main_cst_7 (constant S_ .f32 0x3F800000#32),
    unary main_cst_7 main_v74 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v75 (broadcastInDim S100000 ![] bcast_S_S100000 : (⟨S_, .f32⟩ : BufTy).Contents (Elt F) → (⟨S100000, .f32⟩ : BufTy).Contents (Elt F)),
    unary main_arg5 main_v76 (broadcastInDim S800000x1 ![0] bcast_S800000_S800000x1_0 : (⟨S800000, .i32⟩ : BufTy).Contents (Elt F) → (⟨S800000x1, .i32⟩ : BufTy).Contents (Elt F)),
    ternary main_v75 main_v76 main_v74 main_v77 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_9 (constant S_ .f32 0x3F800000#32),
    unary main_cst_9 main_v78 (broadcastInDim S100000 ![] bcast_S_S100000 : (⟨S_, .f32⟩ : BufTy).Contents (Elt F) → (⟨S100000, .f32⟩ : BufTy).Contents (Elt F)),
    binary main_v77 main_v78 main_v79 (maximumf : (⟨S100000, .f32⟩ : BufTy).Contents (Elt F) → (⟨S100000, .f32⟩ : BufTy).Contents (Elt F) → (⟨S100000, .f32⟩ : BufTy).Contents (Elt F)),
    unary main_v79 main_v80 (broadcastInDim S100000x1 ![0] bcast_S100000_S100000x1_0 : (⟨S100000, .f32⟩ : BufTy).Contents (Elt F) → (⟨S100000x1, .f32⟩ : BufTy).Contents (Elt F)),
    unary main_v80 main_v81 (broadcastInDim S100000x256 ![0, 1] bcast_S100000x1_S100000x256_0_1 : (⟨S100000x1, .f32⟩ : BufTy).Contents (Elt F) → (⟨S100000x256, .f32⟩ : BufTy).Contents (Elt F)),
    binary main_v73 main_v81 main_v82 (Host.divf : (⟨S100000x256, .f32⟩ : BufTy).Contents (Elt F) → (⟨S100000x256, .f32⟩ : BufTy).Contents (Elt F) → (⟨S100000x256, .f32⟩ : BufTy).Contents (Elt F)),
    unary main_arg29 main_v83 (broadcastInDim S1x256 ![1] bcast_S256_S1x256_1 : (⟨S256, .f32⟩ : BufTy).Contents (Elt F) → (⟨S1x256, .f32⟩ : BufTy).Contents (Elt F)),
    unary main_v83 main_v84 (broadcastInDim S100000x256 ![0, 1] bcast_S1x256_S100000x256_0_1 : (⟨S1x256, .f32⟩ : BufTy).Contents (Elt F) → (⟨S100000x256, .f32⟩ : BufTy).Contents (Elt F)),
    binary main_v82 main_v84 main_v85 (addf : (⟨S100000x256, .f32⟩ : BufTy).Contents (Elt F) → (⟨S100000x256, .f32⟩ : BufTy).Contents (Elt F) → (⟨S100000x256, .f32⟩ : BufTy).Contents (Elt F)),
    binary main_v62 main_arg14 main_v86 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg15 main_v87 (broadcastInDim S1x256 ![1] bcast_S256_S1x256_1 : (⟨S256, .f32⟩ : BufTy).Contents (Elt F) → (⟨S1x256, .f32⟩ : BufTy).Contents (Elt F)),
    unary main_v87 main_v88 (broadcastInDim S100000x256 ![0, 1] bcast_S1x256_S100000x256_0_1 : (⟨S1x256, .f32⟩ : BufTy).Contents (Elt F) → (⟨S100000x256, .f32⟩ : BufTy).Contents (Elt F)),
    binary main_v86 main_v88 main_v89 (addf : (⟨S100000x256, .f32⟩ : BufTy).Contents (Elt F) → (⟨S100000x256, .f32⟩ : BufTy).Contents (Elt F) → (⟨S100000x256, .f32⟩ : BufTy).Contents (Elt F)),
    binary main_v89 main_arg18 main_v90 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg19 main_v91 (broadcastInDim S1x1 ![1] bcast_S1_S1x1_1 : (⟨S1, .f32⟩ : BufTy).Contents (Elt F) → (⟨S1x1, .f32⟩ : BufTy).Contents (Elt F)),
    unary main_v91 main_v92 (broadcastInDim S100000x1 ![0, 1] bcast_S1x1_S100000x1_0_1 : (⟨S1x1, .f32⟩ : BufTy).Contents (Elt F) → (⟨S100000x1, .f32⟩ : BufTy).Contents (Elt F)),
    binary main_v90 main_v92 main_v93 (addf : (⟨S100000x1, .f32⟩ : BufTy).Contents (Elt F) → (⟨S100000x1, .f32⟩ : BufTy).Contents (Elt F) → (⟨S100000x1, .f32⟩ : BufTy).Contents (Elt F)),
    binary main_v93 main_v23 main_v94 (addf : (⟨S100000x1, .f32⟩ : BufTy).Contents (Elt F) → (⟨S100000x1, .f32⟩ : BufTy).Contents (Elt F) → (⟨S100000x1, .f32⟩ : BufTy).Contents (Elt F)),
    TRef.nullary main_call0.cst (constant S_ .f32 0x00000000#32),
    TRef.unary main_call0.cst main_call0.v0 (broadcastInDim S100000x1 ![] bcast_S_S100000x1),
    TRef.binary (.of main_v94) main_call0.v0 main_call0.v1 (cmpf .ogt),
    TRef.nullary main_call0.cst_0 (constant S_ .f32 0x00000000#32),
    TRef.unary main_call0.cst_0 main_call0.v2 (broadcastInDim S100000x1 ![] bcast_S_S100000x1),
    TRef.binary (.of main_v94) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x1 ![] bcast_S_S100000x1),
    TRef.ternary main_call0.v3 main_call0.call0.v1 (.of main_v94) main_call0.call0.v2 select,
    TRef.unary main_call0.call0.v2 main_call0.v5 Host.expm1,
    TRef.nullary main_call0.cst_2 (constant S_ .f32 0x3F800000#32),
    TRef.unary main_call0.cst_2 main_call0.v6 (broadcastInDim S100000x1 ![] bcast_S_S100000x1),
    TRef.binary main_call0.v6 main_call0.v5 main_call0.v7 mulf,
    TRef.ternary main_call0.v1 (.of main_v94) main_call0.v7 main_call0.call1.v0 select,
    binary main_v85 main_arg16 main_v96 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg17 main_v97 (broadcastInDim S1x256 ![1] bcast_S256_S1x256_1 : (⟨S256, .f32⟩ : BufTy).Contents (Elt F) → (⟨S1x256, .f32⟩ : BufTy).Contents (Elt F)),
    unary main_v97 main_v98 (broadcastInDim S100000x256 ![0, 1] bcast_S1x256_S100000x256_0_1 : (⟨S1x256, .f32⟩ : BufTy).Contents (Elt F) → (⟨S100000x256, .f32⟩ : BufTy).Contents (Elt F)),
    binary main_v96 main_v98 main_v99 (addf : (⟨S100000x256, .f32⟩ : BufTy).Contents (Elt F) → (⟨S100000x256, .f32⟩ : BufTy).Contents (Elt F) → (⟨S100000x256, .f32⟩ : BufTy).Contents (Elt F)),
    binary main_v99 main_arg20 main_v100 ((fun l r => Host.dotGeneral dot_S100000x256_S256x1_S100000x1_1_0_0_1_n_n none l r) : (⟨S100000x256, .f32⟩ : BufTy).Contents (Elt F) → (⟨S256x1, .f32⟩ : BufTy).Contents (Elt F) → (⟨S100000x1, .f32⟩ : BufTy).Contents (Elt F)),
    unary main_arg21 main_v101 (broadcastInDim S1x1 ![1] bcast_S1_S1x1_1 : (⟨S1, .f32⟩ : BufTy).Contents (Elt F) → (⟨S1x1, .f32⟩ : BufTy).Contents (Elt F)),
    unary main_v101 main_v102 (broadcastInDim S100000x1 ![0, 1] bcast_S1x1_S100000x1_0_1 : (⟨S1x1, .f32⟩ : BufTy).Contents (Elt F) → (⟨S100000x1, .f32⟩ : BufTy).Contents (Elt F)),
    binary main_v100 main_v102 main_v103 (addf : (⟨S100000x1, .f32⟩ : BufTy).Contents (Elt F) → (⟨S100000x1, .f32⟩ : BufTy).Contents (Elt F) → (⟨S100000x1, .f32⟩ : BufTy).Contents (Elt F)),
    binary main_v103 main_v39 main_v104 (addf : (⟨S100000x1, .f32⟩ : BufTy).Contents (Elt F) → (⟨S100000x1, .f32⟩ : BufTy).Contents (Elt F) → (⟨S100000x1, .f32⟩ : BufTy).Contents (Elt F)),
    TRef.nullary main_call1.cst (constant S_ .f32 0x00000000#32),
    TRef.unary main_call1.cst main_call1.v0 (broadcastInDim S100000x1 ![] bcast_S_S100000x1),
    TRef.binary (.of main_v104) main_call1.v0 main_call1.v1 (cmpf .ogt),
    TRef.nullary main_call1.cst_0 (constant S_ .f32 0x00000000#32),
    TRef.unary main_call1.cst_0 main_call1.v2 (broadcastInDim S100000x1 ![] bcast_S_S100000x1),
    TRef.binary (.of main_v104) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x1 ![] bcast_S_S100000x1),
    TRef.ternary main_call1.v3 main_call1.call0.v1 (.of main_v104) main_call1.call0.v2 select,
    TRef.unary main_call1.call0.v2 main_call1.v5 Host.expm1,
    TRef.nullary main_call1.cst_2 (constant S_ .f32 0x3F800000#32),
    TRef.unary main_call1.cst_2 main_call1.v6 (broadcastInDim S100000x1 ![] bcast_S_S100000x1),
    TRef.binary main_call1.v6 main_call1.v5 main_call1.v7 mulf,
    TRef.ternary main_call1.v1 (.of main_v104) main_call1.v7 main_call1.call1.v0 select,
    binary main_v15 main_v23 main_v106 (addf : (⟨S100000x1, .f32⟩ : BufTy).Contents (Elt F) → (⟨S100000x1, .f32⟩ : BufTy).Contents (Elt F) → (⟨S100000x1, .f32⟩ : BufTy).Contents (Elt F)),
    TRef.nullary main_call2.cst (constant S_ .f32 0x00000000#32),
    TRef.unary main_call2.cst main_call2.v0 (broadcastInDim S100000x1 ![] bcast_S_S100000x1),
    TRef.binary (.of main_v106) main_call2.v0 main_call2.v1 (cmpf .ogt),
    TRef.nullary main_call2.cst_0 (constant S_ .f32 0x00000000#32),
    TRef.unary main_call2.cst_0 main_call2.v2 (broadcastInDim S100000x1 ![] bcast_S_S100000x1),
    TRef.binary (.of main_v106) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x1 ![] bcast_S_S100000x1),
    TRef.ternary main_call2.v3 main_call2.call0.v1 (.of main_v106) main_call2.call0.v2 select,
    TRef.unary main_call2.call0.v2 main_call2.v5 Host.expm1,
    TRef.nullary main_call2.cst_2 (constant S_ .f32 0x3F800000#32),
    TRef.unary main_call2.cst_2 main_call2.v6 (broadcastInDim S100000x1 ![] bcast_S_S100000x1),
    TRef.binary main_call2.v6 main_call2.v5 main_call2.v7 mulf,
    TRef.ternary main_call2.v1 (.of main_v106) main_call2.v7 main_call2.call1.v0 select,
    unary main_v107 main_v108 (broadcastInDim S1x100000x1 ![1, 2] bcast_S100000x1_S1x100000x1_1_2 : (⟨S100000x1, .f32⟩ : BufTy).Contents (Elt F) → (⟨S1x100000x1, .f32⟩ : BufTy).Contents (Elt F)),
    unary main_v95 main_v109 (broadcastInDim S1x100000x1 ![1, 2] bcast_S100000x1_S1x100000x1_1_2 : (⟨S100000x1, .f32⟩ : BufTy).Contents (Elt F) → (⟨S1x100000x1, .f32⟩ : BufTy).Contents (Elt F)),
    binary main_v108 main_v109 main_v110 ((fun a b => concatenate S2x100000x1 0 [⟨S1x100000x1, a⟩, ⟨S1x100000x1, b⟩] concatenates_S1x100000x1_S1x100000x1_S2x100000x1_d0) : (⟨S1x100000x1, .f32⟩ : BufTy).Contents (Elt F) → (⟨S1x100000x1, .f32⟩ : BufTy).Contents (Elt F) → (⟨S2x100000x1, .f32⟩ : BufTy).Contents (Elt F)),
    nullary main_cst_10 (constant S_ .f32 0xFF800000#32),
    binary main_v110 main_cst_10 main_v111 ((fun x v => Host.reduce FloatOps.maximumf x v reducesTo_S2x100000x1_S100000x1_d0 h_S_) : (⟨S2x100000x1, .f32⟩ : BufTy).Contents (Elt F) → (⟨S_, .f32⟩ : BufTy).Contents (Elt F) → (⟨S100000x1, .f32⟩ : BufTy).Contents (Elt F)),
    nullary main_cst_11 (constant S_ .f32 0xFF800000#32),
    unary main_cst_11 main_v112 (broadcastInDim S100000x1 ![] bcast_S_S100000x1 : (⟨S_, .f32⟩ : BufTy).Contents (Elt F) → (⟨S100000x1, .f32⟩ : BufTy).Contents (Elt F)),
    binary main_v112 main_v111 main_v113 (maximumf : (⟨S100000x1, .f32⟩ : BufTy).Contents (Elt F) → (⟨S100000x1, .f32⟩ : BufTy).Contents (Elt F) → (⟨S100000x1, .f32⟩ : BufTy).Contents (Elt F)),
    unary main_v113 main_v114 (broadcastInDim S1x100000x1 ![1, 2] bcast_S100000x1_S1x100000x1_1_2 : (⟨S100000x1, .f32⟩ : BufTy).Contents (Elt F) → (⟨S1x100000x1, .f32⟩ : BufTy).Contents (Elt F)),
    unary main_v114 main_v115 (broadcastInDim S2x100000x1 ![0, 1, 2] bcast_S1x100000x1_S2x100000x1_0_1_2 : (⟨S1x100000x1, .f32⟩ : BufTy).Contents (Elt F) → (⟨S2x100000x1, .f32⟩ : BufTy).Contents (Elt F)),
    binary main_v110 main_v115 main_v116 (subf : (⟨S2x100000x1, .f32⟩ : BufTy).Contents (Elt F) → (⟨S2x100000x1, .f32⟩ : BufTy).Contents (Elt F) → (⟨S2x100000x1, .f32⟩ : BufTy).Contents (Elt F)),
    unary main_v116 main_v117 (Host.exp : (⟨S2x100000x1, .f32⟩ : BufTy).Contents (Elt F) → (⟨S2x100000x1, .f32⟩ : BufTy).Contents (Elt F)),
    nullary main_cst_12 (constant S_ .f32 0x00000000#32),
    binary main_v117 main_cst_12 main_v118 ((fun x v => Host.reduceAdd x v reducesTo_S2x100000x1_S100000x1_d0 h_S_) : (⟨S2x100000x1, .f32⟩ : BufTy).Contents (Elt F) → (⟨S_, .f32⟩ : BufTy).Contents (Elt F) → (⟨S100000x1, .f32⟩ : BufTy).Contents (Elt F)),
    unary main_v118 main_v119 (broadcastInDim S1x100000x1 ![1, 2] bcast_S100000x1_S1x100000x1_1_2 : (⟨S100000x1, .f32⟩ : BufTy).Contents (Elt F) → (⟨S1x100000x1, .f32⟩ : BufTy).Contents (Elt F)),
    unary main_v119 main_v120 (broadcastInDim S2x100000x1 ![0, 1, 2] bcast_S1x100000x1_S2x100000x1_0_1_2 : (⟨S1x100000x1, .f32⟩ : BufTy).Contents (Elt F) → (⟨S2x100000x1, .f32⟩ : BufTy).Contents (Elt F)),
    binary main_v117 main_v120 main_v121 (Host.divf : (⟨S2x100000x1, .f32⟩ : BufTy).Contents (Elt F) → (⟨S2x100000x1, .f32⟩ : BufTy).Contents (Elt F) → (⟨S2x100000x1, .f32⟩ : BufTy).Contents (Elt F)),
    binary main_v31 main_v39 main_v122 (addf : (⟨S100000x1, .f32⟩ : BufTy).Contents (Elt F) → (⟨S100000x1, .f32⟩ : BufTy).Contents (Elt F) → (⟨S100000x1, .f32⟩ : BufTy).Contents (Elt F)),
    TRef.nullary main_call3.cst (constant S_ .f32 0x00000000#32),
    TRef.unary main_call3.cst main_call3.v0 (broadcastInDim S100000x1 ![] bcast_S_S100000x1),
    TRef.binary (.of main_v122) main_call3.v0 main_call3.v1 (cmpf .ogt),
    TRef.nullary main_call3.cst_0 (constant S_ .f32 0x00000000#32),
    TRef.unary main_call3.cst_0 main_call3.v2 (broadcastInDim S100000x1 ![] bcast_S_S100000x1),
    TRef.binary (.of main_v122) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S100000x1 ![] bcast_S_S100000x1),
    TRef.ternary main_call3.v3 main_call3.call0.v1 (.of main_v122) main_call3.call0.v2 select,
    TRef.unary main_call3.call0.v2 main_call3.v5 Host.expm1,
    TRef.nullary main_call3.cst_2 (constant S_ .f32 0x3F800000#32),
    TRef.unary main_call3.cst_2 main_call3.v6 (broadcastInDim S100000x1 ![] bcast_S_S100000x1),
    TRef.binary main_call3.v6 main_call3.v5 main_call3.v7 mulf,
    TRef.ternary main_call3.v1 (.of main_v122) main_call3.v7 main_call3.call1.v0 select,
    unary main_v123 main_v124 (broadcastInDim S1x100000x1 ![1, 2] bcast_S100000x1_S1x100000x1_1_2 : (⟨S100000x1, .f32⟩ : BufTy).Contents (Elt F) → (⟨S1x100000x1, .f32⟩ : BufTy).Contents (Elt F)),
    unary main_v105 main_v125 (broadcastInDim S1x100000x1 ![1, 2] bcast_S100000x1_S1x100000x1_1_2 : (⟨S100000x1, .f32⟩ : BufTy).Contents (Elt F) → (⟨S1x100000x1, .f32⟩ : BufTy).Contents (Elt F)),
    binary main_v124 main_v125 main_v126 ((fun a b => concatenate S2x100000x1 0 [⟨S1x100000x1, a⟩, ⟨S1x100000x1, b⟩] concatenates_S1x100000x1_S1x100000x1_S2x100000x1_d0) : (⟨S1x100000x1, .f32⟩ : BufTy).Contents (Elt F) → (⟨S1x100000x1, .f32⟩ : BufTy).Contents (Elt F) → (⟨S2x100000x1, .f32⟩ : BufTy).Contents (Elt F)),
    nullary main_cst_13 (constant S_ .f32 0xFF800000#32),
    binary main_v126 main_cst_13 main_v127 ((fun x v => Host.reduce FloatOps.maximumf x v reducesTo_S2x100000x1_S100000x1_d0 h_S_) : (⟨S2x100000x1, .f32⟩ : BufTy).Contents (Elt F) → (⟨S_, .f32⟩ : BufTy).Contents (Elt F) → (⟨S100000x1, .f32⟩ : BufTy).Contents (Elt F)),
    nullary main_cst_14 (constant S_ .f32 0xFF800000#32),
    unary main_cst_14 main_v128 (broadcastInDim S100000x1 ![] bcast_S_S100000x1 : (⟨S_, .f32⟩ : BufTy).Contents (Elt F) → (⟨S100000x1, .f32⟩ : BufTy).Contents (Elt F)),
    binary main_v128 main_v127 main_v129 (maximumf : (⟨S100000x1, .f32⟩ : BufTy).Contents (Elt F) → (⟨S100000x1, .f32⟩ : BufTy).Contents (Elt F) → (⟨S100000x1, .f32⟩ : BufTy).Contents (Elt F)),
    unary main_v129 main_v130 (broadcastInDim S1x100000x1 ![1, 2] bcast_S100000x1_S1x100000x1_1_2 : (⟨S100000x1, .f32⟩ : BufTy).Contents (Elt F) → (⟨S1x100000x1, .f32⟩ : BufTy).Contents (Elt F)),
    unary main_v130 main_v131 (broadcastInDim S2x100000x1 ![0, 1, 2] bcast_S1x100000x1_S2x100000x1_0_1_2 : (⟨S1x100000x1, .f32⟩ : BufTy).Contents (Elt F) → (⟨S2x100000x1, .f32⟩ : BufTy).Contents (Elt F)),
    binary main_v126 main_v131 main_v132 (subf : (⟨S2x100000x1, .f32⟩ : BufTy).Contents (Elt F) → (⟨S2x100000x1, .f32⟩ : BufTy).Contents (Elt F) → (⟨S2x100000x1, .f32⟩ : BufTy).Contents (Elt F)),
    unary main_v132 main_v133 (Host.exp : (⟨S2x100000x1, .f32⟩ : BufTy).Contents (Elt F) → (⟨S2x100000x1, .f32⟩ : BufTy).Contents (Elt F)),
    nullary main_cst_15 (constant S_ .f32 0x00000000#32),
    binary main_v133 main_cst_15 main_v134 ((fun x v => Host.reduceAdd x v reducesTo_S2x100000x1_S100000x1_d0 h_S_) : (⟨S2x100000x1, .f32⟩ : BufTy).Contents (Elt F) → (⟨S_, .f32⟩ : BufTy).Contents (Elt F) → (⟨S100000x1, .f32⟩ : BufTy).Contents (Elt F)),
    unary main_v134 main_v135 (broadcastInDim S1x100000x1 ![1, 2] bcast_S100000x1_S1x100000x1_1_2 : (⟨S100000x1, .f32⟩ : BufTy).Contents (Elt F) → (⟨S1x100000x1, .f32⟩ : BufTy).Contents (Elt F)),
    unary main_v135 main_v136 (broadcastInDim S2x100000x1 ![0, 1, 2] bcast_S1x100000x1_S2x100000x1_0_1_2 : (⟨S1x100000x1, .f32⟩ : BufTy).Contents (Elt F) → (⟨S2x100000x1, .f32⟩ : BufTy).Contents (Elt F)),
    binary main_v133 main_v136 main_v137 (Host.divf : (⟨S2x100000x1, .f32⟩ : BufTy).Contents (Elt F) → (⟨S2x100000x1, .f32⟩ : BufTy).Contents (Elt F) → (⟨S2x100000x1, .f32⟩ : BufTy).Contents (Elt F)),
    unary main_v121 main_v138 ((extractStridedSlice S1x100000x1 ![0, 0, 0] · slices_S2x100000x1_S1x100000x1_0_0_0) : (⟨S2x100000x1, .f32⟩ : BufTy).Contents (Elt F) → (⟨S1x100000x1, .f32⟩ : BufTy).Contents (Elt F)),
    reshape main_v138 main_v139 rfl shapeCasts_S1x100000x1_S100000x1,
    unary main_v139 main_v140 (broadcastInDim S100000x256 ![0, 1] bcast_S100000x1_S100000x256_0_1 : (⟨S100000x1, .f32⟩ : BufTy).Contents (Elt F) → (⟨S100000x256, .f32⟩ : BufTy).Contents (Elt F)),
    binary main_v140 main_v3 main_v141 (mulf : (⟨S100000x256, .f32⟩ : BufTy).Contents (Elt F) → (⟨S100000x256, .f32⟩ : BufTy).Contents (Elt F) → (⟨S100000x256, .f32⟩ : BufTy).Contents (Elt F)),
    unary main_v121 main_v142 ((extractStridedSlice S1x100000x1 ![1, 0, 0] · slices_S2x100000x1_S1x100000x1_1_0_0) : (⟨S2x100000x1, .f32⟩ : BufTy).Contents (Elt F) → (⟨S1x100000x1, .f32⟩ : BufTy).Contents (Elt F)),
    reshape main_v142 main_v143 rfl shapeCasts_S1x100000x1_S100000x1,
    unary main_v143 main_v144 (broadcastInDim S100000x256 ![0, 1] bcast_S100000x1_S100000x256_0_1 : (⟨S100000x1, .f32⟩ : BufTy).Contents (Elt F) → (⟨S100000x256, .f32⟩ : BufTy).Contents (Elt F)),
    binary main_v144 main_v62 main_v145 (mulf : (⟨S100000x256, .f32⟩ : BufTy).Contents (Elt F) → (⟨S100000x256, .f32⟩ : BufTy).Contents (Elt F) → (⟨S100000x256, .f32⟩ : BufTy).Contents (Elt F)),
    binary main_v141 main_v145 main_v146 (addf : (⟨S100000x256, .f32⟩ : BufTy).Contents (Elt F) → (⟨S100000x256, .f32⟩ : BufTy).Contents (Elt F) → (⟨S100000x256, .f32⟩ : BufTy).Contents (Elt F)),
    unary main_v137 main_v147 ((extractStridedSlice S1x100000x1 ![0, 0, 0] · slices_S2x100000x1_S1x100000x1_0_0_0) : (⟨S2x100000x1, .f32⟩ : BufTy).Contents (Elt F) → (⟨S1x100000x1, .f32⟩ : BufTy).Contents (Elt F)),
    reshape main_v147 main_v148 rfl shapeCasts_S1x100000x1_S100000x1,
    unary main_v148 main_v149 (broadcastInDim S100000x256 ![0, 1] bcast_S100000x1_S100000x256_0_1 : (⟨S100000x1, .f32⟩ : BufTy).Contents (Elt F) → (⟨S100000x256, .f32⟩ : BufTy).Contents (Elt F)),
    binary main_v149 main_v7 main_v150 (mulf : (⟨S100000x256, .f32⟩ : BufTy).Contents (Elt F) → (⟨S100000x256, .f32⟩ : BufTy).Contents (Elt F) → (⟨S100000x256, .f32⟩ : BufTy).Contents (Elt F)),
    unary main_v137 main_v151 ((extractStridedSlice S1x100000x1 ![1, 0, 0] · slices_S2x100000x1_S1x100000x1_1_0_0) : (⟨S2x100000x1, .f32⟩ : BufTy).Contents (Elt F) → (⟨S1x100000x1, .f32⟩ : BufTy).Contents (Elt F)),
    reshape main_v151 main_v152 rfl shapeCasts_S1x100000x1_S100000x1,
    unary main_v152 main_v153 (broadcastInDim S100000x256 ![0, 1] bcast_S100000x1_S100000x256_0_1 : (⟨S100000x1, .f32⟩ : BufTy).Contents (Elt F) → (⟨S100000x256, .f32⟩ : BufTy).Contents (Elt F)),
    binary main_v153 main_v85 main_v154 (mulf : (⟨S100000x256, .f32⟩ : BufTy).Contents (Elt F) → (⟨S100000x256, .f32⟩ : BufTy).Contents (Elt F) → (⟨S100000x256, .f32⟩ : BufTy).Contents (Elt F)),
    binary main_v150 main_v154 main_v155 (addf : (⟨S100000x256, .f32⟩ : BufTy).Contents (Elt F) → (⟨S100000x256, .f32⟩ : BufTy).Contents (Elt F) → (⟨S100000x256, .f32⟩ : BufTy).Contents (Elt F)),
    binary main_v146 main_arg30 main_v156 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    unary main_arg31 main_v157 (broadcastInDim S1x16 ![1] bcast_S16_S1x16_1 : (⟨S16, .f32⟩ : BufTy).Contents (Elt F) → (⟨S1x16, .f32⟩ : BufTy).Contents (Elt F)),
    unary main_v157 main_v158 (broadcastInDim S100000x16 ![0, 1] bcast_S1x16_S100000x16_0_1 : (⟨S1x16, .f32⟩ : BufTy).Contents (Elt F) → (⟨S100000x16, .f32⟩ : BufTy).Contents (Elt F)),
    binary main_v156 main_v158 main_v159 (addf : (⟨S100000x16, .f32⟩ : BufTy).Contents (Elt F) → (⟨S100000x16, .f32⟩ : BufTy).Contents (Elt F) → (⟨S100000x16, .f32⟩ : BufTy).Contents (Elt F)) ]

-- over two hundred binds re-associated: the rewrite under the chain recurses once per statement
set_option maxRecDepth 16384 in
set_option maxHeartbeats 4000000 in
/-- @main is that straight line: its three consecutive stretches, the functions' definitions unfolded at their
    calls and the records at their fields, are one chain of single steps once sequencing is reassociated
    (the monad's associativity and left unit), and so is the list run in order. -/
theorem main_eq (c : Dev nD) : main (F := F) c = seq ops := by
  simp only [main, main_part0, main_part1, main_part2, fn_elu.body, fn_where.body, fn_where_0.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches TensorCore buffers only: per entry, the fact for an operation of its arity. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    binary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    binary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    binary_bufs_sub .., unary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    binary_bufs_sub .., unary_bufs_sub .., unary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., unary_bufs_sub .., unary_bufs_sub .., binary_bufs_sub ..,
    binary_bufs_sub .., unary_bufs_sub .., unary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., unary_bufs_sub .., reshape_bufs_sub .., unary_bufs_sub .., binary_bufs_sub ..,
    unary_bufs_sub .., reshape_bufs_sub .., unary_bufs_sub .., binary_bufs_sub .., binary_bufs_sub .., unary_bufs_sub ..,
    reshape_bufs_sub .., unary_bufs_sub .., binary_bufs_sub .., unary_bufs_sub .., reshape_bufs_sub .., unary_bufs_sub ..,
    binary_bufs_sub .., binary_bufs_sub .., binary_bufs_sub .., unary_bufs_sub .., unary_bufs_sub .., binary_bufs_sub ..⟩

/-- At the compiled mesh, for any float values, from any memory with zero counters: every weakly fair execution
    of @main on the TensorCores terminates, and every final state has each TensorCore buffer at the operations'
    fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments end as launched

Every operation of the line writes one buffer, and that buffer is one of the line's own values: its index in the
device memory's table is past the arguments'. So the fold at an argument's buffer is the contents it started from. -/

/-- A device buffer that is a TensorCore reference whose index is past the arguments'. -/
def PastArgs (b : DevRef τ sig) : Prop := ∃ r : Ref sig .tc, b = Proc.devRef .tc r ∧ 32 ≤ r.idx.val

set_option maxRecDepth 16384 in
set_option maxHeartbeats 4000000 in
/-- Each operation's one written buffer is past the arguments': per entry, the builder's written set is the
    singleton of its result reference, whose index is a literal. -/
theorem ops_writes : (ops : List (HloOp τ sig (Elt F))).Forall fun op => ∀ b ∈ op.writes, PastArgs b := by
  simp only [ops, List.Forall, nullary_writes, unary_writes, binary_writes, ternary_writes, reshape_writes,
    Finset.mem_singleton, forall_eq]
  repeat' apply And.intro
  all_goals exact ⟨_, rfl, by decide⟩

/-- A reference whose index is among the arguments' keeps its contents through the line: an operation that wrote it
    would have written a buffer past the arguments', and distinct references are distinct buffers. -/
theorem kept_of_lt (V : Valuation τ sig (Elt F)) {r : Ref sig .tc} (hr : r.idx.val < 32) :
    after ops V (Proc.devRef .tc r) = V (Proc.devRef .tc r) :=
  after_of_forall_not_mem ops V fun op hop hb => by
    obtain ⟨y, he, hy⟩ := (List.forall_iff_forall_mem.mp ops_writes) op hop _ hb
    have hry : r = y := Proc.devRef_injective _ he
    subst hry
    omega

theorem kept_main_arg0 (V : Valuation τ sig (Elt F)) : after ops V (Proc.devRef .tc main_arg0) = V (Proc.devRef .tc main_arg0) :=
  kept_of_lt V (by decide)
theorem kept_main_arg1 (V : Valuation τ sig (Elt F)) : after ops V (Proc.devRef .tc main_arg1) = V (Proc.devRef .tc main_arg1) :=
  kept_of_lt V (by decide)
theorem kept_main_arg2 (V : Valuation τ sig (Elt F)) : after ops V (Proc.devRef .tc main_arg2) = V (Proc.devRef .tc main_arg2) :=
  kept_of_lt V (by decide)
theorem kept_main_arg3 (V : Valuation τ sig (Elt F)) : after ops V (Proc.devRef .tc main_arg3) = V (Proc.devRef .tc main_arg3) :=
  kept_of_lt V (by decide)
theorem kept_main_arg4 (V : Valuation τ sig (Elt F)) : after ops V (Proc.devRef .tc main_arg4) = V (Proc.devRef .tc main_arg4) :=
  kept_of_lt V (by decide)
theorem kept_main_arg5 (V : Valuation τ sig (Elt F)) : after ops V (Proc.devRef .tc main_arg5) = V (Proc.devRef .tc main_arg5) :=
  kept_of_lt V (by decide)
theorem kept_main_arg6 (V : Valuation τ sig (Elt F)) : after ops V (Proc.devRef .tc main_arg6) = V (Proc.devRef .tc main_arg6) :=
  kept_of_lt V (by decide)
theorem kept_main_arg7 (V : Valuation τ sig (Elt F)) : after ops V (Proc.devRef .tc main_arg7) = V (Proc.devRef .tc main_arg7) :=
  kept_of_lt V (by decide)
theorem kept_main_arg8 (V : Valuation τ sig (Elt F)) : after ops V (Proc.devRef .tc main_arg8) = V (Proc.devRef .tc main_arg8) :=
  kept_of_lt V (by decide)
theorem kept_main_arg9 (V : Valuation τ sig (Elt F)) : after ops V (Proc.devRef .tc main_arg9) = V (Proc.devRef .tc main_arg9) :=
  kept_of_lt V (by decide)
theorem kept_main_arg10 (V : Valuation τ sig (Elt F)) : after ops V (Proc.devRef .tc main_arg10) = V (Proc.devRef .tc main_arg10) :=
  kept_of_lt V (by decide)
theorem kept_main_arg11 (V : Valuation τ sig (Elt F)) : after ops V (Proc.devRef .tc main_arg11) = V (Proc.devRef .tc main_arg11) :=
  kept_of_lt V (by decide)
theorem kept_main_arg12 (V : Valuation τ sig (Elt F)) : after ops V (Proc.devRef .tc main_arg12) = V (Proc.devRef .tc main_arg12) :=
  kept_of_lt V (by decide)
theorem kept_main_arg13 (V : Valuation τ sig (Elt F)) : after ops V (Proc.devRef .tc main_arg13) = V (Proc.devRef .tc main_arg13) :=
  kept_of_lt V (by decide)
theorem kept_main_arg14 (V : Valuation τ sig (Elt F)) : after ops V (Proc.devRef .tc main_arg14) = V (Proc.devRef .tc main_arg14) :=
  kept_of_lt V (by decide)
theorem kept_main_arg15 (V : Valuation τ sig (Elt F)) : after ops V (Proc.devRef .tc main_arg15) = V (Proc.devRef .tc main_arg15) :=
  kept_of_lt V (by decide)
theorem kept_main_arg16 (V : Valuation τ sig (Elt F)) : after ops V (Proc.devRef .tc main_arg16) = V (Proc.devRef .tc main_arg16) :=
  kept_of_lt V (by decide)
theorem kept_main_arg17 (V : Valuation τ sig (Elt F)) : after ops V (Proc.devRef .tc main_arg17) = V (Proc.devRef .tc main_arg17) :=
  kept_of_lt V (by decide)
theorem kept_main_arg18 (V : Valuation τ sig (Elt F)) : after ops V (Proc.devRef .tc main_arg18) = V (Proc.devRef .tc main_arg18) :=
  kept_of_lt V (by decide)
theorem kept_main_arg19 (V : Valuation τ sig (Elt F)) : after ops V (Proc.devRef .tc main_arg19) = V (Proc.devRef .tc main_arg19) :=
  kept_of_lt V (by decide)
theorem kept_main_arg20 (V : Valuation τ sig (Elt F)) : after ops V (Proc.devRef .tc main_arg20) = V (Proc.devRef .tc main_arg20) :=
  kept_of_lt V (by decide)
theorem kept_main_arg21 (V : Valuation τ sig (Elt F)) : after ops V (Proc.devRef .tc main_arg21) = V (Proc.devRef .tc main_arg21) :=
  kept_of_lt V (by decide)
theorem kept_main_arg22 (V : Valuation τ sig (Elt F)) : after ops V (Proc.devRef .tc main_arg22) = V (Proc.devRef .tc main_arg22) :=
  kept_of_lt V (by decide)
theorem kept_main_arg23 (V : Valuation τ sig (Elt F)) : after ops V (Proc.devRef .tc main_arg23) = V (Proc.devRef .tc main_arg23) :=
  kept_of_lt V (by decide)
theorem kept_main_arg24 (V : Valuation τ sig (Elt F)) : after ops V (Proc.devRef .tc main_arg24) = V (Proc.devRef .tc main_arg24) :=
  kept_of_lt V (by decide)
theorem kept_main_arg25 (V : Valuation τ sig (Elt F)) : after ops V (Proc.devRef .tc main_arg25) = V (Proc.devRef .tc main_arg25) :=
  kept_of_lt V (by decide)
theorem kept_main_arg26 (V : Valuation τ sig (Elt F)) : after ops V (Proc.devRef .tc main_arg26) = V (Proc.devRef .tc main_arg26) :=
  kept_of_lt V (by decide)
theorem kept_main_arg27 (V : Valuation τ sig (Elt F)) : after ops V (Proc.devRef .tc main_arg27) = V (Proc.devRef .tc main_arg27) :=
  kept_of_lt V (by decide)
theorem kept_main_arg28 (V : Valuation τ sig (Elt F)) : after ops V (Proc.devRef .tc main_arg28) = V (Proc.devRef .tc main_arg28) :=
  kept_of_lt V (by decide)
theorem kept_main_arg29 (V : Valuation τ sig (Elt F)) : after ops V (Proc.devRef .tc main_arg29) = V (Proc.devRef .tc main_arg29) :=
  kept_of_lt V (by decide)
theorem kept_main_arg30 (V : Valuation τ sig (Elt F)) : after ops V (Proc.devRef .tc main_arg30) = V (Proc.devRef .tc main_arg30) :=
  kept_of_lt V (by decide)
theorem kept_main_arg31 (V : Valuation τ sig (Elt F)) : after ops V (Proc.devRef .tc main_arg31) = V (Proc.devRef .tc main_arg31) :=
  kept_of_lt V (by decide)

end Cert.ReferenceIdeal.RefRun

end
-- ==== Proof.RefTerms.lean ====
import proofs.«407857_j5583457485247_1_alg».proof.ReferenceIdeal
import proofs.«407857_j5583457485247_1_alg».proof.Proof.Gen.ReferenceIdeal
import proofs.«407857_j5583457485247_1_alg».proof.Proof.Spec

/-!
# The reference program's stages, as functions of whole arrays

The reference program computes its result from its argument arrays by a fixed composition of whole-array operations.
Here that composition is cut into stages, each a function of the arrays it reads, at the exact extended-real values:

* an affine map `x·w + b` (a contraction, the bias broadcast to a row and then to every row, the sum), at the three
  widths `256`, `1` and `16` of the right operand, and the bare contraction;
* the neighbourhood sum (an index below zero wrapped once, the rows gathered along the edges, the rows added at each
  edge's target into zeros) and the in-degree (ones added at each edge's target into zeros);
* the mean message plus a bias (the degree clamped below by one, broadcast to a column and then to every column, the
  quotient, the bias);
* the exponential-linear unit on a column;
* the two-way softmax of two columns of logits along a new leading axis (concatenate, maximum, subtract, exponential,
  sum, quotient), its two weights sliced out, each broadcast along the features, and the weighted sum of two arrays;
* the whole composition of the argument arrays.

Every definition is the composition of the operations as the program states them, with the same dimension numbers and
the same shape facts; nothing is simplified here.
-/

noncomputable section

namespace Cert.ReferenceIdeal.RefTerms

open Idealize.ShloMosaic Cert.ReferenceIdeal Cert.ReferenceIdeal.Gen
open Cert.Spec (Arr SNxD SNx1 SNxC SN SDxD SDx1 SDxC SD SC S1 SE)

/-! ## The affine maps -/

/-- `x·w + b` for a `256 × 256` matrix `w`: the contraction, plus the bias as a row broadcast to every row. -/
def tLinD (x : Arr SNxD) (w : Arr SDxD) (b : Arr SD) : Arr SNxD :=
  addf (F := Ideal) (φ := .f32)
    (Host.dotGeneral (F := Ideal) (φ₁ := .f32) (φ₂ := .f32) dot_S100000x256_S256x256_S100000x256_1_0_0_1_n_n none x w)
    (broadcastInDim S100000x256 ![0, 1] bcast_S1x256_S100000x256_0_1 (broadcastInDim S1x256 ![1] bcast_S256_S1x256_1 b))

/-- `x·w + b` for a `256 × 1` matrix `w`. -/
def tLin1 (x : Arr SNxD) (w : Arr SDx1) (b : Arr S1) : Arr SNx1 :=
  addf (F := Ideal) (φ := .f32)
    (Host.dotGeneral (F := Ideal) (φ₁ := .f32) (φ₂ := .f32) dot_S100000x256_S256x1_S100000x1_1_0_0_1_n_n none x w)
    (broadcastInDim S100000x1 ![0, 1] bcast_S1x1_S100000x1_0_1 (broadcastInDim S1x1 ![1] bcast_S1_S1x1_1 b))

/-- `x·w + b` for a `256 × 16` matrix `w`. -/
def tLinC (x : Arr SNxD) (w : Arr SDxC) (b : Arr SC) : Arr SNxC :=
  addf (F := Ideal) (φ := .f32)
    (Host.dotGeneral (F := Ideal) (φ₁ := .f32) (φ₂ := .f32) dot_S100000x256_S256x16_S100000x16_1_0_0_1_n_n none x w)
    (broadcastInDim S100000x16 ![0, 1] bcast_S1x16_S100000x16_0_1 (broadcastInDim S1x16 ![1] bcast_S16_S1x16_1 b))

/-- `x·w` for a `256 × 256` matrix `w`. -/
def tMulD (x : Arr SNxD) (w : Arr SDxD) : Arr SNxD :=
  Host.dotGeneral (F := Ideal) (φ₁ := .f32) (φ₂ := .f32) dot_S100000x256_S256x256_S100000x256_1_0_0_1_n_n none x w

/-! ## Along the edges -/

/-- The messages summed at each edge's target: a source index below zero has `100000` added to it, the rows `msg (src e)`
    are gathered for every edge, and row `e` is added into row `dst e` of an array of zeros. -/
def tAgg (msg : Arr SNxD) (src dst : IVec SE 32) : Arr SNxD :=
  Host.scatterAdd (F := Ideal) (φ := .f32) scatter_S100000x256_S800000x1_S800000x256_1_0_0_1
    (broadcastInDim S100000x256 ![] bcast_S_S100000x256 (constant (F := Ideal) S_ .f32 0x00000000#32))
    (broadcastInDim S800000x1 ![0] bcast_S800000_S800000x1_0 dst)
    (Host.gather gather_S100000x256_S800000x1_S800000x256_1_0_n_n_0_1_1256 msg
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 100000#32))) src)))

/-- The in-degree of every target: a one for every edge, added into entry `dst e` of a vector of zeros. -/
def tDeg (dst : IVec SE 32) : Arr SN :=
  Host.scatterAdd (F := Ideal) (φ := .f32) scatter_S100000_S800000x1_S800000_n_0_0_1
    (broadcastInDim S100000 ![] bcast_S_S100000 (constant (F := Ideal) S_ .f32 0x00000000#32))
    (broadcastInDim S800000x1 ![0] bcast_S800000_S800000x1_0 dst)
    (broadcastInDim S800000 ![] bcast_S_S800000 (constant (F := Ideal) S_ .f32 0x3F800000#32))

/-! ## The mean message -/

/-- `a / max g 1 + b`: the degree clamped below by one, made a column and broadcast along the features, the quotient, and
    the bias as a row broadcast to every row. -/
def tConv (a : Arr SNxD) (g : Arr SN) (b : Arr SD) : Arr SNxD :=
  addf (F := Ideal) (φ := .f32)
    (Host.divf (F := Ideal) (φ := .f32) a
      (broadcastInDim S100000x256 ![0, 1] bcast_S100000x1_S100000x256_0_1
        (broadcastInDim S100000x1 ![0] bcast_S100000_S100000x1_0
          (maximumf (F := Ideal) (φ := .f32) g
            (broadcastInDim S100000 ![] bcast_S_S100000 (constant (F := Ideal) S_ .f32 0x3F800000#32))))))
    (broadcastInDim S100000x256 ![0, 1] bcast_S1x256_S100000x256_0_1 (broadcastInDim S1x256 ![1] bcast_S256_S1x256_1 b))

/-! ## The exponential-linear unit -/

/-- The exponential-linear unit of a column `z`: where `z > 0` it is `z`; elsewhere it is `1 · expm1 z'`, where `z'` is `z`
    with its positive entries replaced by zero before the exponential is taken. -/
def tElu (z : Arr SNx1) : Arr SNx1 :=
  select
    (cmpf (F := Ideal) (φ := .f32) .ogt z
      (broadcastInDim S100000x1 ![] bcast_S_S100000x1 (constant (F := Ideal) S_ .f32 0x00000000#32)))
    z
    (mulf (F := Ideal) (φ := .f32)
      (broadcastInDim S100000x1 ![] bcast_S_S100000x1 (constant (F := Ideal) S_ .f32 0x3F800000#32))
      (Host.expm1 (F := Ideal) (φ := .f32)
        (select
          (cmpf (F := Ideal) (φ := .f32) .ogt z
            (broadcastInDim S100000x1 ![] bcast_S_S100000x1 (constant (F := Ideal) S_ .f32 0x00000000#32)))
          (broadcastInDim S100000x1 ![] bcast_S_S100000x1 (id (constant (F := Ideal) S_ .f32 0x00000000#32)))
          z)))

/-! ## The two-way softmax and the weighted sum -/

/-- Two columns of logits stacked along a new leading axis: `s` is row `0`, `r` is row `1`. -/
def tCat (s r : Arr SNx1) : Arr S2x100000x1 :=
  concatenate S2x100000x1 0
    [⟨S1x100000x1, broadcastInDim S1x100000x1 ![1, 2] bcast_S100000x1_S1x100000x1_1_2 s⟩,
     ⟨S1x100000x1, broadcastInDim S1x100000x1 ![1, 2] bcast_S100000x1_S1x100000x1_1_2 r⟩]
    concatenates_S1x100000x1_S1x100000x1_S2x100000x1_d0

/-- The maximum along the leading axis, from `-∞`, and once more against `-∞`. -/
def tMax (c : Arr S2x100000x1) : Arr SNx1 :=
  maximumf (F := Ideal) (φ := .f32)
    (broadcastInDim S100000x1 ![] bcast_S_S100000x1 (constant (F := Ideal) S_ .f32 0xFF800000#32))
    (Host.reduce (FloatOps.maximumf (F := Ideal) (φ := .f32)) c (constant (F := Ideal) S_ .f32 0xFF800000#32)
      reducesTo_S2x100000x1_S100000x1_d0 h_S_)

/-- The exponential of the stacked logits less their maximum. -/
def tExp (c : Arr S2x100000x1) : Arr S2x100000x1 :=
  Host.exp (F := Ideal) (φ := .f32)
    (subf (F := Ideal) (φ := .f32) c
      (broadcastInDim S2x100000x1 ![0, 1, 2] bcast_S1x100000x1_S2x100000x1_0_1_2
        (broadcastInDim S1x100000x1 ![1, 2] bcast_S100000x1_S1x100000x1_1_2 (tMax c))))

/-- The softmax along the leading axis: the exponentials over their sum from zero. -/
def tSoft (c : Arr S2x100000x1) : Arr S2x100000x1 :=
  Host.divf (F := Ideal) (φ := .f32) (tExp c)
    (broadcastInDim S2x100000x1 ![0, 1, 2] bcast_S1x100000x1_S2x100000x1_0_1_2
      (broadcastInDim S1x100000x1 ![1, 2] bcast_S100000x1_S1x100000x1_1_2
        (Host.reduceAdd (F := Ideal) (φ := .f32) (tExp c) (constant (F := Ideal) S_ .f32 0x00000000#32)
          reducesTo_S2x100000x1_S100000x1_d0 h_S_)))

/-- The attended features: with `s` the node's own logit and `r` the relation's, the softmax of the pair along a new
    leading axis, its row `0` sliced out, recast to a column and broadcast along the features to weight `d`, its row `1`
    likewise to weight `cv`, and the sum of the two products. -/
def tRst (s r : Arr SNx1) (d cv : Arr SNxD) : Arr SNxD :=
  addf (F := Ideal) (φ := .f32)
    (mulf (F := Ideal) (φ := .f32)
      (broadcastInDim S100000x256 ![0, 1] bcast_S100000x1_S100000x256_0_1
        (shapeCast S100000x1
          (extractStridedSlice S1x100000x1 ![0, 0, 0] (tSoft (tCat s r)) slices_S2x100000x1_S1x100000x1_0_0_0)
          shapeCasts_S1x100000x1_S100000x1))
      d)
    (mulf (F := Ideal) (φ := .f32)
      (broadcastInDim S100000x256 ![0, 1] bcast_S100000x1_S100000x256_0_1
        (shapeCast S100000x1
          (extractStridedSlice S1x100000x1 ![1, 0, 0] (tSoft (tCat s r)) slices_S2x100000x1_S1x100000x1_1_0_0)
          shapeCasts_S1x100000x1_S100000x1))
      cv)

/-! ## The whole composition -/

/-- The result array of the argument arrays: the node's own transform `d`, its two attention scalars, the mean message
    `cv` and its attention scalar, the two logits through the exponential-linear unit, the attended features and the last
    affine map. -/
def tTotal (xp xa : Arr SNxD) (src dst : IVec SE 32) (ws : Arr SDxD) (bs : Arr SD) (wq : Arr SDxD) (bq : Arr SD)
    (wk : Arr SDxD) (bk : Arr SD) (wal : Arr SDx1) (bal : Arr S1) (war : Arr SDx1) (bar : Arr S1)
    (wc : Arr SDxD) (cb : Arr SD) (cw : Arr SDxC) (cbs : Arr SC) : Arr SNxC :=
  tLinC
    (tRst
      (tElu (addf (F := Ideal) (φ := .f32)
        (tLin1 (tLinD (tLinD xp ws bs) wk bk) wal bal)
        (tLin1 (tLinD (tLinD xp ws bs) wq bq) war bar)))
      (tElu (addf (F := Ideal) (φ := .f32)
        (tLin1 (tLinD (tConv (tAgg (tMulD xa wc) src dst) (tDeg dst) cb) wk bk) wal bal)
        (tLin1 (tLinD (tLinD xp ws bs) wq bq) war bar)))
      (tLinD xp ws bs)
      (tConv (tAgg (tMulD xa wc) src dst) (tDeg dst) cb))
    cw cbs

end Cert.ReferenceIdeal.RefTerms

end
-- ==== Proof.RefValue.lean ====
import proofs.«407857_j5583457485247_1_alg».proof.Proof.RefRun
import proofs.«407857_j5583457485247_1_alg».proof.Proof.RefTerms
import Idealize.ShloMosaic.PureOps.Ideal

/-!
# The reference program's result, as its stages composed

The reference program is a straight line of whole-array operations, each writing a buffer of its own. The contents of
the result buffer after the line, from any contents of the device's buffers, is therefore a closed term of the contents
of the argument buffers: the operations' functions nested as the line's data flow nests them. That term is the
composition of the named stages, applied to the argument arrays in the stages' order.
-/

noncomputable section

namespace Cert.ReferenceIdeal.RefValue

open Idealize.ShloMosaic Idealize.ShloMosaic.TcCoe Idealize.ShloMosaic.StableHlo Idealize.SL.Sem Cert.ReferenceIdeal Cert.ReferenceIdeal.Gen

/-! ## The typed references' transports

An operation inside a called function reads and writes its buffers through references that carry the value's type; a
value stored through such a reference and read back through it is the value, and a reference typed by its own
buffer's type transports nothing. -/

/-- Reading a typed reference's buffer back at the value's type undoes storing the value there. -/
theorem ofBuf_toBuf {Val : EltTy → Type} {T : BufTy} (x : TRef sig T) (v : T.Contents Val) : x.ofBuf (x.toBuf v) = v := by
  simp only [TRef.ofBuf, TRef.toBuf, cast_cast, cast_eq]

/-- A reference typed by its own buffer's type reads the buffer's contents as they are. -/
theorem ofBuf_self {Val : EltTy → Type} (r : Ref sig .tc) (h1 : r.ty = r.ty) (h2 : r.space ≠ .host) (h3 : r.isScoped = false)
    (v : r.ty.Contents Val) : (TRef.of (T := r.ty) r h1 h2 h3).ofBuf v = v := rfl

/-- The buffer a call's result becomes holds the value at the value's type. -/
theorem toBuf_v95 (v : (⟨S100000x1, .f32⟩ : BufTy).Contents (Elt Ideal)) :
    (TRef.of (T := ⟨S100000x1, .f32⟩) main_v95).toBuf v = v := rfl
@[inherit_doc toBuf_v95]
theorem toBuf_v107 (v : (⟨S100000x1, .f32⟩ : BufTy).Contents (Elt Ideal)) :
    (TRef.of (T := ⟨S100000x1, .f32⟩) main_v107).toBuf v = v := rfl

/-! ## Two columns stacked

The concatenation takes its operands as a list of arrays each paired with its shape; named as a function of the two
arrays, its operands are plain arguments again. -/

/-- Two `1 × N × 1` arrays stacked along the leading axis, taken at the types of the two buffers the program stacks. -/
def cat2 (a : (Proc.devRef (τ := τ) .tc main_v108 : DevRef τ sig).ty.Contents (Elt Ideal))
    (b : (Proc.devRef (τ := τ) .tc main_v109 : DevRef τ sig).ty.Contents (Elt Ideal)) : S2x100000x1.Idx → Elt Ideal .f32 :=
  concatenate (α := Elt Ideal .f32) S2x100000x1 0 [⟨S1x100000x1, a⟩, ⟨S1x100000x1, b⟩] concatenates_S1x100000x1_S1x100000x1_S2x100000x1_d0

theorem cat2_def (a : (Proc.devRef (τ := τ) .tc main_v108 : DevRef τ sig).ty.Contents (Elt Ideal))
    (b : (Proc.devRef (τ := τ) .tc main_v109 : DevRef τ sig).ty.Contents (Elt Ideal)) :
    concatenate (α := Elt Ideal .f32) S2x100000x1 0 [⟨S1x100000x1, a⟩, ⟨S1x100000x1, b⟩] concatenates_S1x100000x1_S1x100000x1_S2x100000x1_d0 = cat2 a b := rfl

/-! ## The two reshapes on the way to the result

A reshape's result is stated index by index at the result buffer's own shape; at these two literal buffers that is
the reshape to the column shape, as a whole array. -/

/-- The first softmax weight as a column: the reshape of its one-row slice. -/
theorem reshape_v139_result (hx hy) (F : Valuation τ sig (Elt Ideal)) :
    (reshape (τ := τ) (Val := Elt Ideal) main_v138 main_v139 rfl shapeCasts_S1x100000x1_S100000x1 hx hy).result F
        (no_index (Proc.devRef .tc main_v139))
      = shapeCast (α := Elt Ideal .f32) S100000x1 (F (Proc.devRef .tc main_v138)) shapeCasts_S1x100000x1_S100000x1 :=
  reshape_result main_v138 main_v139 rfl shapeCasts_S1x100000x1_S100000x1 hx hy F

/-- The second softmax weight as a column. -/
theorem reshape_v143_result (hx hy) (F : Valuation τ sig (Elt Ideal)) :
    (reshape (τ := τ) (Val := Elt Ideal) main_v142 main_v143 rfl shapeCasts_S1x100000x1_S100000x1 hx hy).result F
        (no_index (Proc.devRef .tc main_v143))
      = shapeCast (α := Elt Ideal .f32) S100000x1 (F (Proc.devRef .tc main_v142)) shapeCasts_S1x100000x1_S100000x1 :=
  reshape_result main_v142 main_v143 rfl shapeCasts_S1x100000x1_S100000x1 hx hy F

/-! ## The result -/

-- the fold is some two hundred valuations deep and the read-back term has a few thousand nodes
set_option maxRecDepth 65536 in
set_option maxHeartbeats 40000000 in
/-- The fold at the result buffer is the stages composed. The fold is unrolled and read back: each operation's result
    at its own buffer is its function of the contents of its operands' buffers, and at any other buffer what was there
    before (which reference is which is decided), back to the contents the line started from at the argument buffers;
    the typed references' transports inside the exponential-linear unit's calls cancel on the way. Reading back stops
    once, at the operation that stacks the two logit columns into one two-row array: beside its list of operands the
    stacking takes a proof that their shapes add up to the result's, and that proof's type mentions the list, so no
    operand can be rewritten inside the list on its own. Naming the stacking as a function of the two arrays removes
    the dependence, and reading back goes on inside the two operands. What is left is the line's data flow as one
    nested term, and the stages' definitions unfold to the same nesting. -/
theorem out_eq (V : Valuation τ sig (Elt Ideal)) :
    after (Cert.ReferenceIdeal.RefRun.ops (F := Ideal)) V (Proc.devRef .tc main_v159)
      = Cert.ReferenceIdeal.RefTerms.tTotal (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg10)) (V (Proc.devRef .tc main_arg11)) (V (Proc.devRef .tc main_arg14)) (V (Proc.devRef .tc main_arg15)) (V (Proc.devRef .tc main_arg18)) (V (Proc.devRef .tc main_arg19)) (V (Proc.devRef .tc main_arg22)) (V (Proc.devRef .tc main_arg23)) (V (Proc.devRef .tc main_arg26)) (V (Proc.devRef .tc main_arg27)) (V (Proc.devRef .tc main_arg30)) (V (Proc.devRef .tc main_arg31)) := by
  simp (disch := decide) only [after_cons, after_nil, nullary_result', unary_result', binary_result', ternary_result',
    reshape_v139_result, reshape_v143_result,
    nullary_result_ne', unary_result_ne', binary_result_ne', ternary_result_ne', reshape_result_ne',
    ofBuf_toBuf, ofBuf_self, toBuf_v95, toBuf_v107]
  rw [cat2_def]
  simp (disch := decide) only [after_cons, after_nil, nullary_result', unary_result', binary_result', ternary_result',
    reshape_v139_result, reshape_v143_result,
    nullary_result_ne', unary_result_ne', binary_result_ne', ternary_result_ne', reshape_result_ne',
    ofBuf_toBuf, ofBuf_self, toBuf_v95, toBuf_v107]
  simp only [RefTerms.tTotal, RefTerms.tLinC, RefTerms.tRst, RefTerms.tSoft, RefTerms.tExp, RefTerms.tMax, RefTerms.tCat,
    RefTerms.tElu, RefTerms.tConv, RefTerms.tDeg, RefTerms.tAgg, RefTerms.tMulD, RefTerms.tLin1, RefTerms.tLinD, cat2]

end Cert.ReferenceIdeal.RefValue

end
-- ==== Proof.RefAlgRst.lean ====
import proofs.«407857_j5583457485247_1_alg».proof.Proof.RefTerms
import proofs.«407857_j5583457485247_1_alg».proof.Proof.Spec
import Idealize.ShloMosaic.Lib.Pipeline.Value
import Idealize.ShloMosaic.Lib.ValueIdx
import Idealize.ShloMosaic.PureOps.Ideal.Laws
import Idealize.ShloMosaic.PureOps.Reduce

/-!
# The softmax-and-weighted-sum stage of the reference, index by index

The reference stacks two columns of logits `s` and `r` along a new leading axis of extent two, takes the maximum `m` and
the exponentials `e^(s − m)`, `e^(r − m)` along that axis, divides each exponential by the sum of the two, slices the two
rows of weights out again, and uses them, copied along the 256 features, to weight two arrays `d` and `cv`. Read at a row
`n` and a feature `q` this is `soft0 (s n) (r n) · d (n, q) + soft1 (s n) (r n) · cv (n, q)`, the two-way softmax weights of
the function both programs compute. Each whole-array operation is read at an index by one small lemma: the stack's two
rows; the maximum along the stack from minus infinity (the maximum with minus infinity is the other operand); the sum
along the stack from zero; the copies back along the stack and along the features; the slices and the reshape of a
one-row stack to a column, which keep the row-major position.
-/

noncomputable section

open scoped BigOperators

namespace Cert.ReferenceIdeal.RefAlgRst

open Idealize.ShloMosaic Idealize.ShloMosaic.ValueIdx Cert.ReferenceIdeal Cert.ReferenceIdeal.Gen Cert.ReferenceIdeal.RefTerms
open Cert.Spec (Arr SNxD SNx1 SNxC SN SDxD SDx1 SDxC SD SC S1 SE)

/-! ## The layout operations of this stage, read at an index -/

/-- A column made a one-row stack reads the column: entry (0, n, 0) of the stack is entry (n, 0). -/
theorem stackRow_apply (x : Arr SNx1) (n : Fin 100000) :
    broadcastInDim S1x100000x1 ![1, 2] bcast_S100000x1_S1x100000x1_1_2 x (ix3 (0 : Fin 1) n (0 : Fin 1)) = x (ix2 n (0 : Fin 1)) := by
  refine broadcastInDim_apply _ _ x _ (ix2 n (0 : Fin 1)) fun a => ?_
  match a with
  | ⟨0, _⟩ => rfl
  | ⟨1, _⟩ => rfl

/-- Two columns stacked: row 0 of the stack is the first column … -/
theorem tCat_zero (s r : Arr SNx1) (n : Fin 100000) : tCat s r (ix3 (0 : Fin 2) n (0 : Fin 1)) = s (ix2 n (0 : Fin 1)) := by
  unfold tCat
  refine (concatenate_pair_apply_left (t := S2x100000x1) (s₁ := S1x100000x1) (s₂ := S1x100000x1) 0 _ _ _ (ix3 (0 : Fin 2) n (0 : Fin 1)) rfl (ix3 (0 : Fin 1) n (0 : Fin 1)) fun b => ?_).trans
    (stackRow_apply s n)
  match b with
  | ⟨0, _⟩ => rfl
  | ⟨1, _⟩ => rfl
  | ⟨2, _⟩ => rfl

/-- … and row 1 is the second. -/
theorem tCat_one (s r : Arr SNx1) (n : Fin 100000) : tCat s r (ix3 (1 : Fin 2) n (0 : Fin 1)) = r (ix2 n (0 : Fin 1)) := by
  unfold tCat
  refine (concatenate_pair_apply_right (t := S2x100000x1) (s₁ := S1x100000x1) (s₂ := S1x100000x1) 0 _ _ _ (ix3 (1 : Fin 2) n (0 : Fin 1)) rfl rfl (ix3 (0 : Fin 1) n (0 : Fin 1)) (fun b hb => ?_) rfl).trans
    (stackRow_apply r n)
  match b with
  | ⟨0, _⟩ => exact absurd rfl hb
  | ⟨1, _⟩ => rfl
  | ⟨2, _⟩ => rfl

/-- A column stacked and then copied to both rows of a two-row stack reads the column at every row. -/
theorem spread_apply (x : Arr SNx1) (k : Fin 2) (n : Fin 100000) :
    broadcastInDim S2x100000x1 ![0, 1, 2] bcast_S1x100000x1_S2x100000x1_0_1_2
      (broadcastInDim S1x100000x1 ![1, 2] bcast_S100000x1_S1x100000x1_1_2 x) (ix3 k n (0 : Fin 1)) = x (ix2 n (0 : Fin 1)) := by
  refine (broadcastInDim_apply _ _ _ _ (ix3 (0 : Fin 1) n (0 : Fin 1)) fun a => ?_).trans (stackRow_apply x n)
  match a with
  | ⟨0, _⟩ => rfl
  | ⟨1, _⟩ => rfl
  | ⟨2, _⟩ => rfl

/-- Row k of a two-row stack, sliced out at the offsets (k, 0, 0), recast to a column and copied along the 256 features, reads
    the stack's entry (k, n, 0) at every (n, q). -/
theorem weight_apply (X : Arr S2x100000x1) (off : Fin 3 → Nat) (hs : S2x100000x1.Slices off S1x100000x1) (k : Fin 2)
    (h0 : off 0 = k.val) (h1 : off 1 = 0) (h2 : off 2 = 0) (n : Fin 100000) (q : Fin 256) :
    broadcastInDim S100000x256 ![0, 1] bcast_S100000x1_S100000x256_0_1
      (shapeCast S100000x1 (extractStridedSlice S1x100000x1 off X hs) shapeCasts_S1x100000x1_S100000x1) (ix2 n q)
      = X (ix3 k n (0 : Fin 1)) := by
  refine (broadcastInDim_apply _ _ _ _ (ix2 n (0 : Fin 1)) fun a => ?_).trans ?_
  · match a with
    | ⟨0, _⟩ => rfl
    | ⟨1, _⟩ => rfl
  refine (shapeCast_apply _ _ (ix2 n (0 : Fin 1)) (ix3 (0 : Fin 1) n (0 : Fin 1)) ?_).trans ?_
  · have e3 : (S1x100000x1.rowMajor (ix3 (0 : Fin 1) n (0 : Fin 1))).val = ((0 : Fin 1).val * 100000 + n.val) * 1 + (0 : Fin 1).val :=
      Shape.rowMajor_val_three (d := ![1, 100000, 1]) (ix3 (0 : Fin 1) n (0 : Fin 1))
    have e2 : (S100000x1.rowMajor (ix2 n (0 : Fin 1))).val = n.val * 1 + (0 : Fin 1).val :=
      Shape.rowMajor_val_two (d := ![100000, 1]) (ix2 n (0 : Fin 1))
    rw [e3, e2]; simp
  refine extractStridedSlice_apply off X hs _ (ix3 k n (0 : Fin 1)) fun a => ?_
  match a with
  | ⟨0, _⟩ => show k.val = off 0 + (0 : Fin 1).val; rw [h0]; rfl
  | ⟨1, _⟩ => show n.val = off 1 + n.val; rw [h1, Nat.zero_add]
  | ⟨2, _⟩ => show (0 : Fin 1).val = off 2 + (0 : Fin 1).val; rw [h2, Nat.zero_add]

/-! ## The maximum and the sum along the stack's two rows -/

/-- The index of a two-row stack above a column entry. -/
theorem lift_stack (h : S2x100000x1.Reduces [0] S100000x1) (n : Fin 100000) (k : Fin (S2x100000x1.size 0)) :
    h.lift (ix2 n (0 : Fin 1)) k = ix3 (⟨k.val, k.isLt⟩ : Fin 2) n (0 : Fin 1) := by
  funext c; apply Fin.ext
  fin_cases c <;> rfl

/-- A fold of max over two entries. -/
theorem fold_max_two (b : EReal) (f : Fin 2 → EReal) : (Finset.univ : Finset (Fin 2)).fold max b f = max (f 0) (max (f 1) b) := by
  rw [show (Finset.univ : Finset (Fin 2)) = {0, 1} from rfl, Finset.fold_insert (by decide), Finset.fold_singleton]

/-- The word of minus infinity is the least extended real: the maximum with it is the other operand. -/
theorem max_negInf (y : EReal) : max (Ideal.ofBits .f32 0xFF800000#32) y = y := by simp [Ideal.ofBits, Ideal.ieee]

/-- The maximum along the stack's rows is the maximum of the two entries. -/
theorem tMax_apply (c : Arr S2x100000x1) (n : Fin 100000) :
    tMax c (ix2 n (0 : Fin 1)) = max (c (ix3 (0 : Fin 2) n (0 : Fin 1))) (c (ix3 (1 : Fin 2) n (0 : Fin 1))) := by
  have h : S2x100000x1.Reduces [0] S100000x1 := by decide
  have e1 := Host.reduce_eq_fold_single (FloatOps.maximumf (F := Ideal) (φ := .f32)) c (constant (F := Ideal) S_ .f32 0xFF800000#32)
    reducesTo_S2x100000x1_S100000x1_d0 h h_S_ (ix2 n (0 : Fin 1))
  have hf : (c ∘ h.lift (ix2 n (0 : Fin 1))) = fun k : Fin 2 => c (ix3 k n (0 : Fin 1)) :=
    funext fun k => congrArg c (lift_stack h n k)
  have e2 := fold_max_two (Ideal.ofBits .f32 0xFF800000#32) (fun k : Fin 2 => c (ix3 k n (0 : Fin 1)))
  unfold tMax
  show max (Ideal.ofBits .f32 0xFF800000#32) (Host.reduce _ c _ _ _ (ix2 n (0 : Fin 1))) = _
  refine (max_negInf _).trans (e1.trans ?_)
  refine (congrArg (fun f => Finset.fold max (Ideal.ofBits .f32 0xFF800000#32) f (Finset.univ : Finset (Fin 2))) hf).trans (e2.trans ?_)
  show max (c (ix3 (0 : Fin 2) n (0 : Fin 1))) (max (c (ix3 (1 : Fin 2) n (0 : Fin 1))) (Ideal.ofBits .f32 0xFF800000#32)) = _
  rw [max_comm (c (ix3 (1 : Fin 2) n (0 : Fin 1))) _, max_negInf]

/-- The exponentials: each entry less the maximum of its column's two, through the exponential. -/
theorem tExp_apply (c : Arr S2x100000x1) (k : Fin 2) (n : Fin 100000) :
    tExp c (ix3 k n (0 : Fin 1)) = Ideal.exp (c (ix3 k n (0 : Fin 1)) - tMax c (ix2 n (0 : Fin 1))) := by
  unfold tExp
  exact congrArg (fun m => Ideal.exp (c (ix3 k n (0 : Fin 1)) - m)) (spread_apply (tMax c) k n)

/-- The sum along the stack's rows, from zero, is the sum of the two entries. -/
theorem sumRows_apply (x : Arr S2x100000x1) (n : Fin 100000) :
    Host.reduceAdd (F := Ideal) (φ := .f32) x (constant (F := Ideal) S_ .f32 0x00000000#32)
      reducesTo_S2x100000x1_S100000x1_d0 h_S_ (ix2 n (0 : Fin 1))
      = x (ix3 (0 : Fin 2) n (0 : Fin 1)) + x (ix3 (1 : Fin 2) n (0 : Fin 1)) := by
  have h : S2x100000x1.Reduces [0] S100000x1 := by decide
  show Ideal.hostReduceAdd reducesTo_S2x100000x1_S100000x1_d0 x (Ideal.ofBits .f32 0x00000000#32) (ix2 n (0 : Fin 1)) = _
  refine (Ideal.hostReduceAdd_single reducesTo_S2x100000x1_S100000x1_d0 h x _ (ix2 n (0 : Fin 1))).trans ?_
  rw [Ideal.ofBits_zero_f32, zero_add]
  refine (Fin.sum_univ_two (fun k : Fin 2 => x (h.lift (ix2 n (0 : Fin 1)) k))).trans ?_
  exact congrArg₂ (· + ·) (congrArg x (lift_stack h n (0 : Fin 2))) (congrArg x (lift_stack h n (1 : Fin 2)))

/-- The host's quotient at an index is the quotient of the entries. -/
theorem hostDivf_apply {s : Shape} (x y : s.Idx → EReal) (i : s.Idx) :
    Host.divf (F := Ideal) (φ := .f32) x y i = Ideal.div (x i) (y i) := rfl

/-- The softmax: each exponential over the sum of its column's two. -/
theorem tSoft_apply (c : Arr S2x100000x1) (k : Fin 2) (n : Fin 100000) :
    tSoft c (ix3 k n (0 : Fin 1))
      = Ideal.div (tExp c (ix3 k n (0 : Fin 1))) (tExp c (ix3 (0 : Fin 2) n (0 : Fin 1)) + tExp c (ix3 (1 : Fin 2) n (0 : Fin 1))) := by
  unfold tSoft
  rw [hostDivf_apply, spread_apply, sumRows_apply]

/-! ## The stage -/

/-- The first softmax weight of the stacked pair of columns. -/
theorem tSoft_cat_zero (s r : Arr SNx1) (n : Fin 100000) :
    tSoft (tCat s r) (ix3 (0 : Fin 2) n (0 : Fin 1)) = Cert.Spec.soft0 (s (ix2 n (0 : Fin 1))) (r (ix2 n (0 : Fin 1))) := by
  rw [tSoft_apply, tExp_apply, tExp_apply, tMax_apply, tCat_zero, tCat_one]
  rfl

/-- The second softmax weight of the stacked pair of columns. -/
theorem tSoft_cat_one (s r : Arr SNx1) (n : Fin 100000) :
    tSoft (tCat s r) (ix3 (1 : Fin 2) n (0 : Fin 1)) = Cert.Spec.soft1 (s (ix2 n (0 : Fin 1))) (r (ix2 n (0 : Fin 1))) := by
  rw [tSoft_apply, tExp_apply, tExp_apply, tMax_apply, tCat_zero, tCat_one]
  rfl

/-- THE ATTENDED FEATURES, index by index: the two softmax weights of the row's pair of logits on the two arrays. -/
theorem tRst_eq (s r : Arr SNx1) (d cv : Arr SNxD) :
    Cert.ReferenceIdeal.RefTerms.tRst s r d cv
      = fun i => Cert.Spec.soft0 (s (ix2 (i 0) (0 : Fin 1))) (r (ix2 (i 0) (0 : Fin 1))) * d i + Cert.Spec.soft1 (s (ix2 (i 0) (0 : Fin 1))) (r (ix2 (i 0) (0 : Fin 1))) * cv i := by
  funext i
  obtain ⟨n, q, rfl⟩ : ∃ (n : Fin 100000) (q : Fin 256), i = ix2 n q := ⟨i 0, i 1, eq_ix2 i⟩
  unfold tRst
  rw [addf_apply, mulf_apply, mulf_apply,
    weight_apply _ _ slices_S2x100000x1_S1x100000x1_0_0_0 (0 : Fin 2) rfl rfl rfl n q,
    weight_apply _ _ slices_S2x100000x1_S1x100000x1_1_0_0 (1 : Fin 2) rfl rfl rfl n q,
    tSoft_cat_zero, tSoft_cat_one]

end Cert.ReferenceIdeal.RefAlgRst

end
-- ==== Proof.RefAlg.lean ====
import proofs.«407857_j5583457485247_1_alg».proof.Proof.RefTerms
import proofs.«407857_j5583457485247_1_alg».proof.Proof.RefAlgRst
import proofs.«407857_j5583457485247_1_alg».proof.Proof.Spec
import proofs.«407857_j5583457485247_1_alg».proof.Proof.LibDot
import Idealize.ShloMosaic.Lib.ValueLayout
import Idealize.ShloMosaic.Lib.IdealHost
import Idealize.ShloMosaic.PureOps.Ideal.Laws

/-!
# The reference's composition of stages is the specification

Each stage of the reference program, a composition of whole-array operations, is read index by index and found to be the
specification's stage:

* an affine map is, at `(r, c)`, the sum over the shared axis of the products plus the bias's entry `c` (the bias, made a
  row and broadcast to every row, reads its entry `c` at every row);
* the neighbourhood sum and the in-degree are the same whole-array operations of the same operands in both, with the same
  dimension numbers: nothing is asked of what they hold;
* the mean message is, at `(r, c)`, the quotient by the degree's entry `r` clamped below by one (the constant `1.0` is the
  extended real `1`), plus the bias;
* the exponential-linear unit is, at each entry `z`, `z` where `z > 0` and `eᶻ − 1` elsewhere: where `z > 0` fails the
  entry is not replaced before the exponential is taken, and the product by the constant one changes nothing;
* the attended features are the two softmax weights of the row's pair of logits on the two arrays (proved in the sibling
  module for that stage).

The whole composition then unfolds, stage by stage, into the specification. No finiteness is used: every identity here
holds on all extended reals.
-/

noncomputable section

open scoped BigOperators

namespace Cert.ReferenceIdeal.RefAlg

open Idealize.ShloMosaic Idealize.ShloMosaic.ValueIdx Idealize.ShloMosaic.LibDot
open Cert.ReferenceIdeal Cert.ReferenceIdeal.Gen Cert.ReferenceIdeal.RefTerms
open Cert.Spec (Arr SNxD SNx1 SNxC SN SDxD SDx1 SDxC SD SC S1 SE)

/-! ## A bias broadcast to a row and then to every row, read at an index -/

/-- A `256`-vector made a row and broadcast to every row reads, at `(r, c)`, its entry `c`. -/
theorem biasD_apply (b : Arr SD) (r : Fin 100000) (c : Fin 256) :
    broadcastInDim S100000x256 ![0, 1] bcast_S1x256_S100000x256_0_1 (broadcastInDim S1x256 ![1] bcast_S256_S1x256_1 b) (ix2 r c)
      = b (ix1 c) :=
  (broadcastInDim_apply _ _ _ (ix2 r c) (ix2 (0 : Fin 1) c) fun a => match a with | ⟨0, _⟩ => rfl | ⟨1, _⟩ => rfl).trans
    (broadcastInDim_apply _ _ b (ix2 (0 : Fin 1) c) (ix1 c) fun a => match a with | ⟨0, _⟩ => rfl)

/-- A `1`-vector made a row and broadcast to every row reads, at `(r, c)`, its entry `c` (there is only one). -/
theorem bias1_apply (b : Arr S1) (r : Fin 100000) (c : Fin 1) :
    broadcastInDim S100000x1 ![0, 1] bcast_S1x1_S100000x1_0_1 (broadcastInDim S1x1 ![1] bcast_S1_S1x1_1 b) (ix2 r c)
      = b (ix1 c) :=
  (broadcastInDim_apply _ _ _ (ix2 r c) (ix2 (0 : Fin 1) (0 : Fin 1)) fun a => match a with | ⟨0, _⟩ => rfl | ⟨1, _⟩ => rfl).trans
    ((broadcastInDim_apply _ _ b (ix2 (0 : Fin 1) (0 : Fin 1)) (ix1 (0 : Fin 1)) fun a => match a with | ⟨0, _⟩ => rfl).trans
      (congrArg b (congrArg ix1 (Subsingleton.elim (0 : Fin 1) c))))

/-- A `16`-vector made a row and broadcast to every row reads, at `(r, c)`, its entry `c`. -/
theorem biasC_apply (b : Arr SC) (r : Fin 100000) (c : Fin 16) :
    broadcastInDim S100000x16 ![0, 1] bcast_S1x16_S100000x16_0_1 (broadcastInDim S1x16 ![1] bcast_S16_S1x16_1 b) (ix2 r c)
      = b (ix1 c) :=
  (broadcastInDim_apply _ _ _ (ix2 r c) (ix2 (0 : Fin 1) c) fun a => match a with | ⟨0, _⟩ => rfl | ⟨1, _⟩ => rfl).trans
    (broadcastInDim_apply _ _ b (ix2 (0 : Fin 1) c) (ix1 c) fun a => match a with | ⟨0, _⟩ => rfl)

/-! ## The affine maps -/

/-- `x·w + b` at width `256`: at `(r, c)`, the sum over `k` of `x (r, k) · w (k, c)`, plus `b c`. -/
theorem tLinD_eq (x : Arr SNxD) (w : Arr SDxD) (b : Arr SD) : tLinD x w b = Cert.Spec.linD x w b := by
  funext i
  obtain ⟨r, c, rfl⟩ : ∃ (r : Fin 100000) (c : Fin 256), i = ix2 r c := ⟨i 0, i 1, eq_ix2 i⟩
  refine Eq.trans ?_ (Cert.Spec.linD_apply x w b r c).symm
  unfold tLinD
  refine congrArg₂ (· + ·) ?_ (biasD_apply b r c)
  exact dotGeneral_host_apply ⟨rfl, rfl, rfl, rfl, rfl, rfl⟩ none x w (ix2 r c)

/-- `x·w + b` at width `1`. -/
theorem tLin1_eq (x : Arr SNxD) (w : Arr SDx1) (b : Arr S1) : tLin1 x w b = Cert.Spec.lin1 x w b := by
  funext i
  obtain ⟨r, c, rfl⟩ : ∃ (r : Fin 100000) (c : Fin 1), i = ix2 r c := ⟨i 0, i 1, eq_ix2 i⟩
  refine Eq.trans ?_ (Cert.Spec.lin1_apply x w b r c).symm
  unfold tLin1
  refine congrArg₂ (· + ·) ?_ (bias1_apply b r c)
  exact dotGeneral_host_apply ⟨rfl, rfl, rfl, rfl, rfl, rfl⟩ none x w (ix2 r c)

/-- `x·w + b` at width `16`. -/
theorem tLinC_eq (x : Arr SNxD) (w : Arr SDxC) (b : Arr SC) : tLinC x w b = Cert.Spec.linC x w b := by
  funext i
  obtain ⟨r, c, rfl⟩ : ∃ (r : Fin 100000) (c : Fin 16), i = ix2 r c := ⟨i 0, i 1, eq_ix2 i⟩
  refine Eq.trans ?_ (Cert.Spec.linC_apply x w b r c).symm
  unfold tLinC
  refine congrArg₂ (· + ·) ?_ (biasC_apply b r c)
  exact dotGeneral_host_apply ⟨rfl, rfl, rfl, rfl, rfl, rfl⟩ none x w (ix2 r c)

/-- `x·w` at width `256`. -/
theorem tMulD_eq (x : Arr SNxD) (w : Arr SDxD) : tMulD x w = Cert.Spec.mulD x w := by
  funext i
  obtain ⟨r, c, rfl⟩ : ∃ (r : Fin 100000) (c : Fin 256), i = ix2 r c := ⟨i 0, i 1, eq_ix2 i⟩
  refine Eq.trans ?_ (Cert.Spec.mulD_apply x w r c).symm
  unfold tMulD
  exact dotGeneral_host_apply ⟨rfl, rfl, rfl, rfl, rfl, rfl⟩ none x w (ix2 r c)

/-! ## Along the edges: the same operations of the same operands -/

/-- The neighbourhood sum: the same gather and accumulating scatter, with dimension numbers of the same fields. -/
theorem tAgg_eq (msg : Arr SNxD) (src dst : IVec SE 32) : tAgg msg src dst = Cert.Spec.agg msg src dst := rfl

/-- The in-degree: the same accumulating scatter of ones. -/
theorem tDeg_eq (dst : IVec SE 32) : tDeg dst = Cert.Spec.deg dst := rfl

/-! ## The mean message -/

/-- At `(r, c)`: `a (r, c) / max (g r) 1 + b c`. The clamped degree, made a column and broadcast along the features, reads
    its entry `r`; the broadcast constant `1.0` reads the extended real `1`. -/
theorem tConv_eq (a : Arr SNxD) (g : Arr SN) (b : Arr SD) : tConv a g b = Cert.Spec.conv a g b := by
  funext i
  obtain ⟨r, c, rfl⟩ : ∃ (r : Fin 100000) (c : Fin 256), i = ix2 r c := ⟨i 0, i 1, eq_ix2 i⟩
  refine Eq.trans ?_ (Cert.Spec.conv_apply a g b r c).symm
  unfold tConv
  refine congrArg₂ (· + ·) ?_ (biasD_apply b r c)
  refine (hostDivf_apply _ _ (ix2 r c)).trans (congrArg (Ideal.div (a (ix2 r c))) ?_)
  refine (broadcastInDim_apply _ _ _ (ix2 r c) (ix2 r (0 : Fin 1)) fun a => match a with | ⟨0, _⟩ => rfl | ⟨1, _⟩ => rfl).trans ?_
  refine (broadcastInDim_apply _ _ _ (ix2 r (0 : Fin 1)) (ix1 r) fun a => match a with | ⟨0, _⟩ => rfl).trans ?_
  refine (maximumf_apply _ _ (ix1 r)).trans (congrArg (max (g (ix1 r))) ?_)
  exact (broadcastInDim_scalar_apply _ _ (ix1 r)).trans Ideal.ofBits_one_f32

/-! ## The exponential-linear unit -/

/-- At each entry `z`: `z` where `z > 0`, `eᶻ − 1` elsewhere. The broadcast constants read `0` and `1`. Where `z > 0` both
    selections take `z`; elsewhere the inner selection leaves `z` in place under the exponential, and the outer one takes
    `1 · (eᶻ − 1) = eᶻ − 1`. -/
theorem tElu_eq (z : Arr SNx1) : tElu z = fun i => Cert.Spec.elu (z i) := by
  funext i
  have hZ : broadcastInDim S100000x1 ![] bcast_S_S100000x1 (constant (F := Ideal) S_ .f32 0x00000000#32) i = (0 : EReal) :=
    (broadcastInDim_scalar_apply _ _ i).trans Ideal.ofBits_zero_f32
  have hZ' : broadcastInDim S100000x1 ![] bcast_S_S100000x1 (id (constant (F := Ideal) S_ .f32 0x00000000#32)) i = (0 : EReal) :=
    hZ
  have hO : broadcastInDim S100000x1 ![] bcast_S_S100000x1 (constant (F := Ideal) S_ .f32 0x3F800000#32) i = (1 : EReal) :=
    (broadcastInDim_scalar_apply _ _ i).trans Ideal.ofBits_one_f32
  unfold tElu Cert.Spec.elu
  show Scalar.select (Ideal.cmp .ogt (z i) (_ : EReal)) (z i)
      ((_ : EReal) * (Ideal.exp (Scalar.select (Ideal.cmp .ogt (z i) (_ : EReal)) (_ : EReal) (z i)) - 1))
    = Scalar.select (Ideal.cmp .ogt (z i) 0) (z i) (Ideal.exp (z i) - 1)
  rw [hZ, hZ', hO, one_mul]
  rcases BitVec.eq_zero_or_eq_one (Ideal.cmp .ogt (z i) 0) with h | h
  · rw [h]; simp only [select_zero]
  · rw [h]; simp only [select_one]

/-! ## The stages read at an index -/

/-- The exponential-linear unit of a column, at an index. -/
theorem tElu_apply (z : Arr SNx1) (i : SNx1.Idx) : tElu z i = Cert.Spec.elu (z i) := congrFun (tElu_eq z) i

/-- The attended features, at an index: the two softmax weights of the row's pair of logits on the two arrays. -/
theorem tRst_apply (s r : Arr SNx1) (d cv : Arr SNxD) (i : SNxD.Idx) :
    tRst s r d cv i = Cert.Spec.soft0 (s (ix2 (i 0) (0 : Fin 1))) (r (ix2 (i 0) (0 : Fin 1))) * d i
      + Cert.Spec.soft1 (s (ix2 (i 0) (0 : Fin 1))) (r (ix2 (i 0) (0 : Fin 1))) * cv i :=
  congrFun (Cert.ReferenceIdeal.RefAlgRst.tRst_eq s r d cv) i

/-- The specification's attended features, at an index, with its two logits written out. -/
theorem rst_unfold (d cv : Arr SNxD) (hl hr : Arr SNx1) (wk : Arr SDxD) (bk : Arr SD) (wal : Arr SDx1) (bal : Arr S1)
    (i : SNxD.Idx) :
    Cert.Spec.rst d hl hr cv wk bk wal bal i
      = Cert.Spec.soft0 (Cert.Spec.elu (hl (ix2 (i 0) (0 : Fin 1)) + hr (ix2 (i 0) (0 : Fin 1))))
            (Cert.Spec.elu (Cert.Spec.lin1 (Cert.Spec.linD cv wk bk) wal bal (ix2 (i 0) (0 : Fin 1)) + hr (ix2 (i 0) (0 : Fin 1)))) * d i
        + Cert.Spec.soft1 (Cert.Spec.elu (hl (ix2 (i 0) (0 : Fin 1)) + hr (ix2 (i 0) (0 : Fin 1))))
            (Cert.Spec.elu (Cert.Spec.lin1 (Cert.Spec.linD cv wk bk) wal bal (ix2 (i 0) (0 : Fin 1)) + hr (ix2 (i 0) (0 : Fin 1)))) * cv i :=
  rfl

/-- The attended features of the two logits, each a sum of two columns through the exponential-linear unit, are the
    specification's: the node's own logit is `elu (hl + hr)`, the relation's is `elu ((cv·Wk + bk)·wal + bal + hr)`. -/
theorem tRst_total (d cv : Arr SNxD) (hl hr : Arr SNx1) (wk : Arr SDxD) (bk : Arr SD) (wal : Arr SDx1) (bal : Arr S1) :
    tRst (tElu (addf (F := Ideal) (φ := .f32) hl hr))
        (tElu (addf (F := Ideal) (φ := .f32) (Cert.Spec.lin1 (Cert.Spec.linD cv wk bk) wal bal) hr)) d cv
      = Cert.Spec.rst d hl hr cv wk bk wal bal := by
  funext i
  rw [rst_unfold, tRst_apply, tElu_apply, tElu_apply, addf_apply, addf_apply]

/-! ## The whole composition -/

/-- THE REFERENCE'S COMPOSITION IS THE SPECIFICATION: every stage is rewritten to the specification's, and the attended
    features are matched last, over the stages already rewritten. -/
theorem total_eq (xp xa : Arr SNxD) (src dst : IVec SE 32) (ws : Arr SDxD) (bs : Arr SD) (wq : Arr SDxD) (bq : Arr SD)
    (wk : Arr SDxD) (bk : Arr SD) (wal : Arr SDx1) (bal : Arr S1) (war : Arr SDx1) (bar : Arr S1)
    (wc : Arr SDxD) (cb : Arr SD) (cw : Arr SDxC) (cbs : Arr SC) :
    Cert.ReferenceIdeal.RefTerms.tTotal xp xa src dst ws bs wq bq wk bk wal bal war bar wc cb cw cbs
      = Cert.Spec.total xp xa src dst ws bs wq bq wk bk wal bal war bar wc cb cw cbs := by
  unfold tTotal Cert.Spec.total Cert.Spec.combine
  rw [tLinC_eq]
  simp only [tLinD_eq, tLin1_eq, tMulD_eq, tAgg_eq, tDeg_eq, tConv_eq]
  rw [tRst_total]

end Cert.ReferenceIdeal.RefAlg

end
-- ==== Proof.lean ====
import proofs.«407857_j5583457485247_1_alg».proof.Defs
import proofs.«407857_j5583457485247_1_alg».proof.Proof.Gen.Kernel
import proofs.«407857_j5583457485247_1_alg».proof.Proof.Gen.Kernel.Skeleton
import proofs.«407857_j5583457485247_1_alg».proof.Proof.Gen.Kernel.Launch
import proofs.«407857_j5583457485247_1_alg».proof.Proof.Gen.Kernel.Points
import proofs.«407857_j5583457485247_1_alg».proof.Proof.Gen.Kernel.Frame
import proofs.«407857_j5583457485247_1_alg».proof.Proof.Gen.KernelIdeal
import proofs.«407857_j5583457485247_1_alg».proof.Proof.Gen.KernelIdeal.Skeleton
import proofs.«407857_j5583457485247_1_alg».proof.Proof.Gen.KernelIdeal.Launch
import proofs.«407857_j5583457485247_1_alg».proof.Proof.Gen.KernelIdeal.Points
import proofs.«407857_j5583457485247_1_alg».proof.Proof.Gen.KernelIdeal.Frame
import proofs.«407857_j5583457485247_1_alg».proof.Proof.Gen.ReferenceIdeal
import proofs.«407857_j5583457485247_1_alg».proof.Proof.Gen.Pre_finite_inputs
import proofs.«407857_j5583457485247_1_alg».proof.Proof.Spec
import proofs.«407857_j5583457485247_1_alg».proof.Proof.KRun
import proofs.«407857_j5583457485247_1_alg».proof.Proof.KChain
import proofs.«407857_j5583457485247_1_alg».proof.Proof.RefRun
import proofs.«407857_j5583457485247_1_alg».proof.Proof.RefValue
import proofs.«407857_j5583457485247_1_alg».proof.Proof.RefAlg
import Idealize.ShloMosaic.Adequacy
import Idealize.ShloMosaic.Init

/-!
# One graph-attention layer on the paper nodes: three row-tiled kernels against the plain array program

The kernel program computes the layer in three kernels over tiles of 2000 rows — the node's own transform with its
two attention scalars; the source nodes' messages; the mean message, the two-way softmax of the attention logits, the
weighted sum and the class scores — and takes the gather along the edges and the two sums over edges with host
operations between the second and the third kernel. The reference computes the same layer (and a second, unused one
on the other node type) with whole-array host operations. Over the extended reals both results are the one function
`Cert.Spec.total` of the argument arrays: a matrix product is the sum over the shared axis whether taken tile by tile
into a zero accumulator or whole; `eᶻ − 1` is the host's `expm1`; the softmax of a pair is the same two quotients
whether the maximum and the sum are taken of two values or reduced along an axis of extent two from `−∞` and `0`;
the gather and the sums over edges are the same operations on equal operands. No identity used needs a finite input.
-/

noncomputable section

namespace Cert.Proof

open Idealize.ShloMosaic Idealize.ShloMosaic.TcCoe Idealize.SL.Sem

/-! ## The three frames -/

theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations: it runs to the fold of its operations over the launch
    memory, and no operation writes an argument's buffer. -/
theorem frame_referenceIdeal : Cert.frame_ReferenceIdeal := fun m ρ _ =>
  (θ_run Cert.ReferenceIdeal.defs _ _).mono (fun r h c =>
      ⟨(h c Cert.ReferenceIdeal.main_arg0).trans (Cert.ReferenceIdeal.RefRun.kept_main_arg0 _),
        (h c Cert.ReferenceIdeal.main_arg1).trans (Cert.ReferenceIdeal.RefRun.kept_main_arg1 _),
        (h c Cert.ReferenceIdeal.main_arg2).trans (Cert.ReferenceIdeal.RefRun.kept_main_arg2 _),
        (h c Cert.ReferenceIdeal.main_arg3).trans (Cert.ReferenceIdeal.RefRun.kept_main_arg3 _),
        (h c Cert.ReferenceIdeal.main_arg4).trans (Cert.ReferenceIdeal.RefRun.kept_main_arg4 _),
        (h c Cert.ReferenceIdeal.main_arg5).trans (Cert.ReferenceIdeal.RefRun.kept_main_arg5 _),
        (h c Cert.ReferenceIdeal.main_arg6).trans (Cert.ReferenceIdeal.RefRun.kept_main_arg6 _),
        (h c Cert.ReferenceIdeal.main_arg7).trans (Cert.ReferenceIdeal.RefRun.kept_main_arg7 _),
        (h c Cert.ReferenceIdeal.main_arg8).trans (Cert.ReferenceIdeal.RefRun.kept_main_arg8 _),
        (h c Cert.ReferenceIdeal.main_arg9).trans (Cert.ReferenceIdeal.RefRun.kept_main_arg9 _),
        (h c Cert.ReferenceIdeal.main_arg10).trans (Cert.ReferenceIdeal.RefRun.kept_main_arg10 _),
        (h c Cert.ReferenceIdeal.main_arg11).trans (Cert.ReferenceIdeal.RefRun.kept_main_arg11 _),
        (h c Cert.ReferenceIdeal.main_arg12).trans (Cert.ReferenceIdeal.RefRun.kept_main_arg12 _),
        (h c Cert.ReferenceIdeal.main_arg13).trans (Cert.ReferenceIdeal.RefRun.kept_main_arg13 _),
        (h c Cert.ReferenceIdeal.main_arg14).trans (Cert.ReferenceIdeal.RefRun.kept_main_arg14 _),
        (h c Cert.ReferenceIdeal.main_arg15).trans (Cert.ReferenceIdeal.RefRun.kept_main_arg15 _),
        (h c Cert.ReferenceIdeal.main_arg16).trans (Cert.ReferenceIdeal.RefRun.kept_main_arg16 _),
        (h c Cert.ReferenceIdeal.main_arg17).trans (Cert.ReferenceIdeal.RefRun.kept_main_arg17 _),
        (h c Cert.ReferenceIdeal.main_arg18).trans (Cert.ReferenceIdeal.RefRun.kept_main_arg18 _),
        (h c Cert.ReferenceIdeal.main_arg19).trans (Cert.ReferenceIdeal.RefRun.kept_main_arg19 _),
        (h c Cert.ReferenceIdeal.main_arg20).trans (Cert.ReferenceIdeal.RefRun.kept_main_arg20 _),
        (h c Cert.ReferenceIdeal.main_arg21).trans (Cert.ReferenceIdeal.RefRun.kept_main_arg21 _),
        (h c Cert.ReferenceIdeal.main_arg22).trans (Cert.ReferenceIdeal.RefRun.kept_main_arg22 _),
        (h c Cert.ReferenceIdeal.main_arg23).trans (Cert.ReferenceIdeal.RefRun.kept_main_arg23 _),
        (h c Cert.ReferenceIdeal.main_arg24).trans (Cert.ReferenceIdeal.RefRun.kept_main_arg24 _),
        (h c Cert.ReferenceIdeal.main_arg25).trans (Cert.ReferenceIdeal.RefRun.kept_main_arg25 _),
        (h c Cert.ReferenceIdeal.main_arg26).trans (Cert.ReferenceIdeal.RefRun.kept_main_arg26 _),
        (h c Cert.ReferenceIdeal.main_arg27).trans (Cert.ReferenceIdeal.RefRun.kept_main_arg27 _),
        (h c Cert.ReferenceIdeal.main_arg28).trans (Cert.ReferenceIdeal.RefRun.kept_main_arg28 _),
        (h c Cert.ReferenceIdeal.main_arg29).trans (Cert.ReferenceIdeal.RefRun.kept_main_arg29 _),
        (h c Cert.ReferenceIdeal.main_arg30).trans (Cert.ReferenceIdeal.RefRun.kept_main_arg30 _),
        (h c Cert.ReferenceIdeal.main_arg31).trans (Cert.ReferenceIdeal.RefRun.kept_main_arg31 _)⟩)
    (Cert.ReferenceIdeal.RefRun.run (F := Ideal) m ρ)

/-! ## The idealization rewrote nothing -/

theorem preserves : Cert.preserves_Kernel_KernelIdeal := trivial

/-! ## Equal results -/

/-- Both programs end with the layer's function of the argument arrays in their result buffers. -/
theorem algebraic : Cert.algebraic_KernelIdeal_ReferenceIdeal := by
  intro m ρ m' ρ' _ hagree
  refine ⟨fun c => Cert.Spec.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)), ?_, ?_⟩
  · exact (θ_run Cert.KernelIdeal.defs _ _).mono
      (fun r h c => ⟨(h c).1.trans (Cert.KernelIdeal.Chain.result_eq m ρ c), (h c).2⟩)
      (Cert.KernelIdeal.KRun.run_result (F := Ideal) m ρ)
  · refine (θ_run Cert.ReferenceIdeal.defs _ _).mono (fun r h c => ⟨?_,
        (h c Cert.ReferenceIdeal.main_arg0).trans (Cert.ReferenceIdeal.RefRun.kept_main_arg0 _),
        (h c Cert.ReferenceIdeal.main_arg1).trans (Cert.ReferenceIdeal.RefRun.kept_main_arg1 _),
        (h c Cert.ReferenceIdeal.main_arg2).trans (Cert.ReferenceIdeal.RefRun.kept_main_arg2 _),
        (h c Cert.ReferenceIdeal.main_arg3).trans (Cert.ReferenceIdeal.RefRun.kept_main_arg3 _),
        (h c Cert.ReferenceIdeal.main_arg4).trans (Cert.ReferenceIdeal.RefRun.kept_main_arg4 _),
        (h c Cert.ReferenceIdeal.main_arg5).trans (Cert.ReferenceIdeal.RefRun.kept_main_arg5 _),
        (h c Cert.ReferenceIdeal.main_arg6).trans (Cert.ReferenceIdeal.RefRun.kept_main_arg6 _),
        (h c Cert.ReferenceIdeal.main_arg7).trans (Cert.ReferenceIdeal.RefRun.kept_main_arg7 _),
        (h c Cert.ReferenceIdeal.main_arg8).trans (Cert.ReferenceIdeal.RefRun.kept_main_arg8 _),
        (h c Cert.ReferenceIdeal.main_arg9).trans (Cert.ReferenceIdeal.RefRun.kept_main_arg9 _),
        (h c Cert.ReferenceIdeal.main_arg10).trans (Cert.ReferenceIdeal.RefRun.kept_main_arg10 _),
        (h c Cert.ReferenceIdeal.main_arg11).trans (Cert.ReferenceIdeal.RefRun.kept_main_arg11 _),
        (h c Cert.ReferenceIdeal.main_arg12).trans (Cert.ReferenceIdeal.RefRun.kept_main_arg12 _),
        (h c Cert.ReferenceIdeal.main_arg13).trans (Cert.ReferenceIdeal.RefRun.kept_main_arg13 _),
        (h c Cert.ReferenceIdeal.main_arg14).trans (Cert.ReferenceIdeal.RefRun.kept_main_arg14 _),
        (h c Cert.ReferenceIdeal.main_arg15).trans (Cert.ReferenceIdeal.RefRun.kept_main_arg15 _),
        (h c Cert.ReferenceIdeal.main_arg16).trans (Cert.ReferenceIdeal.RefRun.kept_main_arg16 _),
        (h c Cert.ReferenceIdeal.main_arg17).trans (Cert.ReferenceIdeal.RefRun.kept_main_arg17 _),
        (h c Cert.ReferenceIdeal.main_arg18).trans (Cert.ReferenceIdeal.RefRun.kept_main_arg18 _),
        (h c Cert.ReferenceIdeal.main_arg19).trans (Cert.ReferenceIdeal.RefRun.kept_main_arg19 _),
        (h c Cert.ReferenceIdeal.main_arg20).trans (Cert.ReferenceIdeal.RefRun.kept_main_arg20 _),
        (h c Cert.ReferenceIdeal.main_arg21).trans (Cert.ReferenceIdeal.RefRun.kept_main_arg21 _),
        (h c Cert.ReferenceIdeal.main_arg22).trans (Cert.ReferenceIdeal.RefRun.kept_main_arg22 _),
        (h c Cert.ReferenceIdeal.main_arg23).trans (Cert.ReferenceIdeal.RefRun.kept_main_arg23 _),
        (h c Cert.ReferenceIdeal.main_arg24).trans (Cert.ReferenceIdeal.RefRun.kept_main_arg24 _),
        (h c Cert.ReferenceIdeal.main_arg25).trans (Cert.ReferenceIdeal.RefRun.kept_main_arg25 _),
        (h c Cert.ReferenceIdeal.main_arg26).trans (Cert.ReferenceIdeal.RefRun.kept_main_arg26 _),
        (h c Cert.ReferenceIdeal.main_arg27).trans (Cert.ReferenceIdeal.RefRun.kept_main_arg27 _),
        (h c Cert.ReferenceIdeal.main_arg28).trans (Cert.ReferenceIdeal.RefRun.kept_main_arg28 _),
        (h c Cert.ReferenceIdeal.main_arg29).trans (Cert.ReferenceIdeal.RefRun.kept_main_arg29 _),
        (h c Cert.ReferenceIdeal.main_arg30).trans (Cert.ReferenceIdeal.RefRun.kept_main_arg30 _),
        (h c Cert.ReferenceIdeal.main_arg31).trans (Cert.ReferenceIdeal.RefRun.kept_main_arg31 _)⟩)
      (Cert.ReferenceIdeal.RefRun.run (F := Ideal) m' ρ')
    refine (h c Cert.ReferenceIdeal.main_v159).trans ((Cert.ReferenceIdeal.RefValue.out_eq _).trans ((Cert.ReferenceIdeal.RefAlg.total_eq _ _ _ _ _ _ _ _ _ _ _ _ _ _ _ _ _ _).trans ?_))
    obtain ⟨h0, h1, h2, h3, h4, h5, h6, h7, h8, h9, h10, h11, h12, h13, h14, h15, h16, h17, h18, h19, h20, h21, h22, h23, h24, h25, h26, h27, h28, h29, h30, h31⟩ := hagree c
    show Cert.Spec.total (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg30)) (m' ((c.tc : Thread Cert.ReferenceIdeal.nD Cert.ReferenceIdeal.τ).loc Cert.ReferenceIdeal.main_arg31)) = _
    rw [h0, h1, h2, h3, h6, h7, h10, h11, h14, h15, h18, h19, h22, h23, h26, h27, h30, h31]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
